-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S8192x8192 : Shape := ⟨2, ![8192, 8192]⟩
abbrev S64x512 : Shape := ⟨2, ![64, 512]⟩
abbrev S_ : Shape := ⟨0, ![]⟩
abbrev S8192 : Shape := ⟨1, ![8192]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S64x512 : S_.BroadcastsInDim S64x512 (![] : Fin 0 → Fin S64x512.rank)
  reducesTo_S64x512_S_d0_1 : S64x512.ReducesTo [0, 1] S_
  bcast_S_S8192x8192 : S_.BroadcastsInDim S8192x8192 (![] : Fin 0 → Fin S8192x8192.rank)
  reducesTo_S8192x8192_S_d0_1 : S8192x8192.ReducesTo [0, 1] S_
  natLt_1_32 : 1 < 32
  reducesTo_S8192x8192_S8192_d1 : S8192x8192.ReducesTo [1] S8192
  bcast_S_S8192 : S_.BroadcastsInDim S8192 (![] : Fin 0 → Fin S8192.rank)
  reducesTo_S8192_S_d0 : S8192.ReducesTo [0] S_

variable [Facts]

def fn_part2 {F : FTy → Type} [FloatOps F] (main_v25 : IVec S_ 1) (main_v32 : IVec S_ 1) : IVec S_ 1 :=
  let main_v33 : IVec S_ 1 := andi main_v25 main_v32
  main_v33

def fn_part1 {F : FTy → Type} [FloatOps F] (main_arg1 : IVec S8192x8192 32) (main_v13 : IVec S_ 1) (main_v16 : IVec S64x512 1) : IVec S_ 1 :=
  let main_c_5 : IVec S_ 1 := constantI S_ 1 1#1
  let main_v17 : IVec S_ 1 := (fun x v => Host.reduce IntOp.andi x v reducesTo_S64x512_S_d0_1 h_S_) main_v16 main_c_5
  let main_v18 : IVec S_ 1 := andi main_v13 main_v17
  let main_c_6 : IVec S_ 32 := constantI S_ 32 0#32
  let main_v19 : IVec S8192x8192 32 := broadcastInDim S8192x8192 ![] bcast_S_S8192x8192 main_c_6
  let main_v20 : IVec S8192x8192 1 := cmpi .eq main_arg1 main_v19
  let main_c_7 : IVec S_ 32 := constantI S_ 32 1#32
  let main_v21 : IVec S8192x8192 32 := broadcastInDim S8192x8192 ![] bcast_S_S8192x8192 main_c_7
  let main_v22 : IVec S8192x8192 1 := cmpi .eq main_arg1 main_v21
  let main_v23 : IVec S8192x8192 1 := ori main_v20 main_v22
  let main_c_8 : IVec S_ 1 := constantI S_ 1 1#1
  let main_v24 : IVec S_ 1 := (fun x v => Host.reduce IntOp.andi x v reducesTo_S8192x8192_S_d0_1 h_S_) main_v23 main_c_8
  let main_v25 : IVec S_ 1 := andi main_v18 main_v24
  let main_c_9 : IVec S_ 32 := constantI S_ 32 0#32
  let main_v26 : IVec S8192x8192 32 := broadcastInDim S8192x8192 ![] bcast_S_S8192x8192 main_c_9
  let main_v27 : IVec S8192x8192 1 := cmpi .ne main_arg1 main_v26
  let main_v28 : IVec S8192x8192 32 := (extui 32 · natLt_1_32) main_v27
  let main_c_10 : IVec S_ 32 := constantI S_ 32 0#32
  let main_v29 : IVec S8192 32 := (fun x v => Host.reduce IntOp.addi x v reducesTo_S8192x8192_S8192_d1 h_S_) main_v28 main_c_10
  let main_c_11 : IVec S_ 32 := constantI S_ 32 1#32
  let main_v30 : IVec S8192 32 := broadcastInDim S8192 ![] bcast_S_S8192 main_c_11
  let main_v31 : IVec S8192 1 := cmpi .sge main_v29 main_v30
  let main_c_12 : IVec S_ 1 := constantI S_ 1 1#1
  let main_v32 : IVec S_ 1 := (fun x v => Host.reduce IntOp.andi x v reducesTo_S8192_S_d0 h_S_) main_v31 main_c_12
  fn_part2 (F := F) main_v25 main_v32

def fn {F : FTy → Type} [FloatOps F] (main_arg0 : FVec F S8192x512 .f32) (main_arg1 : IVec S8192x8192 32) (main_arg2 : FVec F S64x512 .f32) (main_arg3 : FVec F S64x512 .f32) (main_arg4 : FVec F S64x512 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S64x512 .f32 := Host.absf main_arg2
  let main_cst_0 : FVec F S_ .f32 := constant S_ .f32 0x7F800000#32
  let main_v5 : FVec F S64x512 .f32 := broadcastInDim S64x512 ![] bcast_S_S64x512 main_cst_0
  let main_v6 : IVec S64x512 1 := cmpf .olt main_v4 main_v5
  let main_c_1 : IVec S_ 1 := constantI S_ 1 1#1
  let main_v7 : IVec S_ 1 := (fun x v => Host.reduce IntOp.andi x v reducesTo_S64x512_S_d0_1 h_S_) main_v6 main_c_1
  let main_v8 : IVec S_ 1 := andi main_v3 main_v7
  let main_v9 : FVec F S64x512 .f32 := Host.absf main_arg3
  let main_cst_2 : FVec F S_ .f32 := constant S_ .f32 0x7F800000#32
  let main_v10 : FVec F S64x512 .f32 := broadcastInDim S64x512 ![] bcast_S_S64x512 main_cst_2
  let main_v11 : IVec S64x512 1 := cmpf .olt main_v9 main_v10
  let main_c_3 : IVec S_ 1 := constantI S_ 1 1#1
  let main_v12 : IVec S_ 1 := (fun x v => Host.reduce IntOp.andi x v reducesTo_S64x512_S_d0_1 h_S_) main_v11 main_c_3
  let main_v13 : IVec S_ 1 := andi main_v8 main_v12
  let main_v14 : FVec F S64x512 .f32 := Host.absf main_arg4
  let main_cst_4 : FVec F S_ .f32 := constant S_ .f32 0x7F800000#32
  let main_v15 : FVec F S64x512 .f32 := broadcastInDim S64x512 ![] bcast_S_S64x512 main_cst_4
  let main_v16 : IVec S64x512 1 := cmpf .olt main_v14 main_v15
  fn_part1 (F := F) main_arg1 main_v13 main_v16
-- ==== Kernel.lean ====
abbrev S8192x512 : Shape := ⟨2, ![8192, 512]⟩
abbrev S8192x8192 : Shape := ⟨2, ![8192, 8192]⟩
abbrev S64x512 : Shape := ⟨2, ![64, 512]⟩
abbrev S_ : Shape := ⟨0, ![]⟩
abbrev S192x512 : Shape := ⟨2, ![192, 512]⟩
abbrev S512x192 : Shape := ⟨2, ![512, 192]⟩
abbrev S8192x192 : Shape := ⟨2, ![8192, 192]⟩
abbrev S8192x64 : Shape := ⟨2, ![8192, 64]⟩
abbrev S8192x1 : Shape := ⟨2, ![8192, 1]⟩
abbrev S8192x63 : Shape := ⟨2, ![8192, 63]⟩
abbrev S8192x128 : Shape := ⟨2, ![8192, 128]⟩
abbrev S1024x64 : Shape := ⟨2, ![1024, 64]⟩
abbrev S2048x64 : Shape := ⟨2, ![2048, 64]⟩
abbrev S2048x128 : Shape := ⟨2, ![2048, 128]⟩
abbrev S1024x2048 : Shape := ⟨2, ![1024, 2048]⟩
abbrev S1024x1 : Shape := ⟨2, ![1024, 1]⟩
abbrev S1024x128 : Shape := ⟨2, ![1024, 128]⟩
abbrev S1024 : Shape := ⟨1, ![1024]⟩

abbrev nBuf : Space → Nat
  | .hbm => 23
  | .vmem => 12
  | .smem => 0
  | _ => 0

abbrev bufTy : (tb : Table) → Fin (tcTables nBuf tb) → BufTy
  | .hbm, ⟨0, _⟩ => ⟨S8192x512, .f32⟩
  | .hbm, ⟨1, _⟩ => ⟨S8192x8192, .i32⟩
  | .hbm, ⟨2, _⟩ => ⟨S64x512, .f32⟩
  | .hbm, ⟨3, _⟩ => ⟨S64x512, .f32⟩
  | .hbm, ⟨4, _⟩ => ⟨S64x512, .f32⟩
  | .hbm, ⟨5, _⟩ => ⟨S_, .f32⟩
  | .hbm, ⟨6, _⟩ => ⟨S64x512, .f32⟩
  | .hbm, ⟨7, _⟩ => ⟨S64x512, .f32⟩
  | .hbm, ⟨8, _⟩ => ⟨S192x512, .f32⟩
  | .hbm, ⟨9, _⟩ => ⟨S512x192, .f32⟩
  | .hbm, ⟨10, _⟩ => ⟨S8192x192, .f32⟩
  | .hbm, ⟨11, _⟩ => ⟨S8192x64, .f32⟩
  | .hbm, ⟨12, _⟩ => ⟨S8192x64, .f32⟩
  | .hbm, ⟨13, _⟩ => ⟨S8192x64, .f32⟩
  | .hbm, ⟨14, _⟩ => ⟨S8192x64, .bf16⟩
  | .hbm, ⟨15, _⟩ => ⟨S8192x64, .bf16⟩
  | .hbm, ⟨16, _⟩ => ⟨S8192x64, .bf16⟩
  | .hbm, ⟨17, _⟩ => ⟨S_, .bf16⟩
  | .hbm, ⟨18, _⟩ => ⟨S8192x1, .bf16⟩
  | .hbm, ⟨19, _⟩ => ⟨S_, .bf16⟩
  | .hbm, ⟨20, _⟩ => ⟨S8192x63, .bf16⟩
  | .hbm, ⟨21, _⟩ => ⟨S8192x128, .bf16⟩
  | .hbm, ⟨22, _⟩ => ⟨S8192x64, .f32⟩
  | .local _ .vmem, ⟨0, _⟩ => ⟨S1024x64, .bf16⟩
  | .local _ .vmem, ⟨1, _⟩ => ⟨S1024x64, .bf16⟩
  | .local _ .vmem, ⟨2, _⟩ => ⟨S2048x64, .bf16⟩
  | .local _ .vmem, ⟨3, _⟩ => ⟨S2048x64, .bf16⟩
  | .local _ .vmem, ⟨4, _⟩ => ⟨S2048x128, .bf16⟩
  | .local _ .vmem, ⟨5, _⟩ => ⟨S2048x128, .bf16⟩
  | .local _ .vmem, ⟨6, _⟩ => ⟨S1024x2048, .i32⟩
  | .local _ .vmem, ⟨7, _⟩ => ⟨S1024x2048, .i32⟩
  | .local _ .vmem, ⟨8, _⟩ => ⟨S1024x64, .f32⟩
  | .local _ .vmem, ⟨9, _⟩ => ⟨S1024x64, .f32⟩
  | .local _ .vmem, ⟨10, _⟩ => ⟨S1024x1, .f32⟩
  | .local _ .vmem, ⟨11, _⟩ => ⟨S1024x128, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v35 : BitVec 1 := Scalar.cmpi .eq arg1 c3_i32
  let v36 : BitVec 32 := Scalar.extui v35
  let c0_i32_20 : BitVec 32 := 0#32
  let v37 : BitVec 1 := Scalar.cmpi .ne v36 c0_i32_20
  v37

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x2048 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  bcast_S_S64x512 : S_.BroadcastsInDim S64x512 (![] : Fin 0 → Fin S64x512.rank)
  concatenates_S64x512_S64x512_S64x512_S192x512_d0 : Shape.Concatenates [S64x512, S64x512, S64x512] S192x512 0
  transposes_S192x512_S512x192_1_0 : S192x512.Transposes [1, 0] S512x192
  slices_S8192x192_S8192x64_0_0 : S8192x192.Slices ![0, 0] S8192x64
  slices_S8192x192_S8192x64_0_64 : S8192x192.Slices ![0, 64] S8192x64
  slices_S8192x192_S8192x64_0_128 : S8192x192.Slices ![0, 128] S8192x64
  bitsLt_bf16_f32 : FTy.bits .bf16 < FTy.bits .f32
  bcast_S_S8192x1 : S_.BroadcastsInDim S8192x1 (![] : Fin 0 → Fin S8192x1.rank)
  bcast_S_S8192x63 : S_.BroadcastsInDim S8192x63 (![] : Fin 0 → Fin S8192x63.rank)
  concatenates_S8192x64_S8192x1_S8192x63_S8192x128_d1 : Shape.Concatenates [S8192x64, S8192x1, S8192x63] S8192x128 1
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  reduces_S1024x2048_S1024 : S1024x2048.Reduces [1] S1024
  shapeCasts_S1024_S1024x1 : S1024.ShapeCasts S1024x1
  broadcasts_S1024x1_S1024x2048 : S1024x1.Broadcasts S1024x2048
  inb_S1024x2048_S1024x2048_0_0 : ∀ a, (![0, 0] : Fin 2 → Nat) a + S1024x2048.size a ≤ S1024x2048.size a
  h_S1024x2048 : 0 < S1024x2048.numel
  broadcasts_S1024x1_S1024x128 : S1024x1.Broadcasts S1024x128
  inb_S1024x128_S1024x64_0_0 : ∀ a, (![0, 0] : Fin 2 → Nat) a + S1024x64.size a ≤ S1024x128.size a
  inb_S1024x128_S1024x1_0_64 : ∀ a, (![0, 64] : Fin 2 → Nat) a + S1024x1.size a ≤ S1024x128.size a
  broadcasts_S1024x1_S1024x64 : S1024x1.Broadcasts S1024x64
  dot_S8192x512_S512x192_S8192x192_1_0_0_1_n_n_wf : DotDims.WF S8192x512 S512x192 S8192x192 [1] [0] [0] [1] [] []
  dot_S1024x64_S2048x64_S1024x2048_1_1_0_0_n_n_wf : DotDims.WF S1024x64 S2048x64 S1024x2048 [1] [1] [0] [0] [] []
  dot_S1024x2048_S2048x128_S1024x128_1_0_0_1_n_n_wf : DotDims.WF S1024x2048 S2048x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x64.size a ≤ S8192x64.size a
  hwx0_0 : ∀ i : grid0.Coords, EltTy.bits .bf16 = 32 ∨ (Rect.block (s := S8192x64) S1024x64.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x64.size a ≤ S8192x64.size a
  hwx0_1 : ∀ i : grid0.Coords, EltTy.bits .bf16 = 32 ∨ (Rect.block (s := S8192x64) S2048x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x128.size a ≤ S8192x128.size a
  hwx0_2 : ∀ i : grid0.Coords, EltTy.bits .bf16 = 32 ∨ (Rect.block (s := S8192x128) S2048x128.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x2048.size a ≤ S8192x8192.size a
  hwx0_3 : ∀ i : grid0.Coords, EltTy.bits .i32 = 32 ∨ (Rect.block (s := S8192x8192) S1024x2048.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x64.size a ≤ S8192x64.size a
  hwx0_4 : ∀ i : grid0.Coords, EltTy.bits .f32 = 32 ∨ (Rect.block (s := S8192x64) S1024x64.size (cc0_transform_4 i) (hinb0_4 i)).WholeWords (EltTy.packing .f32)

variable [Facts₀]

def dot_S8192x512_S512x192_S8192x192_1_0_0_1_n_n : DotDims S8192x512 S512x192 S8192x192 where
  lhsContracting := [1]
  rhsContracting := [0]
  lhsNonContracting := [0]
  rhsNonContracting := [1]
  lhsBatch := []
  rhsBatch := []
  wf := dot_S8192x512_S512x192_S8192x192_1_0_0_1_n_n_wf
def dot_S1024x64_S2048x64_S1024x2048_1_1_0_0_n_n : DotDims S1024x64 S2048x64 S1024x2048 where
  lhsContracting := [1]
  rhsContracting := [1]
  lhsNonContracting := [0]
  rhsNonContracting := [0]
  lhsBatch := []
  rhsBatch := []
  wf := dot_S1024x64_S2048x64_S1024x2048_1_1_0_0_n_n_wf
def dot_S1024x2048_S2048x128_S1024x128_1_0_0_1_n_n : DotDims S1024x2048 S2048x128 S1024x128 where
  lhsContracting := [1]
  rhsContracting := [0]
  lhsNonContracting := [0]
  rhsNonContracting := [1]
  lhsBatch := []
  rhsBatch := []
  wf := dot_S1024x2048_S2048x128_S1024x128_1_0_0_1_n_n_wf

abbrev win0_0 : Pipeline.Window sig grid0 :=
  Pipeline.Window.ofSpec (Memref.whole main_v8) S1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13) S2048x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S1024x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v14) S1024x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S8192x512 : Shape := ⟨2, ![8192, 512]⟩
abbrev S8192x8192 : Shape := ⟨2, ![8192, 8192]⟩
abbrev S64x512 : Shape := ⟨2, ![64, 512]⟩
abbrev S512x64 : Shape := ⟨2, ![512, 64]⟩
abbrev S8192x64 : Shape := ⟨2, ![8192, 64]⟩
abbrev S_ : Shape := ⟨0, ![]⟩
abbrev S64x8192 : Shape := ⟨2, ![64, 8192]⟩
abbrev S8192 : Shape := ⟨1, ![8192]⟩
abbrev S8192x1 : Shape := ⟨2, ![8192, 1]⟩

abbrev nBuf : Space → Nat
  | .hbm => 40
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x8192, .i32⟩
  | .hbm, ⟨2, _⟩ => ⟨S64x512, .f32⟩
  | .hbm, ⟨3, _⟩ => ⟨S64x512, .f32⟩
  | .hbm, ⟨4, _⟩ => ⟨S64x512, .f32⟩
  | .hbm, ⟨5, _⟩ => ⟨S512x64, .f32⟩
  | .hbm, ⟨6, _⟩ => ⟨S8192x64, .f32⟩
  | .hbm, ⟨7, _⟩ => ⟨S512x64, .f32⟩
  | .hbm, ⟨8, _⟩ => ⟨S8192x64, .f32⟩
  | .hbm, ⟨9, _⟩ => ⟨S512x64, .f32⟩
  | .hbm, ⟨10, _⟩ => ⟨S8192x64, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S64x8192, .f32⟩
  | .hbm, ⟨16, _⟩ => ⟨S8192x8192, .f32⟩
  | .hbm, ⟨17, _⟩ => ⟨S8192x8192, .f32⟩
  | .hbm, ⟨18, _⟩ => ⟨S8192x8192, .f32⟩
  | .hbm, ⟨19, _⟩ => ⟨S_, .i32⟩
  | .hbm, ⟨20, _⟩ => ⟨S8192x8192, .i32⟩
  | .hbm, ⟨21, _⟩ => ⟨S8192x8192, .i1⟩
  | .hbm, ⟨22, _⟩ => ⟨S_, .f32⟩
  | .hbm, ⟨23, _⟩ => ⟨S8192x8192, .f32⟩
  | .hbm, ⟨24, _⟩ => ⟨S8192x8192, .f32⟩
  | .hbm, ⟨25, _⟩ => ⟨S_, .f32⟩
  | .hbm, ⟨26, _⟩ => ⟨S8192, .f32⟩
  | .hbm, ⟨27, _⟩ => ⟨S_, .f32⟩
  | .hbm, ⟨28, _⟩ => ⟨S8192, .f32⟩
  | .hbm, ⟨29, _⟩ => ⟨S8192, .f32⟩
  | .hbm, ⟨30, _⟩ => ⟨S8192x1, .f32⟩
  | .hbm, ⟨31, _⟩ => ⟨S8192x8192, .f32⟩
  | .hbm, ⟨32, _⟩ => ⟨S8192x8192, .f32⟩
  | .hbm, ⟨33, _⟩ => ⟨S8192x8192, .f32⟩
  | .hbm, ⟨34, _⟩ => ⟨S_, .f32⟩
  | .hbm, ⟨35, _⟩ => ⟨S8192, .f32⟩
  | .hbm, ⟨36, _⟩ => ⟨S8192x1, .f32⟩
  | .hbm, ⟨37, _⟩ => ⟨S8192x8192, .f32⟩
  | .hbm, ⟨38, _⟩ => ⟨S8192x8192, .f32⟩
  | .hbm, ⟨39, _⟩ => ⟨S8192x64, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_call0_v0 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]

class Facts₀ : Prop where
  transposes_S64x512_S512x64_1_0 : S64x512.Transposes [1, 0] S512x64
  transposes_S8192x64_S64x8192_1_0 : S8192x64.Transposes [1, 0] S64x8192
  bcast_S_S8192x8192 : S_.BroadcastsInDim S8192x8192 (![] : Fin 0 → Fin S8192x8192.rank)
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  dot_S8192x512_S512x64_S8192x64_1_0_0_1_n_n_wf : DotDims.WF S8192x512 S512x64 S8192x64 [1] [0] [0] [1] [] []
  dot_S8192x64_S64x8192_S8192x8192_1_0_0_1_n_n_wf : DotDims.WF S8192x64 S64x8192 S8192x8192 [1] [0] [0] [1] [] []
  dot_S8192x8192_S8192x64_S8192x64_1_0_0_1_n_n_wf : DotDims.WF S8192x8192 S8192x64 S8192x64 [1] [0] [0] [1] [] []

variable [Facts₀]

def dot_S8192x512_S512x64_S8192x64_1_0_0_1_n_n : DotDims S8192x512 S512x64 S8192x64 where
  lhsContracting := [1]
  rhsContracting := [0]
  lhsNonContracting := [0]
  rhsNonContracting := [1]
  lhsBatch := []
  rhsBatch := []
  wf := dot_S8192x512_S512x64_S8192x64_1_0_0_1_n_n_wf
def dot_S8192x64_S64x8192_S8192x8192_1_0_0_1_n_n : DotDims S8192x64 S64x8192 S8192x8192 where
  lhsContracting := [1]
  rhsContracting := [0]
  lhsNonContracting := [0]
  rhsNonContracting := [1]
  lhsBatch := []
  rhsBatch := []
  wf := dot_S8192x64_S64x8192_S8192x8192_1_0_0_1_n_n_wf
def dot_S8192x8192_S8192x64_S8192x64_1_0_0_1_n_n : DotDims S8192x8192 S8192x64 S8192x64 where
  lhsContracting := [1]
  rhsContracting := [0]
  lhsNonContracting := [0]
  rhsNonContracting := [1]
  lhsBatch := []
  rhsBatch := []
  wf := dot_S8192x8192_S8192x64_S8192x64_1_0_0_1_n_n_wf

class Facts : Prop extends Facts₀ where

variable [Facts]
-- ==== Proof.LibNaryResults.lean ====
/-
  A host operation over a LITERAL family of three, or of nine, operand buffers, read at its result buffer.

  The library's `nary_result` hands the operation's function the family `fun k => F ↑(xs k)`: under that binder
  the buffer `xs k` is no literal, so a computation of the operands' contents stops there. For a literal family
  `![a, b, c]` the family is the three contents themselves, each at its own literal buffer (the library states
  this for four operands, `nary4_result`); stated here for three (a join of three index columns) and for nine (a
  join of nine basis columns), with the forms a `simp` pass can use, and the one-pass tactic of the library
  with these two lemmas in place of the general one.
-/
import Idealize.ShloMosaic.Lib.StableHlo.Run

namespace Idealize.ShloMosaic.StableHlo.Nary

open Idealize.ShloMosaic Idealize.ShloMosaic.StableHlo

variable {τ : Topo} {sig : RefSig} {Val : EltTy → Type}

section Three

variable {x a b y : Ref sig .tc}

/-- `nary` over a literal family of three references: its result, each operand's contents at its own reference. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- The same with the result reference un-indexed, for a `simp` pass. -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

end Three

section Nine

variable {x0 x1 x2 x3 x4 x5 x6 x7 x8 y : Ref sig .tc}

/-- `nary` over a literal family of nine references: its result, each operand's contents at its own reference. -/
theorem nary9_result
    (f : ((k : Fin 9) → ((![x0, x1, x2, x3, x4, x5, x6, x7, x8] : Fin 9 → Ref sig .tc) k).ty.Contents Val) → y.ty.Contents Val) (hxs hy)
    (F : Valuation τ sig Val) :
    (nary (τ := τ) ![x0, x1, x2, x3, x4, x5, x6, x7, x8] y f hxs hy).result F (Proc.devRef .tc y)
      = f (Fin.cons (F (Proc.devRef .tc x0)) (Fin.cons (F (Proc.devRef .tc x1)) (Fin.cons (F (Proc.devRef .tc x2)) (Fin.cons (F (Proc.devRef .tc x3)) (Fin.cons (F (Proc.devRef .tc x4)) (Fin.cons (F (Proc.devRef .tc x5)) (Fin.cons (F (Proc.devRef .tc x6)) (Fin.cons (F (Proc.devRef .tc x7)) (Fin.cons (F (Proc.devRef .tc x8)) (fun i => i.elim0)))))))))) := by
  rw [nary_result]; congr 1; funext k; fin_cases k <;> rfl

/-- The same with the result reference un-indexed, for a `simp` pass. -/
theorem nary9_result'
    (f : ((k : Fin 9) → ((![x0, x1, x2, x3, x4, x5, x6, x7, x8] : Fin 9 → Ref sig .tc) k).ty.Contents Val) → y.ty.Contents Val) (hxs hy)
    (F : Valuation τ sig Val) :
    (nary (τ := τ) ![x0, x1, x2, x3, x4, x5, x6, x7, x8] y f hxs hy).result F (no_index (Proc.devRef .tc y))
      = f (Fin.cons (F (Proc.devRef .tc x0)) (Fin.cons (F (Proc.devRef .tc x1)) (Fin.cons (F (Proc.devRef .tc x2)) (Fin.cons (F (Proc.devRef .tc x3)) (Fin.cons (F (Proc.devRef .tc x4)) (Fin.cons (F (Proc.devRef .tc x5)) (Fin.cons (F (Proc.devRef .tc x6)) (Fin.cons (F (Proc.devRef .tc x7)) (Fin.cons (F (Proc.devRef .tc x8)) (fun i => i.elim0)))))))))) :=
  nary9_result f hxs hy F

end Nine

/-- The library's one-pass computation of what a buffer holds after a literal list of host operations, with a
    three- or nine-operand line read at its literal operand buffers. -/
macro "after_results_lit" : tactic =>
  `(tactic| (simp (disch := decide) only [after_cons, after_nil,
      nullary_result', unary_result', binary_result', ternary_result', quaternary_result', reshape_result', nary4_result',
      Idealize.ShloMosaic.StableHlo.Nary.nary3_result', Idealize.ShloMosaic.StableHlo.Nary.nary9_result',
      unaryIndexed_result', binaryIndexed_result',
      nullary_result_ne', unary_result_ne', binary_result_ne', ternary_result_ne', quaternary_result_ne', reshape_result_ne',
      nary_result_ne', unaryIndexed_result_ne', binaryIndexed_result_ne']))

end Idealize.ShloMosaic.StableHlo.Nary
-- ==== Proof.KernelKit.lean ====
/-
  The launch side of the attention kernel's run, for any float family: the buffers' contents when the region is entered
  (the seventeen host operations folded over the launch memory), @main as that prefix followed by the region, the five
  arguments untouched by the prefix, each window's block at a grid point, when the two branches of the body are taken
  (keys' block 0: the reset; keys' block 3: the write of the output), where the output window is idle, and the frame
  claim read off a run that ends with every array at what its write-backs left.
-/
import proofs.«429930_j75204877353135_3_alg».proof.Proof.Gen.Kernel.Launch
import proofs.«429930_j75204877353135_3_alg».proof.Proof.Gen.Kernel.Skeleton
import proofs.«429930_j75204877353135_3_alg».proof.Proof.Gen.Kernel.Points
import proofs.«429930_j75204877353135_3_alg».proof.Proof.LibNaryResults
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.StableHlo.Nary
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffer contents when the region is entered: after the host operations before it. -/
abbrev V0 (c : Dev nD) : Valuation τ sig (Elt F) := StableHlo.after (List.flatten [hostOps0 (F := F)]) (fun b => m (c, b))
/-- The same read at a TensorCore reference. -/
abbrev V (c : Dev nD) (b : Ref sig .tc) : Buf (Elt F) ((c : Thread nD τ).loc b) := V0 m c (Proc.devRef .tc b)

/-- The host operations allocate nothing. -/
theorem hostOps0_fresh : (hostOps0 : List (HloOp τ sig (Elt F))).Forall fun op => op.fresh = ∅ := by
  simp only [List.Forall]; repeat' constructor

/-- @main is the host prefix, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0] hostOps0_sub hostOps0_fresh main_chain

/-- The prefix writes none of @main's arguments. -/
theorem V_main_arg0 (c : Dev nD) : V m c main_arg0 = m ((c : Thread nD τ).loc main_arg0) := by
  dsimp only [V, V0]; simp only [hostOps0, List.flatten_cons, List.flatten_nil, List.append_nil]; after_results_lit
theorem V_main_arg1 (c : Dev nD) : V m c main_arg1 = m ((c : Thread nD τ).loc main_arg1) := by
  dsimp only [V, V0]; simp only [hostOps0, List.flatten_cons, List.flatten_nil, List.append_nil]; after_results_lit
theorem V_main_arg2 (c : Dev nD) : V m c main_arg2 = m ((c : Thread nD τ).loc main_arg2) := by
  dsimp only [V, V0]; simp only [hostOps0, List.flatten_cons, List.flatten_nil, List.append_nil]; after_results_lit
theorem V_main_arg3 (c : Dev nD) : V m c main_arg3 = m ((c : Thread nD τ).loc main_arg3) := by
  dsimp only [V, V0]; simp only [hostOps0, List.flatten_cons, List.flatten_nil, List.append_nil]; after_results_lit
theorem V_main_arg4 (c : Dev nD) : V m c main_arg4 = m ((c : Thread nD τ).loc main_arg4) := by
  dsimp only [V, V0]; simp only [hostOps0, List.flatten_cons, List.flatten_nil, List.append_nil]; after_results_lit

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- For any proof data whose arrays are the region-entry contents, a run that ends with every array at what its
    write-backs left and every other unscoped buffer as the region found it leaves the five arguments as launched: the
    mask is an input window's array, the other four are buffers no window stages. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨
    ((h c).2 main_arg0 (Pipeline.mem_restRefs_of main_arg0 (by decide) (by decide))).trans (V_main_arg0 m c),
    ((h c).1 3).trans (((dats 0 c).arrAt_in 3 rfl _).trans ((hA c 3).trans (V_main_arg1 m c))),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c)⟩) h

/-! ## The body's branch conditions -/

/-- The first branch (the reset of the running maximum and of the accumulator) is taken at the keys' block 0. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)

/-- The second branch (the quotient written to the output block) is taken at the keys' block 3. -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Away from the keys' last block nothing is stored into the output window and its block is not written back. -/
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
/-- At the keys' last block the output window is live. -/
theorem liveAt0_4 : ∀ t : Fin cfg0.N, cond0_1 (grid0.coords t) → cfg0.idle 4 (grid0.coords t) = false := by decide +kernel

/-! ## The staging and scratch memrefs -/

abbrev VO0_4 : View sig .tc .vmem S1024x64 .f32 := (Memref.whole cc0_stg4_0 : Memref sig .tc .vmem S1024x64 .f32).view
abbrev ms0_0 (t : Fin cfg0.N) : Memref sig .tc .vmem S1024x64 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x64 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x2048 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x64 .f32 := win0_4.stage (cfg0.slots t 4)
abbrev hs0_4 (t : Fin cfg0.N) : (ms0_4 t).IsWhole := hstage0_4 ((cfg0.slots t 4).cast nbuf0_4)
/-- The running maximum's scratch and the accumulator's. -/
abbrev scM0_0 : Memref sig .tc .vmem S1024x1 .f32 := Memref.whole cc0_scratch0
abbrev scM0_1 : Memref sig .tc .vmem S1024x128 .f32 := Memref.whole cc0_scratch1
abbrev VS0_0 : View sig .tc .vmem S1024x1 .f32 := scM0_0.view
abbrev VS0_1 : View sig .tc .vmem S1024x128 .f32 := scM0_1.view

/-- The region's class invariant with the two scratch buffers as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Kernel.Fr

end
-- ==== Proof.KernelRunA.lean ====
/-
  The body's run at the keys' block 0 of a row block (the first branch taken, the second not), on whole staging memrefs:
  the four inputs at their blocks, the output window's buffer handed back untouched, both scratch buffers at anything;
  it ends with the inputs as they were and each scratch with its stores written — the pieces are what the run finds.
-/
import proofs.«429930_j75204877353135_3_alg».proof.Proof.KernelKit

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def kernelRun0_A (c : Dev nD) (i : grid0.Coords) (arg2 : Memref sig .tc .vmem S1024x64 .bf16) (harg2 : arg2.IsWhole) (arg3 : Memref sig .tc .vmem S2048x64 .bf16) (harg3 : arg3.IsWhole) (arg4 : Memref sig .tc .vmem S2048x128 .bf16) (harg4 : arg4.IsWhole) (arg5 : Memref sig .tc .vmem S1024x2048 .i32) (harg5 : arg5.IsWhole) (arg6 : Memref sig .tc .vmem S1024x64 .f32) (harg6 : arg6.IsWhole) (arg7 : Memref sig .tc .vmem S1024x1 .f32) (harg7 : arg7.IsWhole) (arg8 : Memref sig .tc .vmem S1024x128 .f32) (harg8 : arg8.IsWhole) (hc0 : cond0_0 i) (hc1 : ¬cond0_1 i)
    (x0 : Vec F S1024x64 .bf16) (x1 : Vec F S2048x64 .bf16) (x2 : Vec F S2048x128 .bf16) (x3 : Vec F S1024x2048 .i32) :
    Σ' (L4 : List (View.Piece (Elt F) S1024x64 .f32)) (LS0 : List (View.Piece (Elt F) S1024x1 .f32)), { LS1 : List (View.Piece (Elt F) S1024x128 .f32) //
      ∀ (xi4 : Vec F S1024x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
            ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__attn_kernel i arg2 harg2 arg3 harg3 arg4 harg4 arg5 harg5 arg6 harg6 arg7 harg7 arg8 harg8) K } := by
  refine ⟨[], ?_, ?_, fun xi4 E K => ?run⟩
  case run =>
    simp only [cc0__attn_kernel_eq_skeleton]; unfold cc0__attn_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    iexists _; iexact HS1

end Cert.Kernel.Fr

end
-- ==== Proof.KernelRunB.lean ====
/-
  The body's run at the keys' blocks 1 and 2 (neither branch taken): the inputs at their blocks, the output window's
  buffer handed back untouched, the two scratch buffers at what the point before left; it ends with each scratch with
  its stores written.
-/
import proofs.«429930_j75204877353135_3_alg».proof.Proof.KernelRunA

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def kernelRun0_B (c : Dev nD) (i : grid0.Coords) (arg2 : Memref sig .tc .vmem S1024x64 .bf16) (harg2 : arg2.IsWhole) (arg3 : Memref sig .tc .vmem S2048x64 .bf16) (harg3 : arg3.IsWhole) (arg4 : Memref sig .tc .vmem S2048x128 .bf16) (harg4 : arg4.IsWhole) (arg5 : Memref sig .tc .vmem S1024x2048 .i32) (harg5 : arg5.IsWhole) (arg6 : Memref sig .tc .vmem S1024x64 .f32) (harg6 : arg6.IsWhole) (arg7 : Memref sig .tc .vmem S1024x1 .f32) (harg7 : arg7.IsWhole) (arg8 : Memref sig .tc .vmem S1024x128 .f32) (harg8 : arg8.IsWhole) (hc0 : ¬cond0_0 i) (hc1 : ¬cond0_1 i)
    (x0 : Vec F S1024x64 .bf16) (x1 : Vec F S2048x64 .bf16) (x2 : Vec F S2048x128 .bf16) (x3 : Vec F S1024x2048 .i32) (xs0 : Vec F S1024x1 .f32) (xs1 : Vec F S1024x128 .f32) :
    Σ' (L4 : List (View.Piece (Elt F) S1024x64 .f32)) (LS0 : List (View.Piece (Elt F) S1024x1 .f32)), { LS1 : List (View.Piece (Elt F) S1024x128 .f32) //
      ∀ (xi4 : Vec F S1024x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
            ∗ owns (c : Thread nD τ) arg7 fullShare xs0 ∗ owns (c : Thread nD τ) arg8 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__attn_kernel i arg2 harg2 arg3 harg3 arg4 harg4 arg5 harg5 arg6 harg6 arg7 harg7 arg8 harg8) K } := by
  refine ⟨[], ?_, ?_, fun xi4 E K => ?run⟩
  case run =>
    simp only [cc0__attn_kernel_eq_skeleton]; unfold cc0__attn_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4
    obtain rfl := harg7.eq_unread hfs0; obtain rfl := harg8.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    iexists _; iexact HS1

end Cert.Kernel.Fr

end
-- ==== Proof.KernelRunC.lean ====
/-
  The body's run at the keys' block 3 (the second branch taken): the inputs at their blocks, the output window's buffer
  at anything, the two scratch buffers at what the point before left; it ends with each scratch and the output's
  buffer with its stores written.
-/
import proofs.«429930_j75204877353135_3_alg».proof.Proof.KernelRunB

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def kernelRun0_C (c : Dev nD) (i : grid0.Coords) (arg2 : Memref sig .tc .vmem S1024x64 .bf16) (harg2 : arg2.IsWhole) (arg3 : Memref sig .tc .vmem S2048x64 .bf16) (harg3 : arg3.IsWhole) (arg4 : Memref sig .tc .vmem S2048x128 .bf16) (harg4 : arg4.IsWhole) (arg5 : Memref sig .tc .vmem S1024x2048 .i32) (harg5 : arg5.IsWhole) (arg6 : Memref sig .tc .vmem S1024x64 .f32) (harg6 : arg6.IsWhole) (arg7 : Memref sig .tc .vmem S1024x1 .f32) (harg7 : arg7.IsWhole) (arg8 : Memref sig .tc .vmem S1024x128 .f32) (harg8 : arg8.IsWhole) (hc0 : ¬cond0_0 i) (hc1 : cond0_1 i)
    (x0 : Vec F S1024x64 .bf16) (x1 : Vec F S2048x64 .bf16) (x2 : Vec F S2048x128 .bf16) (x3 : Vec F S1024x2048 .i32) (xs0 : Vec F S1024x1 .f32) (xs1 : Vec F S1024x128 .f32) :
    Σ' (L4 : List (View.Piece (Elt F) S1024x64 .f32)) (LS0 : List (View.Piece (Elt F) S1024x1 .f32)), { LS1 : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
            ∗ owns (c : Thread nD τ) arg7 fullShare xs0 ∗ owns (c : Thread nD τ) arg8 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__attn_kernel i arg2 harg2 arg3 harg3 arg4 harg4 arg5 harg5 arg6 harg6 arg7 harg7 arg8 harg8) K } := by
  refine ⟨?_, ?_, ?_, fun E K => ?run⟩
  case run =>
    simp only [cc0__attn_kernel_eq_skeleton]; unfold cc0__attn_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3
    obtain rfl := harg7.eq_unread hfs0; obtain rfl := harg8.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [HS0]; · iexists _; iexact HS0
    iexists _; iexact HS1

end Cert.Kernel.Fr

end
-- ==== Proof.KernelFrame.lean ====
/-
  The run of the attention kernel's region and the frame claim, for any float family. Per case of the body's two
  branches, what the run leaves in the output window's buffer and in the two scratch buffers (the running maximum and
  the accumulator); point by point, by recursion, what they hold after each grid point (at the keys' block 0 the reset
  case, which reads neither scratch; afterwards the case over what the point before left); the invariant that carries
  the two scratch buffers from point to point; the pipeline's proof data; the body obligation, case by case; the run.
-/
import proofs.«429930_j75204877353135_3_alg».proof.Proof.KernelRunC

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Case A: what the run leaves in the output window's staging buffer (its pieces read back over junk; no piece here: a placeholder nothing consults, the window being idle and not written back). -/
def out0_A_4 (c : Dev nD) (i : grid0.Coords) (arg2 : Memref sig .tc .vmem S1024x64 .bf16) (harg2 : arg2.IsWhole) (arg3 : Memref sig .tc .vmem S2048x64 .bf16) (harg3 : arg3.IsWhole) (arg4 : Memref sig .tc .vmem S2048x128 .bf16) (harg4 : arg4.IsWhole) (arg5 : Memref sig .tc .vmem S1024x2048 .i32) (harg5 : arg5.IsWhole) (arg6 : Memref sig .tc .vmem S1024x64 .f32) (harg6 : arg6.IsWhole) (arg7 : Memref sig .tc .vmem S1024x1 .f32) (harg7 : arg7.IsWhole) (arg8 : Memref sig .tc .vmem S1024x128 .f32) (harg8 : arg8.IsWhole) (hc0 : cond0_0 i) (hc1 : ¬cond0_1 i)
    (x0 : Vec F S1024x64 .bf16) (x1 : Vec F S2048x64 .bf16) (x2 : Vec F S2048x128 .bf16) (x3 : Vec F S1024x2048 .i32) : Vec F S1024x64 .f32 :=
  VO0_4.read (Elt F) (VO0_4.writes (Elt F) VO0_4.junk (kernelRun0_A c i arg2 harg2 arg3 harg3 arg4 harg4 arg5 harg5 arg6 harg6 arg7 harg7 arg8 harg8 hc0 hc1 x0 x1 x2 x3).1)

/-- Case A's stores into the running maximum's scratch cover it. -/
theorem scover0_A_0 (c : Dev nD) (i : grid0.Coords) (arg2 : Memref sig .tc .vmem S1024x64 .bf16) (harg2 : arg2.IsWhole) (arg3 : Memref sig .tc .vmem S2048x64 .bf16) (harg3 : arg3.IsWhole) (arg4 : Memref sig .tc .vmem S2048x128 .bf16) (harg4 : arg4.IsWhole) (arg5 : Memref sig .tc .vmem S1024x2048 .i32) (harg5 : arg5.IsWhole) (arg6 : Memref sig .tc .vmem S1024x64 .f32) (harg6 : arg6.IsWhole) (arg7 : Memref sig .tc .vmem S1024x1 .f32) (harg7 : arg7.IsWhole) (arg8 : Memref sig .tc .vmem S1024x128 .f32) (harg8 : arg8.IsWhole) (hc0 : cond0_0 i) (hc1 : ¬cond0_1 i)
    (x0 : Vec F S1024x64 .bf16) (x1 : Vec F S2048x64 .bf16) (x2 : Vec F S2048x128 .bf16) (x3 : Vec F S1024x2048 .i32) (y : S1024x1.Idx) :
    ∃ pc ∈ (kernelRun0_A c i arg2 harg2 arg3 harg3 arg4 harg4 arg5 harg5 arg6 harg6 arg7 harg7 arg8 harg8 hc0 hc1 x0 x1 x2 x3).2.1, y ∈ pc.1.set :=
  View.cover_of_tiledL (kernelRun0_A c i arg2 harg2 arg3 harg3 arg4 harg4 arg5 harg5 arg6 harg6 arg7 harg7 arg8 harg8 hc0 hc1 x0 x1 x2 x3).2.1 S1024x1.size (by sl_kernel_rfl) y

/-- What case A leaves in the running maximum's scratch. -/
def sout0_A_0 (c : Dev nD) (i : grid0.Coords) (arg2 : Memref sig .tc .vmem S1024x64 .bf16) (harg2 : arg2.IsWhole) (arg3 : Memref sig .tc .vmem S2048x64 .bf16) (harg3 : arg3.IsWhole) (arg4 : Memref sig .tc .vmem S2048x128 .bf16) (harg4 : arg4.IsWhole) (arg5 : Memref sig .tc .vmem S1024x2048 .i32) (harg5 : arg5.IsWhole) (arg6 : Memref sig .tc .vmem S1024x64 .f32) (harg6 : arg6.IsWhole) (arg7 : Memref sig .tc .vmem S1024x1 .f32) (harg7 : arg7.IsWhole) (arg8 : Memref sig .tc .vmem S1024x128 .f32) (harg8 : arg8.IsWhole) (hc0 : cond0_0 i) (hc1 : ¬cond0_1 i)
    (x0 : Vec F S1024x64 .bf16) (x1 : Vec F S2048x64 .bf16) (x2 : Vec F S2048x128 .bf16) (x3 : Vec F S1024x2048 .i32) : Vec F S1024x1 .f32 :=
  VS0_0.read (Elt F) (VS0_0.writes (Elt F) VS0_0.junk (kernelRun0_A c i arg2 harg2 arg3 harg3 arg4 harg4 arg5 harg5 arg6 harg6 arg7 harg7 arg8 harg8 hc0 hc1 x0 x1 x2 x3).2.1)

/-- Case A's stores into the accumulator's scratch cover it. -/
theorem scover0_A_1 (c : Dev nD) (i : grid0.Coords) (arg2 : Memref sig .tc .vmem S1024x64 .bf16) (harg2 : arg2.IsWhole) (arg3 : Memref sig .tc .vmem S2048x64 .bf16) (harg3 : arg3.IsWhole) (arg4 : Memref sig .tc .vmem S2048x128 .bf16) (harg4 : arg4.IsWhole) (arg5 : Memref sig .tc .vmem S1024x2048 .i32) (harg5 : arg5.IsWhole) (arg6 : Memref sig .tc .vmem S1024x64 .f32) (harg6 : arg6.IsWhole) (arg7 : Memref sig .tc .vmem S1024x1 .f32) (harg7 : arg7.IsWhole) (arg8 : Memref sig .tc .vmem S1024x128 .f32) (harg8 : arg8.IsWhole) (hc0 : cond0_0 i) (hc1 : ¬cond0_1 i)
    (x0 : Vec F S1024x64 .bf16) (x1 : Vec F S2048x64 .bf16) (x2 : Vec F S2048x128 .bf16) (x3 : Vec F S1024x2048 .i32) (y : S1024x128.Idx) :
    ∃ pc ∈ (kernelRun0_A c i arg2 harg2 arg3 harg3 arg4 harg4 arg5 harg5 arg6 harg6 arg7 harg7 arg8 harg8 hc0 hc1 x0 x1 x2 x3).2.2.1, y ∈ pc.1.set :=
  View.cover_of_tiledL (kernelRun0_A c i arg2 harg2 arg3 harg3 arg4 harg4 arg5 harg5 arg6 harg6 arg7 harg7 arg8 harg8 hc0 hc1 x0 x1 x2 x3).2.2.1 S1024x128.size (by sl_kernel_rfl) y

/-- What case A leaves in the accumulator's scratch. -/
def sout0_A_1 (c : Dev nD) (i : grid0.Coords) (arg2 : Memref sig .tc .vmem S1024x64 .bf16) (harg2 : arg2.IsWhole) (arg3 : Memref sig .tc .vmem S2048x64 .bf16) (harg3 : arg3.IsWhole) (arg4 : Memref sig .tc .vmem S2048x128 .bf16) (harg4 : arg4.IsWhole) (arg5 : Memref sig .tc .vmem S1024x2048 .i32) (harg5 : arg5.IsWhole) (arg6 : Memref sig .tc .vmem S1024x64 .f32) (harg6 : arg6.IsWhole) (arg7 : Memref sig .tc .vmem S1024x1 .f32) (harg7 : arg7.IsWhole) (arg8 : Memref sig .tc .vmem S1024x128 .f32) (harg8 : arg8.IsWhole) (hc0 : cond0_0 i) (hc1 : ¬cond0_1 i)
    (x0 : Vec F S1024x64 .bf16) (x1 : Vec F S2048x64 .bf16) (x2 : Vec F S2048x128 .bf16) (x3 : Vec F S1024x2048 .i32) : Vec F S1024x128 .f32 :=
  VS0_1.read (Elt F) (VS0_1.writes (Elt F) VS0_1.junk (kernelRun0_A c i arg2 harg2 arg3 harg3 arg4 harg4 arg5 harg5 arg6 harg6 arg7 harg7 arg8 harg8 hc0 hc1 x0 x1 x2 x3).2.2.1)

/-- Case B: what the run leaves in the output window's staging buffer (its pieces read back over junk; no piece here: a placeholder nothing consults, the window being idle and not written back). -/
def out0_B_4 (c : Dev nD) (i : grid0.Coords) (arg2 : Memref sig .tc .vmem S1024x64 .bf16) (harg2 : arg2.IsWhole) (arg3 : Memref sig .tc .vmem S2048x64 .bf16) (harg3 : arg3.IsWhole) (arg4 : Memref sig .tc .vmem S2048x128 .bf16) (harg4 : arg4.IsWhole) (arg5 : Memref sig .tc .vmem S1024x2048 .i32) (harg5 : arg5.IsWhole) (arg6 : Memref sig .tc .vmem S1024x64 .f32) (harg6 : arg6.IsWhole) (arg7 : Memref sig .tc .vmem S1024x1 .f32) (harg7 : arg7.IsWhole) (arg8 : Memref sig .tc .vmem S1024x128 .f32) (harg8 : arg8.IsWhole) (hc0 : ¬cond0_0 i) (hc1 : ¬cond0_1 i)
    (x0 : Vec F S1024x64 .bf16) (x1 : Vec F S2048x64 .bf16) (x2 : Vec F S2048x128 .bf16) (x3 : Vec F S1024x2048 .i32) (xs0 : Vec F S1024x1 .f32) (xs1 : Vec F S1024x128 .f32) : Vec F S1024x64 .f32 :=
  VO0_4.read (Elt F) (VO0_4.writes (Elt F) VO0_4.junk (kernelRun0_B c i arg2 harg2 arg3 harg3 arg4 harg4 arg5 harg5 arg6 harg6 arg7 harg7 arg8 harg8 hc0 hc1 x0 x1 x2 x3 xs0 xs1).1)

/-- Case B's stores into the running maximum's scratch cover it. -/
theorem scover0_B_0 (c : Dev nD) (i : grid0.Coords) (arg2 : Memref sig .tc .vmem S1024x64 .bf16) (harg2 : arg2.IsWhole) (arg3 : Memref sig .tc .vmem S2048x64 .bf16) (harg3 : arg3.IsWhole) (arg4 : Memref sig .tc .vmem S2048x128 .bf16) (harg4 : arg4.IsWhole) (arg5 : Memref sig .tc .vmem S1024x2048 .i32) (harg5 : arg5.IsWhole) (arg6 : Memref sig .tc .vmem S1024x64 .f32) (harg6 : arg6.IsWhole) (arg7 : Memref sig .tc .vmem S1024x1 .f32) (harg7 : arg7.IsWhole) (arg8 : Memref sig .tc .vmem S1024x128 .f32) (harg8 : arg8.IsWhole) (hc0 : ¬cond0_0 i) (hc1 : ¬cond0_1 i)
    (x0 : Vec F S1024x64 .bf16) (x1 : Vec F S2048x64 .bf16) (x2 : Vec F S2048x128 .bf16) (x3 : Vec F S1024x2048 .i32) (xs0 : Vec F S1024x1 .f32) (xs1 : Vec F S1024x128 .f32) (y : S1024x1.Idx) :
    ∃ pc ∈ (kernelRun0_B c i arg2 harg2 arg3 harg3 arg4 harg4 arg5 harg5 arg6 harg6 arg7 harg7 arg8 harg8 hc0 hc1 x0 x1 x2 x3 xs0 xs1).2.1, y ∈ pc.1.set :=
  View.cover_of_tiledL (kernelRun0_B c i arg2 harg2 arg3 harg3 arg4 harg4 arg5 harg5 arg6 harg6 arg7 harg7 arg8 harg8 hc0 hc1 x0 x1 x2 x3 xs0 xs1).2.1 S1024x1.size (by sl_kernel_rfl) y

/-- What case B leaves in the running maximum's scratch. -/
def sout0_B_0 (c : Dev nD) (i : grid0.Coords) (arg2 : Memref sig .tc .vmem S1024x64 .bf16) (harg2 : arg2.IsWhole) (arg3 : Memref sig .tc .vmem S2048x64 .bf16) (harg3 : arg3.IsWhole) (arg4 : Memref sig .tc .vmem S2048x128 .bf16) (harg4 : arg4.IsWhole) (arg5 : Memref sig .tc .vmem S1024x2048 .i32) (harg5 : arg5.IsWhole) (arg6 : Memref sig .tc .vmem S1024x64 .f32) (harg6 : arg6.IsWhole) (arg7 : Memref sig .tc .vmem S1024x1 .f32) (harg7 : arg7.IsWhole) (arg8 : Memref sig .tc .vmem S1024x128 .f32) (harg8 : arg8.IsWhole) (hc0 : ¬cond0_0 i) (hc1 : ¬cond0_1 i)
    (x0 : Vec F S1024x64 .bf16) (x1 : Vec F S2048x64 .bf16) (x2 : Vec F S2048x128 .bf16) (x3 : Vec F S1024x2048 .i32) (xs0 : Vec F S1024x1 .f32) (xs1 : Vec F S1024x128 .f32) : Vec F S1024x1 .f32 :=
  VS0_0.read (Elt F) (VS0_0.writes (Elt F) VS0_0.junk (kernelRun0_B c i arg2 harg2 arg3 harg3 arg4 harg4 arg5 harg5 arg6 harg6 arg7 harg7 arg8 harg8 hc0 hc1 x0 x1 x2 x3 xs0 xs1).2.1)

/-- Case B's stores into the accumulator's scratch cover it. -/
theorem scover0_B_1 (c : Dev nD) (i : grid0.Coords) (arg2 : Memref sig .tc .vmem S1024x64 .bf16) (harg2 : arg2.IsWhole) (arg3 : Memref sig .tc .vmem S2048x64 .bf16) (harg3 : arg3.IsWhole) (arg4 : Memref sig .tc .vmem S2048x128 .bf16) (harg4 : arg4.IsWhole) (arg5 : Memref sig .tc .vmem S1024x2048 .i32) (harg5 : arg5.IsWhole) (arg6 : Memref sig .tc .vmem S1024x64 .f32) (harg6 : arg6.IsWhole) (arg7 : Memref sig .tc .vmem S1024x1 .f32) (harg7 : arg7.IsWhole) (arg8 : Memref sig .tc .vmem S1024x128 .f32) (harg8 : arg8.IsWhole) (hc0 : ¬cond0_0 i) (hc1 : ¬cond0_1 i)
    (x0 : Vec F S1024x64 .bf16) (x1 : Vec F S2048x64 .bf16) (x2 : Vec F S2048x128 .bf16) (x3 : Vec F S1024x2048 .i32) (xs0 : Vec F S1024x1 .f32) (xs1 : Vec F S1024x128 .f32) (y : S1024x128.Idx) :
    ∃ pc ∈ (kernelRun0_B c i arg2 harg2 arg3 harg3 arg4 harg4 arg5 harg5 arg6 harg6 arg7 harg7 arg8 harg8 hc0 hc1 x0 x1 x2 x3 xs0 xs1).2.2.1, y ∈ pc.1.set :=
  View.cover_of_tiledL (kernelRun0_B c i arg2 harg2 arg3 harg3 arg4 harg4 arg5 harg5 arg6 harg6 arg7 harg7 arg8 harg8 hc0 hc1 x0 x1 x2 x3 xs0 xs1).2.2.1 S1024x128.size (by sl_kernel_rfl) y

/-- What case B leaves in the accumulator's scratch. -/
def sout0_B_1 (c : Dev nD) (i : grid0.Coords) (arg2 : Memref sig .tc .vmem S1024x64 .bf16) (harg2 : arg2.IsWhole) (arg3 : Memref sig .tc .vmem S2048x64 .bf16) (harg3 : arg3.IsWhole) (arg4 : Memref sig .tc .vmem S2048x128 .bf16) (harg4 : arg4.IsWhole) (arg5 : Memref sig .tc .vmem S1024x2048 .i32) (harg5 : arg5.IsWhole) (arg6 : Memref sig .tc .vmem S1024x64 .f32) (harg6 : arg6.IsWhole) (arg7 : Memref sig .tc .vmem S1024x1 .f32) (harg7 : arg7.IsWhole) (arg8 : Memref sig .tc .vmem S1024x128 .f32) (harg8 : arg8.IsWhole) (hc0 : ¬cond0_0 i) (hc1 : ¬cond0_1 i)
    (x0 : Vec F S1024x64 .bf16) (x1 : Vec F S2048x64 .bf16) (x2 : Vec F S2048x128 .bf16) (x3 : Vec F S1024x2048 .i32) (xs0 : Vec F S1024x1 .f32) (xs1 : Vec F S1024x128 .f32) : Vec F S1024x128 .f32 :=
  VS0_1.read (Elt F) (VS0_1.writes (Elt F) VS0_1.junk (kernelRun0_B c i arg2 harg2 arg3 harg3 arg4 harg4 arg5 harg5 arg6 harg6 arg7 harg7 arg8 harg8 hc0 hc1 x0 x1 x2 x3 xs0 xs1).2.2.1)

/-- Case C: what the run leaves in the output window's staging buffer (its pieces read back over junk). -/
def out0_C_4 (c : Dev nD) (i : grid0.Coords) (arg2 : Memref sig .tc .vmem S1024x64 .bf16) (harg2 : arg2.IsWhole) (arg3 : Memref sig .tc .vmem S2048x64 .bf16) (harg3 : arg3.IsWhole) (arg4 : Memref sig .tc .vmem S2048x128 .bf16) (harg4 : arg4.IsWhole) (arg5 : Memref sig .tc .vmem S1024x2048 .i32) (harg5 : arg5.IsWhole) (arg6 : Memref sig .tc .vmem S1024x64 .f32) (harg6 : arg6.IsWhole) (arg7 : Memref sig .tc .vmem S1024x1 .f32) (harg7 : arg7.IsWhole) (arg8 : Memref sig .tc .vmem S1024x128 .f32) (harg8 : arg8.IsWhole) (hc0 : ¬cond0_0 i) (hc1 : cond0_1 i)
    (x0 : Vec F S1024x64 .bf16) (x1 : Vec F S2048x64 .bf16) (x2 : Vec F S2048x128 .bf16) (x3 : Vec F S1024x2048 .i32) (xs0 : Vec F S1024x1 .f32) (xs1 : Vec F S1024x128 .f32) : Vec F S1024x64 .f32 :=
  VO0_4.read (Elt F) (VO0_4.writes (Elt F) VO0_4.junk (kernelRun0_C c i arg2 harg2 arg3 harg3 arg4 harg4 arg5 harg5 arg6 harg6 arg7 harg7 arg8 harg8 hc0 hc1 x0 x1 x2 x3 xs0 xs1).1)

/-- Case C's store into the output window's buffer covers it. -/
theorem cover0_C_4 (c : Dev nD) (i : grid0.Coords) (arg2 : Memref sig .tc .vmem S1024x64 .bf16) (harg2 : arg2.IsWhole) (arg3 : Memref sig .tc .vmem S2048x64 .bf16) (harg3 : arg3.IsWhole) (arg4 : Memref sig .tc .vmem S2048x128 .bf16) (harg4 : arg4.IsWhole) (arg5 : Memref sig .tc .vmem S1024x2048 .i32) (harg5 : arg5.IsWhole) (arg6 : Memref sig .tc .vmem S1024x64 .f32) (harg6 : arg6.IsWhole) (arg7 : Memref sig .tc .vmem S1024x1 .f32) (harg7 : arg7.IsWhole) (arg8 : Memref sig .tc .vmem S1024x128 .f32) (harg8 : arg8.IsWhole) (hc0 : ¬cond0_0 i) (hc1 : cond0_1 i)
    (x0 : Vec F S1024x64 .bf16) (x1 : Vec F S2048x64 .bf16) (x2 : Vec F S2048x128 .bf16) (x3 : Vec F S1024x2048 .i32) (xs0 : Vec F S1024x1 .f32) (xs1 : Vec F S1024x128 .f32) (y : S1024x64.Idx) :
    ∃ pc ∈ (kernelRun0_C c i arg2 harg2 arg3 harg3 arg4 harg4 arg5 harg5 arg6 harg6 arg7 harg7 arg8 harg8 hc0 hc1 x0 x1 x2 x3 xs0 xs1).1, y ∈ pc.1.set :=
  View.cover_of_tiledL (kernelRun0_C c i arg2 harg2 arg3 harg3 arg4 harg4 arg5 harg5 arg6 harg6 arg7 harg7 arg8 harg8 hc0 hc1 x0 x1 x2 x3 xs0 xs1).1 S1024x64.size (by sl_kernel_rfl) y

/-- Case C's stores into the running maximum's scratch cover it. -/
theorem scover0_C_0 (c : Dev nD) (i : grid0.Coords) (arg2 : Memref sig .tc .vmem S1024x64 .bf16) (harg2 : arg2.IsWhole) (arg3 : Memref sig .tc .vmem S2048x64 .bf16) (harg3 : arg3.IsWhole) (arg4 : Memref sig .tc .vmem S2048x128 .bf16) (harg4 : arg4.IsWhole) (arg5 : Memref sig .tc .vmem S1024x2048 .i32) (harg5 : arg5.IsWhole) (arg6 : Memref sig .tc .vmem S1024x64 .f32) (harg6 : arg6.IsWhole) (arg7 : Memref sig .tc .vmem S1024x1 .f32) (harg7 : arg7.IsWhole) (arg8 : Memref sig .tc .vmem S1024x128 .f32) (harg8 : arg8.IsWhole) (hc0 : ¬cond0_0 i) (hc1 : cond0_1 i)
    (x0 : Vec F S1024x64 .bf16) (x1 : Vec F S2048x64 .bf16) (x2 : Vec F S2048x128 .bf16) (x3 : Vec F S1024x2048 .i32) (xs0 : Vec F S1024x1 .f32) (xs1 : Vec F S1024x128 .f32) (y : S1024x1.Idx) :
    ∃ pc ∈ (kernelRun0_C c i arg2 harg2 arg3 harg3 arg4 harg4 arg5 harg5 arg6 harg6 arg7 harg7 arg8 harg8 hc0 hc1 x0 x1 x2 x3 xs0 xs1).2.1, y ∈ pc.1.set :=
  View.cover_of_tiledL (kernelRun0_C c i arg2 harg2 arg3 harg3 arg4 harg4 arg5 harg5 arg6 harg6 arg7 harg7 arg8 harg8 hc0 hc1 x0 x1 x2 x3 xs0 xs1).2.1 S1024x1.size (by sl_kernel_rfl) y

/-- What case C leaves in the running maximum's scratch. -/
def sout0_C_0 (c : Dev nD) (i : grid0.Coords) (arg2 : Memref sig .tc .vmem S1024x64 .bf16) (harg2 : arg2.IsWhole) (arg3 : Memref sig .tc .vmem S2048x64 .bf16) (harg3 : arg3.IsWhole) (arg4 : Memref sig .tc .vmem S2048x128 .bf16) (harg4 : arg4.IsWhole) (arg5 : Memref sig .tc .vmem S1024x2048 .i32) (harg5 : arg5.IsWhole) (arg6 : Memref sig .tc .vmem S1024x64 .f32) (harg6 : arg6.IsWhole) (arg7 : Memref sig .tc .vmem S1024x1 .f32) (harg7 : arg7.IsWhole) (arg8 : Memref sig .tc .vmem S1024x128 .f32) (harg8 : arg8.IsWhole) (hc0 : ¬cond0_0 i) (hc1 : cond0_1 i)
    (x0 : Vec F S1024x64 .bf16) (x1 : Vec F S2048x64 .bf16) (x2 : Vec F S2048x128 .bf16) (x3 : Vec F S1024x2048 .i32) (xs0 : Vec F S1024x1 .f32) (xs1 : Vec F S1024x128 .f32) : Vec F S1024x1 .f32 :=
  VS0_0.read (Elt F) (VS0_0.writes (Elt F) VS0_0.junk (kernelRun0_C c i arg2 harg2 arg3 harg3 arg4 harg4 arg5 harg5 arg6 harg6 arg7 harg7 arg8 harg8 hc0 hc1 x0 x1 x2 x3 xs0 xs1).2.1)

/-- Case C's stores into the accumulator's scratch cover it. -/
theorem scover0_C_1 (c : Dev nD) (i : grid0.Coords) (arg2 : Memref sig .tc .vmem S1024x64 .bf16) (harg2 : arg2.IsWhole) (arg3 : Memref sig .tc .vmem S2048x64 .bf16) (harg3 : arg3.IsWhole) (arg4 : Memref sig .tc .vmem S2048x128 .bf16) (harg4 : arg4.IsWhole) (arg5 : Memref sig .tc .vmem S1024x2048 .i32) (harg5 : arg5.IsWhole) (arg6 : Memref sig .tc .vmem S1024x64 .f32) (harg6 : arg6.IsWhole) (arg7 : Memref sig .tc .vmem S1024x1 .f32) (harg7 : arg7.IsWhole) (arg8 : Memref sig .tc .vmem S1024x128 .f32) (harg8 : arg8.IsWhole) (hc0 : ¬cond0_0 i) (hc1 : cond0_1 i)
    (x0 : Vec F S1024x64 .bf16) (x1 : Vec F S2048x64 .bf16) (x2 : Vec F S2048x128 .bf16) (x3 : Vec F S1024x2048 .i32) (xs0 : Vec F S1024x1 .f32) (xs1 : Vec F S1024x128 .f32) (y : S1024x128.Idx) :
    ∃ pc ∈ (kernelRun0_C c i arg2 harg2 arg3 harg3 arg4 harg4 arg5 harg5 arg6 harg6 arg7 harg7 arg8 harg8 hc0 hc1 x0 x1 x2 x3 xs0 xs1).2.2.1, y ∈ pc.1.set :=
  View.cover_of_tiledL (kernelRun0_C c i arg2 harg2 arg3 harg3 arg4 harg4 arg5 harg5 arg6 harg6 arg7 harg7 arg8 harg8 hc0 hc1 x0 x1 x2 x3 xs0 xs1).2.2.1 S1024x128.size (by sl_kernel_rfl) y

/-- What case C leaves in the accumulator's scratch. -/
def sout0_C_1 (c : Dev nD) (i : grid0.Coords) (arg2 : Memref sig .tc .vmem S1024x64 .bf16) (harg2 : arg2.IsWhole) (arg3 : Memref sig .tc .vmem S2048x64 .bf16) (harg3 : arg3.IsWhole) (arg4 : Memref sig .tc .vmem S2048x128 .bf16) (harg4 : arg4.IsWhole) (arg5 : Memref sig .tc .vmem S1024x2048 .i32) (harg5 : arg5.IsWhole) (arg6 : Memref sig .tc .vmem S1024x64 .f32) (harg6 : arg6.IsWhole) (arg7 : Memref sig .tc .vmem S1024x1 .f32) (harg7 : arg7.IsWhole) (arg8 : Memref sig .tc .vmem S1024x128 .f32) (harg8 : arg8.IsWhole) (hc0 : ¬cond0_0 i) (hc1 : cond0_1 i)
    (x0 : Vec F S1024x64 .bf16) (x1 : Vec F S2048x64 .bf16) (x2 : Vec F S2048x128 .bf16) (x3 : Vec F S1024x2048 .i32) (xs0 : Vec F S1024x1 .f32) (xs1 : Vec F S1024x128 .f32) : Vec F S1024x128 .f32 :=
  VS0_1.read (Elt F) (VS0_1.writes (Elt F) VS0_1.junk (kernelRun0_C c i arg2 harg2 arg3 harg3 arg4 harg4 arg5 harg5 arg6 harg6 arg7 harg7 arg8 harg8 hc0 hc1 x0 x1 x2 x3 xs0 xs1).2.2.1)

/-! ## What the output's buffer and the two scratch buffers hold after each point -/

/-- After the body at position `n`: (the output window's buffer, the running maximum's scratch, the accumulator's scratch). -/
def outsAt0 (c : Dev nD) : (n : ℕ) → n < cfg0.N → Vec F S1024x64 .f32 × Vec F S1024x1 .f32 × Vec F S1024x128 .f32
  | 0, hn => (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩))
  | n + 1, hn =>
    if h0 : (n + 1) % 4 = 0 then
      if h1 : (n + 1) % 4 = 3 then
        False.elim (by omega)
      else
        (out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩))
    else
      if h1 : (n + 1) % 4 = 3 then
        (out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2)
      else
        (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2)

theorem outsAt0_A (c : Dev nD) (t : Fin cfg0.N) (h0 : t.val % 4 = 0) (h1 : ¬t.val % 4 = 3) :
    outsAt0 m c t.val t.isLt = (out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t), sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t), sout0_A_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t)) := by
  obtain ⟨n, hn⟩ := t
  cases n with
  | zero => exact rfl
  | succ n => exact (dif_pos h0).trans ((dif_neg h1).trans rfl)

theorem outsAt0_B (c : Dev nD) (t : Fin cfg0.N) (h0 : ¬t.val % 4 = 0) (h1 : ¬t.val % 4 = 3) :
    outsAt0 m c t.val t.isLt = (out0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2, sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2, sout0_B_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 4 = 0) (h1 : t.val % 4 = 3) :
    outsAt0 m c t.val t.isLt = (out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2, sout0_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2, sout0_C_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point both scratch buffers at anything; afterwards each
    at what the point before left in it; the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.1) ∗ owns (c : Thread nD τ) scM0_1 fullShare ((outsAt0 m c n hn).2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.1) ∗ owns (c : Thread nD τ) scM0_1 fullShare ((outsAt0 m c n hn).2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.1) ∗ owns (c : Thread nD τ) scM0_1 fullShare ((outsAt0 m c (n - 1) (by omega)).2.2)) ∗ (∃ r, prngReg c r)) := by
  cases n with
  | zero => exact absurd rfl hz
  | succ n => rfl

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

theorem leaves0_0 (c : Dev nD) (t : Fin cfg0.N) : (dats m 0 c).leavesExact 0 t = owns (c : Thread nD τ) (ms0_0 t) fullShare (iblk m c 0 t) := by
  unfold Dat.leavesExact; rw [liveAt0_0 t, after0_0]
theorem leaves0_1 (c : Dev nD) (t : Fin cfg0.N) : (dats m 0 c).leavesExact 1 t = owns (c : Thread nD τ) (ms0_1 t) fullShare (iblk m c 1 t) := by
  unfold Dat.leavesExact; rw [liveAt0_1 t, after0_1]
theorem leaves0_2 (c : Dev nD) (t : Fin cfg0.N) : (dats m 0 c).leavesExact 2 t = owns (c : Thread nD τ) (ms0_2 t) fullShare (iblk m c 2 t) := by
  unfold Dat.leavesExact; rw [liveAt0_2 t, after0_2]
theorem leaves0_3 (c : Dev nD) (t : Fin cfg0.N) : (dats m 0 c).leavesExact 3 t = owns (c : Thread nD τ) (ms0_3 t) fullShare (iblk m c 3 t) := by
  unfold Dat.leavesExact; rw [liveAt0_3 t, after0_3]

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  rw [leaves0_0, leaves0_1, leaves0_2, leaves0_3]
  have hN : t.val < 32 := lt_of_lt_of_eq t.isLt (show cfg0.N = 32 from N_0)
  by_cases h0 : t.val % 4 = 0
  · have h1 : ¬t.val % 4 = 3 := by omega
    have hc0 : cond0_0 (grid0.coords t) := (hcond0_0 t).mpr h0
    have hc1 : ¬cond0_1 (grid0.coords t) := fun h => h1 ((hcond0_1 t).mp h)
    rw [Dat.leavesExact_idle (dats m 0 c) 4 t (idleAt0_4 t hc1) (noFlush0_4 t hc1)]
    rw [outsAt0_A m c t h0 h1]
    unfold sout0_A_0 sout0_A_1; (try dsimp only)
    by_cases hz : t.val = 0
    · rw [PhiS_castSucc m c t, PhiS_zero m c _ _ hz, PhiA0_eq]
      iintro ⟨⟨⟨HS0, HS1⟩, Hg⟩, Ho, ⟨%d0, H0⟩, ⟨%d1, H1⟩, ⟨%d2, H2⟩, ⟨%d3, H3⟩, ⟨%d4, H4⟩⟩
      iapply ((kernelRun0_A c (grid0.coords t) _ _ _ _ _ _ _ _ _ _ _ _ _ _ hc0 hc1 (iblk m c 0 t) (iblk m c 1 t) (iblk m c 2 t) (iblk m c 3 t)).2.2.2 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _)
          · unfold owns; iexists _; isplitr
            swap; · iexact HS1
            ipureintro; exact View.read_writes_of_cover _ _ _ _ _ (scover0_A_1 c _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4
    · rw [PhiS_castSucc m c t, PhiS_pos m c _ _ hz]
      iintro ⟨⟨⟨HS0, HS1⟩, Hg⟩, Ho, ⟨%d0, H0⟩, ⟨%d1, H1⟩, ⟨%d2, H2⟩, ⟨%d3, H3⟩, ⟨%d4, H4⟩⟩
      iapply ((kernelRun0_A c (grid0.coords t) _ _ _ _ _ _ _ _ _ _ _ _ _ _ hc0 hc1 (iblk m c 0 t) (iblk m c 1 t) (iblk m c 2 t) (iblk m c 3 t)).2.2.2 _ Set.univ _)
      isplitl [H0]; · iexact H0
      isplitl [H1]; · iexact H1
      isplitl [H2]; · iexact H2
      isplitl [H3]; · iexact H3
      isplitl [H4]; · iexact H4
      isplitl [HS0]; · iexists _; iexact HS0
      isplitl [HS1]; · iexists _; iexact HS1
      iintro ⟨H0, H1, H2, H3, H4, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _)
          · unfold owns; iexists _; isplitr
            swap; · iexact HS1
            ipureintro; exact View.read_writes_of_cover _ _ _ _ _ (scover0_A_1 c _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun hz => h0 (by rw [hz])
    have hc0 : ¬cond0_0 (grid0.coords t) := fun h => h0 ((hcond0_0 t).mp h)
    by_cases h1 : t.val % 4 = 3
    · have hc1 : cond0_1 (grid0.coords t) := (hcond0_1 t).mpr h1
      rw [show (dats m 0 c).leavesExact 4 t = owns (c : Thread nD τ) (ms0_4 t) fullShare ((dats m 0 c).after 4 t) from by
        unfold Dat.leavesExact; rw [liveAt0_4 t hc1], after0_4]
      rw [outsAt0_C m c t h0 h1]
      unfold out0_C_4 sout0_C_0 sout0_C_1; (try dsimp only)
      rw [PhiS_castSucc m c t, PhiS_pos m c _ _ hz]
      iintro ⟨⟨⟨HS0, HS1⟩, Hg⟩, Ho, ⟨%d0, H0⟩, ⟨%d1, H1⟩, ⟨%d2, H2⟩, ⟨%d3, H3⟩, ⟨%d4, H4⟩⟩
      iapply ((kernelRun0_C c (grid0.coords t) _ _ _ _ _ _ _ _ _ _ _ _ _ _ hc0 hc1 (iblk m c 0 t) (iblk m c 1 t) (iblk m c 2 t) (iblk m c 3 t) _ _).2.2.2 Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      iintro ⟨H0, H1, H2, H3, ⟨%e4, H4⟩, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scover0_C_0 c _ _ _ _ _ _ _ _ _ _ _ _ _ _ _ _ _ _ _ _ _ _ _)
          · unfold owns; iexists _; isplitr
            swap; · iexact HS1
            ipureintro; exact View.read_writes_of_cover _ _ _ _ _ (scover0_C_1 c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover0_C_4 c _ _ _ _ _ _ _ _ _ _ _ _ _ _ _ _ _ _ _ _ _ _ _)
    · have hc1 : ¬cond0_1 (grid0.coords t) := fun h => h1 ((hcond0_1 t).mp h)
      rw [Dat.leavesExact_idle (dats m 0 c) 4 t (idleAt0_4 t hc1) (noFlush0_4 t hc1)]
      rw [outsAt0_B m c t h0 h1]
      unfold sout0_B_0 sout0_B_1; (try dsimp only)
      rw [PhiS_castSucc m c t, PhiS_pos m c _ _ hz]
      iintro ⟨⟨⟨HS0, HS1⟩, Hg⟩, Ho, ⟨%d0, H0⟩, ⟨%d1, H1⟩, ⟨%d2, H2⟩, ⟨%d3, H3⟩, ⟨%d4, H4⟩⟩
      iapply ((kernelRun0_B c (grid0.coords t) _ _ _ _ _ _ _ _ _ _ _ _ _ _ hc0 hc1 (iblk m c 0 t) (iblk m c 1 t) (iblk m c 2 t) (iblk m c 3 t) _ _).2.2.2 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _)
          · unfold owns; iexists _; isplitr
            swap; · iexact HS1
            ipureintro; exact View.read_writes_of_cover _ _ _ _ _ (scover0_B_1 c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 32 := N_0; omega), PhiA0_eq]
  iintro ⟨⟨HS0, HS1⟩, Hg⟩
  isplitl [HS0 HS1]
  · isplitl [HS0]
    · iexists _; iexact HS0
    · iexists _; iexact HS1
  iexact Hg

/-! ## The run and the frame -/

set_option backward.isDefEq.respectTransparency.types false in
/-- Every weakly fair execution of @main terminates, every array of the pipeline ends at what its write-backs left, and
    every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame claim, at any float family. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.Kernel.Fr

end
-- ==== Proof.KernelIdealKit.lean ====
/-
  The launch side of the attention kernel's run, for any float family: the buffers' contents when the region is entered
  (the seventeen host operations folded over the launch memory), @main as that prefix followed by the region, the five
  arguments untouched by the prefix, each window's block at a grid point, when the two branches of the body are taken
  (keys' block 0: the reset; keys' block 3: the write of the output), where the output window is idle, and the frame
  claim read off a run that ends with every array at what its write-backs left.
-/
import proofs.«429930_j75204877353135_3_alg».proof.Proof.Gen.KernelIdeal.Launch
import proofs.«429930_j75204877353135_3_alg».proof.Proof.Gen.KernelIdeal.Skeleton
import proofs.«429930_j75204877353135_3_alg».proof.Proof.Gen.KernelIdeal.Points
import proofs.«429930_j75204877353135_3_alg».proof.Proof.LibNaryResults
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.StableHlo.Nary
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffer contents when the region is entered: after the host operations before it. -/
abbrev V0 (c : Dev nD) : Valuation τ sig (Elt F) := StableHlo.after (List.flatten [hostOps0 (F := F)]) (fun b => m (c, b))
/-- The same read at a TensorCore reference. -/
abbrev V (c : Dev nD) (b : Ref sig .tc) : Buf (Elt F) ((c : Thread nD τ).loc b) := V0 m c (Proc.devRef .tc b)

/-- The host operations allocate nothing. -/
theorem hostOps0_fresh : (hostOps0 : List (HloOp τ sig (Elt F))).Forall fun op => op.fresh = ∅ := by
  simp only [List.Forall]; repeat' constructor

/-- @main is the host prefix, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0] hostOps0_sub hostOps0_fresh main_chain

/-- The prefix writes none of @main's arguments. -/
theorem V_main_arg0 (c : Dev nD) : V m c main_arg0 = m ((c : Thread nD τ).loc main_arg0) := by
  dsimp only [V, V0]; simp only [hostOps0, List.flatten_cons, List.flatten_nil, List.append_nil]; after_results_lit
theorem V_main_arg1 (c : Dev nD) : V m c main_arg1 = m ((c : Thread nD τ).loc main_arg1) := by
  dsimp only [V, V0]; simp only [hostOps0, List.flatten_cons, List.flatten_nil, List.append_nil]; after_results_lit
theorem V_main_arg2 (c : Dev nD) : V m c main_arg2 = m ((c : Thread nD τ).loc main_arg2) := by
  dsimp only [V, V0]; simp only [hostOps0, List.flatten_cons, List.flatten_nil, List.append_nil]; after_results_lit
theorem V_main_arg3 (c : Dev nD) : V m c main_arg3 = m ((c : Thread nD τ).loc main_arg3) := by
  dsimp only [V, V0]; simp only [hostOps0, List.flatten_cons, List.flatten_nil, List.append_nil]; after_results_lit
theorem V_main_arg4 (c : Dev nD) : V m c main_arg4 = m ((c : Thread nD τ).loc main_arg4) := by
  dsimp only [V, V0]; simp only [hostOps0, List.flatten_cons, List.flatten_nil, List.append_nil]; after_results_lit

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- For any proof data whose arrays are the region-entry contents, a run that ends with every array at what its
    write-backs left and every other unscoped buffer as the region found it leaves the five arguments as launched: the
    mask is an input window's array, the other four are buffers no window stages. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨
    ((h c).2 main_arg0 (Pipeline.mem_restRefs_of main_arg0 (by decide) (by decide))).trans (V_main_arg0 m c),
    ((h c).1 3).trans (((dats 0 c).arrAt_in 3 rfl _).trans ((hA c 3).trans (V_main_arg1 m c))),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c)⟩) h

/-! ## The body's branch conditions -/

/-- The first branch (the reset of the running maximum and of the accumulator) is taken at the keys' block 0. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)

/-- The second branch (the quotient written to the output block) is taken at the keys' block 3. -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Away from the keys' last block nothing is stored into the output window and its block is not written back. -/
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
/-- At the keys' last block the output window is live. -/
theorem liveAt0_4 : ∀ t : Fin cfg0.N, cond0_1 (grid0.coords t) → cfg0.idle 4 (grid0.coords t) = false := by decide +kernel

/-! ## The staging and scratch memrefs -/

abbrev VO0_4 : View sig .tc .vmem S1024x64 .f32 := (Memref.whole cc0_stg4_0 : Memref sig .tc .vmem S1024x64 .f32).view
abbrev ms0_0 (t : Fin cfg0.N) : Memref sig .tc .vmem S1024x64 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x64 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x2048 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x64 .f32 := win0_4.stage (cfg0.slots t 4)
abbrev hs0_4 (t : Fin cfg0.N) : (ms0_4 t).IsWhole := hstage0_4 ((cfg0.slots t 4).cast nbuf0_4)
/-- The running maximum's scratch and the accumulator's. -/
abbrev scM0_0 : Memref sig .tc .vmem S1024x1 .f32 := Memref.whole cc0_scratch0
abbrev scM0_1 : Memref sig .tc .vmem S1024x128 .f32 := Memref.whole cc0_scratch1
abbrev VS0_0 : View sig .tc .vmem S1024x1 .f32 := scM0_0.view
abbrev VS0_1 : View sig .tc .vmem S1024x128 .f32 := scM0_1.view

/-- The region's class invariant with the two scratch buffers as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.Fr

end
-- ==== Proof.KernelIdealRunA.lean ====
/-
  The body's run at the keys' block 0 of a row block (the first branch taken, the second not), on whole staging memrefs:
  the four inputs at their blocks, the output window's buffer handed back untouched, both scratch buffers at anything;
  it ends with the inputs as they were and each scratch with its stores written — the pieces are what the run finds.
-/
import proofs.«429930_j75204877353135_3_alg».proof.Proof.KernelIdealKit

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def kernelRun0_A (c : Dev nD) (i : grid0.Coords) (arg2 : Memref sig .tc .vmem S1024x64 .bf16) (harg2 : arg2.IsWhole) (arg3 : Memref sig .tc .vmem S2048x64 .bf16) (harg3 : arg3.IsWhole) (arg4 : Memref sig .tc .vmem S2048x128 .bf16) (harg4 : arg4.IsWhole) (arg5 : Memref sig .tc .vmem S1024x2048 .i32) (harg5 : arg5.IsWhole) (arg6 : Memref sig .tc .vmem S1024x64 .f32) (harg6 : arg6.IsWhole) (arg7 : Memref sig .tc .vmem S1024x1 .f32) (harg7 : arg7.IsWhole) (arg8 : Memref sig .tc .vmem S1024x128 .f32) (harg8 : arg8.IsWhole) (hc0 : cond0_0 i) (hc1 : ¬cond0_1 i)
    (x0 : Vec F S1024x64 .bf16) (x1 : Vec F S2048x64 .bf16) (x2 : Vec F S2048x128 .bf16) (x3 : Vec F S1024x2048 .i32) :
    Σ' (L4 : List (View.Piece (Elt F) S1024x64 .f32)) (LS0 : List (View.Piece (Elt F) S1024x1 .f32)), { LS1 : List (View.Piece (Elt F) S1024x128 .f32) //
      ∀ (xi4 : Vec F S1024x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
            ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__attn_kernel i arg2 harg2 arg3 harg3 arg4 harg4 arg5 harg5 arg6 harg6 arg7 harg7 arg8 harg8) K } := by
  refine ⟨[], ?_, ?_, fun xi4 E K => ?run⟩
  case run =>
    simp only [cc0__attn_kernel_eq_skeleton]; unfold cc0__attn_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    iexists _; iexact HS1

end Cert.KernelIdeal.Fr

end
-- ==== Proof.KernelIdealRunB.lean ====
/-
  The body's run at the keys' blocks 1 and 2 (neither branch taken): the inputs at their blocks, the output window's
  buffer handed back untouched, the two scratch buffers at what the point before left; it ends with each scratch with
  its stores written.
-/
import proofs.«429930_j75204877353135_3_alg».proof.Proof.KernelIdealRunA

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def kernelRun0_B (c : Dev nD) (i : grid0.Coords) (arg2 : Memref sig .tc .vmem S1024x64 .bf16) (harg2 : arg2.IsWhole) (arg3 : Memref sig .tc .vmem S2048x64 .bf16) (harg3 : arg3.IsWhole) (arg4 : Memref sig .tc .vmem S2048x128 .bf16) (harg4 : arg4.IsWhole) (arg5 : Memref sig .tc .vmem S1024x2048 .i32) (harg5 : arg5.IsWhole) (arg6 : Memref sig .tc .vmem S1024x64 .f32) (harg6 : arg6.IsWhole) (arg7 : Memref sig .tc .vmem S1024x1 .f32) (harg7 : arg7.IsWhole) (arg8 : Memref sig .tc .vmem S1024x128 .f32) (harg8 : arg8.IsWhole) (hc0 : ¬cond0_0 i) (hc1 : ¬cond0_1 i)
    (x0 : Vec F S1024x64 .bf16) (x1 : Vec F S2048x64 .bf16) (x2 : Vec F S2048x128 .bf16) (x3 : Vec F S1024x2048 .i32) (xs0 : Vec F S1024x1 .f32) (xs1 : Vec F S1024x128 .f32) :
    Σ' (L4 : List (View.Piece (Elt F) S1024x64 .f32)) (LS0 : List (View.Piece (Elt F) S1024x1 .f32)), { LS1 : List (View.Piece (Elt F) S1024x128 .f32) //
      ∀ (xi4 : Vec F S1024x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
            ∗ owns (c : Thread nD τ) arg7 fullShare xs0 ∗ owns (c : Thread nD τ) arg8 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__attn_kernel i arg2 harg2 arg3 harg3 arg4 harg4 arg5 harg5 arg6 harg6 arg7 harg7 arg8 harg8) K } := by
  refine ⟨[], ?_, ?_, fun xi4 E K => ?run⟩
  case run =>
    simp only [cc0__attn_kernel_eq_skeleton]; unfold cc0__attn_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4
    obtain rfl := harg7.eq_unread hfs0; obtain rfl := harg8.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    iexists _; iexact HS1

end Cert.KernelIdeal.Fr

end
-- ==== Proof.KernelIdealRunC.lean ====
/-
  The body's run at the keys' block 3 (the second branch taken): the inputs at their blocks, the output window's buffer
  at anything, the two scratch buffers at what the point before left; it ends with each scratch and the output's
  buffer with its stores written.
-/
import proofs.«429930_j75204877353135_3_alg».proof.Proof.KernelIdealRunB

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def kernelRun0_C (c : Dev nD) (i : grid0.Coords) (arg2 : Memref sig .tc .vmem S1024x64 .bf16) (harg2 : arg2.IsWhole) (arg3 : Memref sig .tc .vmem S2048x64 .bf16) (harg3 : arg3.IsWhole) (arg4 : Memref sig .tc .vmem S2048x128 .bf16) (harg4 : arg4.IsWhole) (arg5 : Memref sig .tc .vmem S1024x2048 .i32) (harg5 : arg5.IsWhole) (arg6 : Memref sig .tc .vmem S1024x64 .f32) (harg6 : arg6.IsWhole) (arg7 : Memref sig .tc .vmem S1024x1 .f32) (harg7 : arg7.IsWhole) (arg8 : Memref sig .tc .vmem S1024x128 .f32) (harg8 : arg8.IsWhole) (hc0 : ¬cond0_0 i) (hc1 : cond0_1 i)
    (x0 : Vec F S1024x64 .bf16) (x1 : Vec F S2048x64 .bf16) (x2 : Vec F S2048x128 .bf16) (x3 : Vec F S1024x2048 .i32) (xs0 : Vec F S1024x1 .f32) (xs1 : Vec F S1024x128 .f32) :
    Σ' (L4 : List (View.Piece (Elt F) S1024x64 .f32)) (LS0 : List (View.Piece (Elt F) S1024x1 .f32)), { LS1 : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
            ∗ owns (c : Thread nD τ) arg7 fullShare xs0 ∗ owns (c : Thread nD τ) arg8 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__attn_kernel i arg2 harg2 arg3 harg3 arg4 harg4 arg5 harg5 arg6 harg6 arg7 harg7 arg8 harg8) K } := by
  refine ⟨?_, ?_, ?_, fun E K => ?run⟩
  case run =>
    simp only [cc0__attn_kernel_eq_skeleton]; unfold cc0__attn_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3
    obtain rfl := harg7.eq_unread hfs0; obtain rfl := harg8.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [HS0]; · iexists _; iexact HS0
    iexists _; iexact HS1

end Cert.KernelIdeal.Fr

end
-- ==== Proof.KernelIdealFrame.lean ====
/-
  The run of the attention kernel's region and the frame claim, for any float family. Per case of the body's two
  branches, what the run leaves in the output window's buffer and in the two scratch buffers (the running maximum and
  the accumulator); point by point, by recursion, what they hold after each grid point (at the keys' block 0 the reset
  case, which reads neither scratch; afterwards the case over what the point before left); the invariant that carries
  the two scratch buffers from point to point; the pipeline's proof data; the body obligation, case by case; the run.
-/
import proofs.«429930_j75204877353135_3_alg».proof.Proof.KernelIdealRunC

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Case A: what the run leaves in the output window's staging buffer (its pieces read back over junk; no piece here: a placeholder nothing consults, the window being idle and not written back). -/
def out0_A_4 (c : Dev nD) (i : grid0.Coords) (arg2 : Memref sig .tc .vmem S1024x64 .bf16) (harg2 : arg2.IsWhole) (arg3 : Memref sig .tc .vmem S2048x64 .bf16) (harg3 : arg3.IsWhole) (arg4 : Memref sig .tc .vmem S2048x128 .bf16) (harg4 : arg4.IsWhole) (arg5 : Memref sig .tc .vmem S1024x2048 .i32) (harg5 : arg5.IsWhole) (arg6 : Memref sig .tc .vmem S1024x64 .f32) (harg6 : arg6.IsWhole) (arg7 : Memref sig .tc .vmem S1024x1 .f32) (harg7 : arg7.IsWhole) (arg8 : Memref sig .tc .vmem S1024x128 .f32) (harg8 : arg8.IsWhole) (hc0 : cond0_0 i) (hc1 : ¬cond0_1 i)
    (x0 : Vec F S1024x64 .bf16) (x1 : Vec F S2048x64 .bf16) (x2 : Vec F S2048x128 .bf16) (x3 : Vec F S1024x2048 .i32) : Vec F S1024x64 .f32 :=
  VO0_4.read (Elt F) (VO0_4.writes (Elt F) VO0_4.junk (kernelRun0_A c i arg2 harg2 arg3 harg3 arg4 harg4 arg5 harg5 arg6 harg6 arg7 harg7 arg8 harg8 hc0 hc1 x0 x1 x2 x3).1)

/-- Case A's stores into the running maximum's scratch cover it. -/
theorem scover0_A_0 (c : Dev nD) (i : grid0.Coords) (arg2 : Memref sig .tc .vmem S1024x64 .bf16) (harg2 : arg2.IsWhole) (arg3 : Memref sig .tc .vmem S2048x64 .bf16) (harg3 : arg3.IsWhole) (arg4 : Memref sig .tc .vmem S2048x128 .bf16) (harg4 : arg4.IsWhole) (arg5 : Memref sig .tc .vmem S1024x2048 .i32) (harg5 : arg5.IsWhole) (arg6 : Memref sig .tc .vmem S1024x64 .f32) (harg6 : arg6.IsWhole) (arg7 : Memref sig .tc .vmem S1024x1 .f32) (harg7 : arg7.IsWhole) (arg8 : Memref sig .tc .vmem S1024x128 .f32) (harg8 : arg8.IsWhole) (hc0 : cond0_0 i) (hc1 : ¬cond0_1 i)
    (x0 : Vec F S1024x64 .bf16) (x1 : Vec F S2048x64 .bf16) (x2 : Vec F S2048x128 .bf16) (x3 : Vec F S1024x2048 .i32) (y : S1024x1.Idx) :
    ∃ pc ∈ (kernelRun0_A c i arg2 harg2 arg3 harg3 arg4 harg4 arg5 harg5 arg6 harg6 arg7 harg7 arg8 harg8 hc0 hc1 x0 x1 x2 x3).2.1, y ∈ pc.1.set :=
  View.cover_of_tiledL (kernelRun0_A c i arg2 harg2 arg3 harg3 arg4 harg4 arg5 harg5 arg6 harg6 arg7 harg7 arg8 harg8 hc0 hc1 x0 x1 x2 x3).2.1 S1024x1.size (by sl_kernel_rfl) y

/-- What case A leaves in the running maximum's scratch. -/
def sout0_A_0 (c : Dev nD) (i : grid0.Coords) (arg2 : Memref sig .tc .vmem S1024x64 .bf16) (harg2 : arg2.IsWhole) (arg3 : Memref sig .tc .vmem S2048x64 .bf16) (harg3 : arg3.IsWhole) (arg4 : Memref sig .tc .vmem S2048x128 .bf16) (harg4 : arg4.IsWhole) (arg5 : Memref sig .tc .vmem S1024x2048 .i32) (harg5 : arg5.IsWhole) (arg6 : Memref sig .tc .vmem S1024x64 .f32) (harg6 : arg6.IsWhole) (arg7 : Memref sig .tc .vmem S1024x1 .f32) (harg7 : arg7.IsWhole) (arg8 : Memref sig .tc .vmem S1024x128 .f32) (harg8 : arg8.IsWhole) (hc0 : cond0_0 i) (hc1 : ¬cond0_1 i)
    (x0 : Vec F S1024x64 .bf16) (x1 : Vec F S2048x64 .bf16) (x2 : Vec F S2048x128 .bf16) (x3 : Vec F S1024x2048 .i32) : Vec F S1024x1 .f32 :=
  VS0_0.read (Elt F) (VS0_0.writes (Elt F) VS0_0.junk (kernelRun0_A c i arg2 harg2 arg3 harg3 arg4 harg4 arg5 harg5 arg6 harg6 arg7 harg7 arg8 harg8 hc0 hc1 x0 x1 x2 x3).2.1)

/-- Case A's stores into the accumulator's scratch cover it. -/
theorem scover0_A_1 (c : Dev nD) (i : grid0.Coords) (arg2 : Memref sig .tc .vmem S1024x64 .bf16) (harg2 : arg2.IsWhole) (arg3 : Memref sig .tc .vmem S2048x64 .bf16) (harg3 : arg3.IsWhole) (arg4 : Memref sig .tc .vmem S2048x128 .bf16) (harg4 : arg4.IsWhole) (arg5 : Memref sig .tc .vmem S1024x2048 .i32) (harg5 : arg5.IsWhole) (arg6 : Memref sig .tc .vmem S1024x64 .f32) (harg6 : arg6.IsWhole) (arg7 : Memref sig .tc .vmem S1024x1 .f32) (harg7 : arg7.IsWhole) (arg8 : Memref sig .tc .vmem S1024x128 .f32) (harg8 : arg8.IsWhole) (hc0 : cond0_0 i) (hc1 : ¬cond0_1 i)
    (x0 : Vec F S1024x64 .bf16) (x1 : Vec F S2048x64 .bf16) (x2 : Vec F S2048x128 .bf16) (x3 : Vec F S1024x2048 .i32) (y : S1024x128.Idx) :
    ∃ pc ∈ (kernelRun0_A c i arg2 harg2 arg3 harg3 arg4 harg4 arg5 harg5 arg6 harg6 arg7 harg7 arg8 harg8 hc0 hc1 x0 x1 x2 x3).2.2.1, y ∈ pc.1.set :=
  View.cover_of_tiledL (kernelRun0_A c i arg2 harg2 arg3 harg3 arg4 harg4 arg5 harg5 arg6 harg6 arg7 harg7 arg8 harg8 hc0 hc1 x0 x1 x2 x3).2.2.1 S1024x128.size (by sl_kernel_rfl) y

/-- What case A leaves in the accumulator's scratch. -/
def sout0_A_1 (c : Dev nD) (i : grid0.Coords) (arg2 : Memref sig .tc .vmem S1024x64 .bf16) (harg2 : arg2.IsWhole) (arg3 : Memref sig .tc .vmem S2048x64 .bf16) (harg3 : arg3.IsWhole) (arg4 : Memref sig .tc .vmem S2048x128 .bf16) (harg4 : arg4.IsWhole) (arg5 : Memref sig .tc .vmem S1024x2048 .i32) (harg5 : arg5.IsWhole) (arg6 : Memref sig .tc .vmem S1024x64 .f32) (harg6 : arg6.IsWhole) (arg7 : Memref sig .tc .vmem S1024x1 .f32) (harg7 : arg7.IsWhole) (arg8 : Memref sig .tc .vmem S1024x128 .f32) (harg8 : arg8.IsWhole) (hc0 : cond0_0 i) (hc1 : ¬cond0_1 i)
    (x0 : Vec F S1024x64 .bf16) (x1 : Vec F S2048x64 .bf16) (x2 : Vec F S2048x128 .bf16) (x3 : Vec F S1024x2048 .i32) : Vec F S1024x128 .f32 :=
  VS0_1.read (Elt F) (VS0_1.writes (Elt F) VS0_1.junk (kernelRun0_A c i arg2 harg2 arg3 harg3 arg4 harg4 arg5 harg5 arg6 harg6 arg7 harg7 arg8 harg8 hc0 hc1 x0 x1 x2 x3).2.2.1)

/-- Case B: what the run leaves in the output window's staging buffer (its pieces read back over junk; no piece here: a placeholder nothing consults, the window being idle and not written back). -/
def out0_B_4 (c : Dev nD) (i : grid0.Coords) (arg2 : Memref sig .tc .vmem S1024x64 .bf16) (harg2 : arg2.IsWhole) (arg3 : Memref sig .tc .vmem S2048x64 .bf16) (harg3 : arg3.IsWhole) (arg4 : Memref sig .tc .vmem S2048x128 .bf16) (harg4 : arg4.IsWhole) (arg5 : Memref sig .tc .vmem S1024x2048 .i32) (harg5 : arg5.IsWhole) (arg6 : Memref sig .tc .vmem S1024x64 .f32) (harg6 : arg6.IsWhole) (arg7 : Memref sig .tc .vmem S1024x1 .f32) (harg7 : arg7.IsWhole) (arg8 : Memref sig .tc .vmem S1024x128 .f32) (harg8 : arg8.IsWhole) (hc0 : ¬cond0_0 i) (hc1 : ¬cond0_1 i)
    (x0 : Vec F S1024x64 .bf16) (x1 : Vec F S2048x64 .bf16) (x2 : Vec F S2048x128 .bf16) (x3 : Vec F S1024x2048 .i32) (xs0 : Vec F S1024x1 .f32) (xs1 : Vec F S1024x128 .f32) : Vec F S1024x64 .f32 :=
  VO0_4.read (Elt F) (VO0_4.writes (Elt F) VO0_4.junk (kernelRun0_B c i arg2 harg2 arg3 harg3 arg4 harg4 arg5 harg5 arg6 harg6 arg7 harg7 arg8 harg8 hc0 hc1 x0 x1 x2 x3 xs0 xs1).1)

/-- Case B's stores into the running maximum's scratch cover it. -/
theorem scover0_B_0 (c : Dev nD) (i : grid0.Coords) (arg2 : Memref sig .tc .vmem S1024x64 .bf16) (harg2 : arg2.IsWhole) (arg3 : Memref sig .tc .vmem S2048x64 .bf16) (harg3 : arg3.IsWhole) (arg4 : Memref sig .tc .vmem S2048x128 .bf16) (harg4 : arg4.IsWhole) (arg5 : Memref sig .tc .vmem S1024x2048 .i32) (harg5 : arg5.IsWhole) (arg6 : Memref sig .tc .vmem S1024x64 .f32) (harg6 : arg6.IsWhole) (arg7 : Memref sig .tc .vmem S1024x1 .f32) (harg7 : arg7.IsWhole) (arg8 : Memref sig .tc .vmem S1024x128 .f32) (harg8 : arg8.IsWhole) (hc0 : ¬cond0_0 i) (hc1 : ¬cond0_1 i)
    (x0 : Vec F S1024x64 .bf16) (x1 : Vec F S2048x64 .bf16) (x2 : Vec F S2048x128 .bf16) (x3 : Vec F S1024x2048 .i32) (xs0 : Vec F S1024x1 .f32) (xs1 : Vec F S1024x128 .f32) (y : S1024x1.Idx) :
    ∃ pc ∈ (kernelRun0_B c i arg2 harg2 arg3 harg3 arg4 harg4 arg5 harg5 arg6 harg6 arg7 harg7 arg8 harg8 hc0 hc1 x0 x1 x2 x3 xs0 xs1).2.1, y ∈ pc.1.set :=
  View.cover_of_tiledL (kernelRun0_B c i arg2 harg2 arg3 harg3 arg4 harg4 arg5 harg5 arg6 harg6 arg7 harg7 arg8 harg8 hc0 hc1 x0 x1 x2 x3 xs0 xs1).2.1 S1024x1.size (by sl_kernel_rfl) y

/-- What case B leaves in the running maximum's scratch. -/
def sout0_B_0 (c : Dev nD) (i : grid0.Coords) (arg2 : Memref sig .tc .vmem S1024x64 .bf16) (harg2 : arg2.IsWhole) (arg3 : Memref sig .tc .vmem S2048x64 .bf16) (harg3 : arg3.IsWhole) (arg4 : Memref sig .tc .vmem S2048x128 .bf16) (harg4 : arg4.IsWhole) (arg5 : Memref sig .tc .vmem S1024x2048 .i32) (harg5 : arg5.IsWhole) (arg6 : Memref sig .tc .vmem S1024x64 .f32) (harg6 : arg6.IsWhole) (arg7 : Memref sig .tc .vmem S1024x1 .f32) (harg7 : arg7.IsWhole) (arg8 : Memref sig .tc .vmem S1024x128 .f32) (harg8 : arg8.IsWhole) (hc0 : ¬cond0_0 i) (hc1 : ¬cond0_1 i)
    (x0 : Vec F S1024x64 .bf16) (x1 : Vec F S2048x64 .bf16) (x2 : Vec F S2048x128 .bf16) (x3 : Vec F S1024x2048 .i32) (xs0 : Vec F S1024x1 .f32) (xs1 : Vec F S1024x128 .f32) : Vec F S1024x1 .f32 :=
  VS0_0.read (Elt F) (VS0_0.writes (Elt F) VS0_0.junk (kernelRun0_B c i arg2 harg2 arg3 harg3 arg4 harg4 arg5 harg5 arg6 harg6 arg7 harg7 arg8 harg8 hc0 hc1 x0 x1 x2 x3 xs0 xs1).2.1)

/-- Case B's stores into the accumulator's scratch cover it. -/
theorem scover0_B_1 (c : Dev nD) (i : grid0.Coords) (arg2 : Memref sig .tc .vmem S1024x64 .bf16) (harg2 : arg2.IsWhole) (arg3 : Memref sig .tc .vmem S2048x64 .bf16) (harg3 : arg3.IsWhole) (arg4 : Memref sig .tc .vmem S2048x128 .bf16) (harg4 : arg4.IsWhole) (arg5 : Memref sig .tc .vmem S1024x2048 .i32) (harg5 : arg5.IsWhole) (arg6 : Memref sig .tc .vmem S1024x64 .f32) (harg6 : arg6.IsWhole) (arg7 : Memref sig .tc .vmem S1024x1 .f32) (harg7 : arg7.IsWhole) (arg8 : Memref sig .tc .vmem S1024x128 .f32) (harg8 : arg8.IsWhole) (hc0 : ¬cond0_0 i) (hc1 : ¬cond0_1 i)
    (x0 : Vec F S1024x64 .bf16) (x1 : Vec F S2048x64 .bf16) (x2 : Vec F S2048x128 .bf16) (x3 : Vec F S1024x2048 .i32) (xs0 : Vec F S1024x1 .f32) (xs1 : Vec F S1024x128 .f32) (y : S1024x128.Idx) :
    ∃ pc ∈ (kernelRun0_B c i arg2 harg2 arg3 harg3 arg4 harg4 arg5 harg5 arg6 harg6 arg7 harg7 arg8 harg8 hc0 hc1 x0 x1 x2 x3 xs0 xs1).2.2.1, y ∈ pc.1.set :=
  View.cover_of_tiledL (kernelRun0_B c i arg2 harg2 arg3 harg3 arg4 harg4 arg5 harg5 arg6 harg6 arg7 harg7 arg8 harg8 hc0 hc1 x0 x1 x2 x3 xs0 xs1).2.2.1 S1024x128.size (by sl_kernel_rfl) y

/-- What case B leaves in the accumulator's scratch. -/
def sout0_B_1 (c : Dev nD) (i : grid0.Coords) (arg2 : Memref sig .tc .vmem S1024x64 .bf16) (harg2 : arg2.IsWhole) (arg3 : Memref sig .tc .vmem S2048x64 .bf16) (harg3 : arg3.IsWhole) (arg4 : Memref sig .tc .vmem S2048x128 .bf16) (harg4 : arg4.IsWhole) (arg5 : Memref sig .tc .vmem S1024x2048 .i32) (harg5 : arg5.IsWhole) (arg6 : Memref sig .tc .vmem S1024x64 .f32) (harg6 : arg6.IsWhole) (arg7 : Memref sig .tc .vmem S1024x1 .f32) (harg7 : arg7.IsWhole) (arg8 : Memref sig .tc .vmem S1024x128 .f32) (harg8 : arg8.IsWhole) (hc0 : ¬cond0_0 i) (hc1 : ¬cond0_1 i)
    (x0 : Vec F S1024x64 .bf16) (x1 : Vec F S2048x64 .bf16) (x2 : Vec F S2048x128 .bf16) (x3 : Vec F S1024x2048 .i32) (xs0 : Vec F S1024x1 .f32) (xs1 : Vec F S1024x128 .f32) : Vec F S1024x128 .f32 :=
  VS0_1.read (Elt F) (VS0_1.writes (Elt F) VS0_1.junk (kernelRun0_B c i arg2 harg2 arg3 harg3 arg4 harg4 arg5 harg5 arg6 harg6 arg7 harg7 arg8 harg8 hc0 hc1 x0 x1 x2 x3 xs0 xs1).2.2.1)

/-- Case C: what the run leaves in the output window's staging buffer (its pieces read back over junk). -/
def out0_C_4 (c : Dev nD) (i : grid0.Coords) (arg2 : Memref sig .tc .vmem S1024x64 .bf16) (harg2 : arg2.IsWhole) (arg3 : Memref sig .tc .vmem S2048x64 .bf16) (harg3 : arg3.IsWhole) (arg4 : Memref sig .tc .vmem S2048x128 .bf16) (harg4 : arg4.IsWhole) (arg5 : Memref sig .tc .vmem S1024x2048 .i32) (harg5 : arg5.IsWhole) (arg6 : Memref sig .tc .vmem S1024x64 .f32) (harg6 : arg6.IsWhole) (arg7 : Memref sig .tc .vmem S1024x1 .f32) (harg7 : arg7.IsWhole) (arg8 : Memref sig .tc .vmem S1024x128 .f32) (harg8 : arg8.IsWhole) (hc0 : ¬cond0_0 i) (hc1 : cond0_1 i)
    (x0 : Vec F S1024x64 .bf16) (x1 : Vec F S2048x64 .bf16) (x2 : Vec F S2048x128 .bf16) (x3 : Vec F S1024x2048 .i32) (xs0 : Vec F S1024x1 .f32) (xs1 : Vec F S1024x128 .f32) : Vec F S1024x64 .f32 :=
  VO0_4.read (Elt F) (VO0_4.writes (Elt F) VO0_4.junk (kernelRun0_C c i arg2 harg2 arg3 harg3 arg4 harg4 arg5 harg5 arg6 harg6 arg7 harg7 arg8 harg8 hc0 hc1 x0 x1 x2 x3 xs0 xs1).1)

/-- Case C's store into the output window's buffer covers it. -/
theorem cover0_C_4 (c : Dev nD) (i : grid0.Coords) (arg2 : Memref sig .tc .vmem S1024x64 .bf16) (harg2 : arg2.IsWhole) (arg3 : Memref sig .tc .vmem S2048x64 .bf16) (harg3 : arg3.IsWhole) (arg4 : Memref sig .tc .vmem S2048x128 .bf16) (harg4 : arg4.IsWhole) (arg5 : Memref sig .tc .vmem S1024x2048 .i32) (harg5 : arg5.IsWhole) (arg6 : Memref sig .tc .vmem S1024x64 .f32) (harg6 : arg6.IsWhole) (arg7 : Memref sig .tc .vmem S1024x1 .f32) (harg7 : arg7.IsWhole) (arg8 : Memref sig .tc .vmem S1024x128 .f32) (harg8 : arg8.IsWhole) (hc0 : ¬cond0_0 i) (hc1 : cond0_1 i)
    (x0 : Vec F S1024x64 .bf16) (x1 : Vec F S2048x64 .bf16) (x2 : Vec F S2048x128 .bf16) (x3 : Vec F S1024x2048 .i32) (xs0 : Vec F S1024x1 .f32) (xs1 : Vec F S1024x128 .f32) (y : S1024x64.Idx) :
    ∃ pc ∈ (kernelRun0_C c i arg2 harg2 arg3 harg3 arg4 harg4 arg5 harg5 arg6 harg6 arg7 harg7 arg8 harg8 hc0 hc1 x0 x1 x2 x3 xs0 xs1).1, y ∈ pc.1.set :=
  View.cover_of_tiledL (kernelRun0_C c i arg2 harg2 arg3 harg3 arg4 harg4 arg5 harg5 arg6 harg6 arg7 harg7 arg8 harg8 hc0 hc1 x0 x1 x2 x3 xs0 xs1).1 S1024x64.size (by sl_kernel_rfl) y

/-- Case C's stores into the running maximum's scratch cover it. -/
theorem scover0_C_0 (c : Dev nD) (i : grid0.Coords) (arg2 : Memref sig .tc .vmem S1024x64 .bf16) (harg2 : arg2.IsWhole) (arg3 : Memref sig .tc .vmem S2048x64 .bf16) (harg3 : arg3.IsWhole) (arg4 : Memref sig .tc .vmem S2048x128 .bf16) (harg4 : arg4.IsWhole) (arg5 : Memref sig .tc .vmem S1024x2048 .i32) (harg5 : arg5.IsWhole) (arg6 : Memref sig .tc .vmem S1024x64 .f32) (harg6 : arg6.IsWhole) (arg7 : Memref sig .tc .vmem S1024x1 .f32) (harg7 : arg7.IsWhole) (arg8 : Memref sig .tc .vmem S1024x128 .f32) (harg8 : arg8.IsWhole) (hc0 : ¬cond0_0 i) (hc1 : cond0_1 i)
    (x0 : Vec F S1024x64 .bf16) (x1 : Vec F S2048x64 .bf16) (x2 : Vec F S2048x128 .bf16) (x3 : Vec F S1024x2048 .i32) (xs0 : Vec F S1024x1 .f32) (xs1 : Vec F S1024x128 .f32) (y : S1024x1.Idx) :
    ∃ pc ∈ (kernelRun0_C c i arg2 harg2 arg3 harg3 arg4 harg4 arg5 harg5 arg6 harg6 arg7 harg7 arg8 harg8 hc0 hc1 x0 x1 x2 x3 xs0 xs1).2.1, y ∈ pc.1.set :=
  View.cover_of_tiledL (kernelRun0_C c i arg2 harg2 arg3 harg3 arg4 harg4 arg5 harg5 arg6 harg6 arg7 harg7 arg8 harg8 hc0 hc1 x0 x1 x2 x3 xs0 xs1).2.1 S1024x1.size (by sl_kernel_rfl) y

/-- What case C leaves in the running maximum's scratch. -/
def sout0_C_0 (c : Dev nD) (i : grid0.Coords) (arg2 : Memref sig .tc .vmem S1024x64 .bf16) (harg2 : arg2.IsWhole) (arg3 : Memref sig .tc .vmem S2048x64 .bf16) (harg3 : arg3.IsWhole) (arg4 : Memref sig .tc .vmem S2048x128 .bf16) (harg4 : arg4.IsWhole) (arg5 : Memref sig .tc .vmem S1024x2048 .i32) (harg5 : arg5.IsWhole) (arg6 : Memref sig .tc .vmem S1024x64 .f32) (harg6 : arg6.IsWhole) (arg7 : Memref sig .tc .vmem S1024x1 .f32) (harg7 : arg7.IsWhole) (arg8 : Memref sig .tc .vmem S1024x128 .f32) (harg8 : arg8.IsWhole) (hc0 : ¬cond0_0 i) (hc1 : cond0_1 i)
    (x0 : Vec F S1024x64 .bf16) (x1 : Vec F S2048x64 .bf16) (x2 : Vec F S2048x128 .bf16) (x3 : Vec F S1024x2048 .i32) (xs0 : Vec F S1024x1 .f32) (xs1 : Vec F S1024x128 .f32) : Vec F S1024x1 .f32 :=
  VS0_0.read (Elt F) (VS0_0.writes (Elt F) VS0_0.junk (kernelRun0_C c i arg2 harg2 arg3 harg3 arg4 harg4 arg5 harg5 arg6 harg6 arg7 harg7 arg8 harg8 hc0 hc1 x0 x1 x2 x3 xs0 xs1).2.1)

/-- Case C's stores into the accumulator's scratch cover it. -/
theorem scover0_C_1 (c : Dev nD) (i : grid0.Coords) (arg2 : Memref sig .tc .vmem S1024x64 .bf16) (harg2 : arg2.IsWhole) (arg3 : Memref sig .tc .vmem S2048x64 .bf16) (harg3 : arg3.IsWhole) (arg4 : Memref sig .tc .vmem S2048x128 .bf16) (harg4 : arg4.IsWhole) (arg5 : Memref sig .tc .vmem S1024x2048 .i32) (harg5 : arg5.IsWhole) (arg6 : Memref sig .tc .vmem S1024x64 .f32) (harg6 : arg6.IsWhole) (arg7 : Memref sig .tc .vmem S1024x1 .f32) (harg7 : arg7.IsWhole) (arg8 : Memref sig .tc .vmem S1024x128 .f32) (harg8 : arg8.IsWhole) (hc0 : ¬cond0_0 i) (hc1 : cond0_1 i)
    (x0 : Vec F S1024x64 .bf16) (x1 : Vec F S2048x64 .bf16) (x2 : Vec F S2048x128 .bf16) (x3 : Vec F S1024x2048 .i32) (xs0 : Vec F S1024x1 .f32) (xs1 : Vec F S1024x128 .f32) (y : S1024x128.Idx) :
    ∃ pc ∈ (kernelRun0_C c i arg2 harg2 arg3 harg3 arg4 harg4 arg5 harg5 arg6 harg6 arg7 harg7 arg8 harg8 hc0 hc1 x0 x1 x2 x3 xs0 xs1).2.2.1, y ∈ pc.1.set :=
  View.cover_of_tiledL (kernelRun0_C c i arg2 harg2 arg3 harg3 arg4 harg4 arg5 harg5 arg6 harg6 arg7 harg7 arg8 harg8 hc0 hc1 x0 x1 x2 x3 xs0 xs1).2.2.1 S1024x128.size (by sl_kernel_rfl) y

/-- What case C leaves in the accumulator's scratch. -/
def sout0_C_1 (c : Dev nD) (i : grid0.Coords) (arg2 : Memref sig .tc .vmem S1024x64 .bf16) (harg2 : arg2.IsWhole) (arg3 : Memref sig .tc .vmem S2048x64 .bf16) (harg3 : arg3.IsWhole) (arg4 : Memref sig .tc .vmem S2048x128 .bf16) (harg4 : arg4.IsWhole) (arg5 : Memref sig .tc .vmem S1024x2048 .i32) (harg5 : arg5.IsWhole) (arg6 : Memref sig .tc .vmem S1024x64 .f32) (harg6 : arg6.IsWhole) (arg7 : Memref sig .tc .vmem S1024x1 .f32) (harg7 : arg7.IsWhole) (arg8 : Memref sig .tc .vmem S1024x128 .f32) (harg8 : arg8.IsWhole) (hc0 : ¬cond0_0 i) (hc1 : cond0_1 i)
    (x0 : Vec F S1024x64 .bf16) (x1 : Vec F S2048x64 .bf16) (x2 : Vec F S2048x128 .bf16) (x3 : Vec F S1024x2048 .i32) (xs0 : Vec F S1024x1 .f32) (xs1 : Vec F S1024x128 .f32) : Vec F S1024x128 .f32 :=
  VS0_1.read (Elt F) (VS0_1.writes (Elt F) VS0_1.junk (kernelRun0_C c i arg2 harg2 arg3 harg3 arg4 harg4 arg5 harg5 arg6 harg6 arg7 harg7 arg8 harg8 hc0 hc1 x0 x1 x2 x3 xs0 xs1).2.2.1)

/-! ## What the output's buffer and the two scratch buffers hold after each point -/

/-- After the body at position `n`: (the output window's buffer, the running maximum's scratch, the accumulator's scratch). -/
def outsAt0 (c : Dev nD) : (n : ℕ) → n < cfg0.N → Vec F S1024x64 .f32 × Vec F S1024x1 .f32 × Vec F S1024x128 .f32
  | 0, hn => (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩))
  | n + 1, hn =>
    if h0 : (n + 1) % 4 = 0 then
      if h1 : (n + 1) % 4 = 3 then
        False.elim (by omega)
      else
        (out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩))
    else
      if h1 : (n + 1) % 4 = 3 then
        (out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2)
      else
        (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2)

theorem outsAt0_A (c : Dev nD) (t : Fin cfg0.N) (h0 : t.val % 4 = 0) (h1 : ¬t.val % 4 = 3) :
    outsAt0 m c t.val t.isLt = (out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t), sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t), sout0_A_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t)) := by
  obtain ⟨n, hn⟩ := t
  cases n with
  | zero => exact rfl
  | succ n => exact (dif_pos h0).trans ((dif_neg h1).trans rfl)

theorem outsAt0_B (c : Dev nD) (t : Fin cfg0.N) (h0 : ¬t.val % 4 = 0) (h1 : ¬t.val % 4 = 3) :
    outsAt0 m c t.val t.isLt = (out0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2, sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2, sout0_B_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 4 = 0) (h1 : t.val % 4 = 3) :
    outsAt0 m c t.val t.isLt = (out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2, sout0_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2, sout0_C_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point both scratch buffers at anything; afterwards each
    at what the point before left in it; the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.1) ∗ owns (c : Thread nD τ) scM0_1 fullShare ((outsAt0 m c n hn).2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.1) ∗ owns (c : Thread nD τ) scM0_1 fullShare ((outsAt0 m c n hn).2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.1) ∗ owns (c : Thread nD τ) scM0_1 fullShare ((outsAt0 m c (n - 1) (by omega)).2.2)) ∗ (∃ r, prngReg c r)) := by
  cases n with
  | zero => exact absurd rfl hz
  | succ n => rfl

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

theorem leaves0_0 (c : Dev nD) (t : Fin cfg0.N) : (dats m 0 c).leavesExact 0 t = owns (c : Thread nD τ) (ms0_0 t) fullShare (iblk m c 0 t) := by
  unfold Dat.leavesExact; rw [liveAt0_0 t, after0_0]
theorem leaves0_1 (c : Dev nD) (t : Fin cfg0.N) : (dats m 0 c).leavesExact 1 t = owns (c : Thread nD τ) (ms0_1 t) fullShare (iblk m c 1 t) := by
  unfold Dat.leavesExact; rw [liveAt0_1 t, after0_1]
theorem leaves0_2 (c : Dev nD) (t : Fin cfg0.N) : (dats m 0 c).leavesExact 2 t = owns (c : Thread nD τ) (ms0_2 t) fullShare (iblk m c 2 t) := by
  unfold Dat.leavesExact; rw [liveAt0_2 t, after0_2]
theorem leaves0_3 (c : Dev nD) (t : Fin cfg0.N) : (dats m 0 c).leavesExact 3 t = owns (c : Thread nD τ) (ms0_3 t) fullShare (iblk m c 3 t) := by
  unfold Dat.leavesExact; rw [liveAt0_3 t, after0_3]

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  rw [leaves0_0, leaves0_1, leaves0_2, leaves0_3]
  have hN : t.val < 32 := lt_of_lt_of_eq t.isLt (show cfg0.N = 32 from N_0)
  by_cases h0 : t.val % 4 = 0
  · have h1 : ¬t.val % 4 = 3 := by omega
    have hc0 : cond0_0 (grid0.coords t) := (hcond0_0 t).mpr h0
    have hc1 : ¬cond0_1 (grid0.coords t) := fun h => h1 ((hcond0_1 t).mp h)
    rw [Dat.leavesExact_idle (dats m 0 c) 4 t (idleAt0_4 t hc1) (noFlush0_4 t hc1)]
    rw [outsAt0_A m c t h0 h1]
    unfold sout0_A_0 sout0_A_1; (try dsimp only)
    by_cases hz : t.val = 0
    · rw [PhiS_castSucc m c t, PhiS_zero m c _ _ hz, PhiA0_eq]
      iintro ⟨⟨⟨HS0, HS1⟩, Hg⟩, Ho, ⟨%d0, H0⟩, ⟨%d1, H1⟩, ⟨%d2, H2⟩, ⟨%d3, H3⟩, ⟨%d4, H4⟩⟩
      iapply ((kernelRun0_A c (grid0.coords t) _ _ _ _ _ _ _ _ _ _ _ _ _ _ hc0 hc1 (iblk m c 0 t) (iblk m c 1 t) (iblk m c 2 t) (iblk m c 3 t)).2.2.2 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _)
          · unfold owns; iexists _; isplitr
            swap; · iexact HS1
            ipureintro; exact View.read_writes_of_cover _ _ _ _ _ (scover0_A_1 c _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4
    · rw [PhiS_castSucc m c t, PhiS_pos m c _ _ hz]
      iintro ⟨⟨⟨HS0, HS1⟩, Hg⟩, Ho, ⟨%d0, H0⟩, ⟨%d1, H1⟩, ⟨%d2, H2⟩, ⟨%d3, H3⟩, ⟨%d4, H4⟩⟩
      iapply ((kernelRun0_A c (grid0.coords t) _ _ _ _ _ _ _ _ _ _ _ _ _ _ hc0 hc1 (iblk m c 0 t) (iblk m c 1 t) (iblk m c 2 t) (iblk m c 3 t)).2.2.2 _ Set.univ _)
      isplitl [H0]; · iexact H0
      isplitl [H1]; · iexact H1
      isplitl [H2]; · iexact H2
      isplitl [H3]; · iexact H3
      isplitl [H4]; · iexact H4
      isplitl [HS0]; · iexists _; iexact HS0
      isplitl [HS1]; · iexists _; iexact HS1
      iintro ⟨H0, H1, H2, H3, H4, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _)
          · unfold owns; iexists _; isplitr
            swap; · iexact HS1
            ipureintro; exact View.read_writes_of_cover _ _ _ _ _ (scover0_A_1 c _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun hz => h0 (by rw [hz])
    have hc0 : ¬cond0_0 (grid0.coords t) := fun h => h0 ((hcond0_0 t).mp h)
    by_cases h1 : t.val % 4 = 3
    · have hc1 : cond0_1 (grid0.coords t) := (hcond0_1 t).mpr h1
      rw [show (dats m 0 c).leavesExact 4 t = owns (c : Thread nD τ) (ms0_4 t) fullShare ((dats m 0 c).after 4 t) from by
        unfold Dat.leavesExact; rw [liveAt0_4 t hc1], after0_4]
      rw [outsAt0_C m c t h0 h1]
      unfold out0_C_4 sout0_C_0 sout0_C_1; (try dsimp only)
      rw [PhiS_castSucc m c t, PhiS_pos m c _ _ hz]
      iintro ⟨⟨⟨HS0, HS1⟩, Hg⟩, Ho, ⟨%d0, H0⟩, ⟨%d1, H1⟩, ⟨%d2, H2⟩, ⟨%d3, H3⟩, ⟨%d4, H4⟩⟩
      iapply ((kernelRun0_C c (grid0.coords t) _ _ _ _ _ _ _ _ _ _ _ _ _ _ hc0 hc1 (iblk m c 0 t) (iblk m c 1 t) (iblk m c 2 t) (iblk m c 3 t) _ _).2.2.2 Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      iintro ⟨H0, H1, H2, H3, ⟨%e4, H4⟩, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scover0_C_0 c _ _ _ _ _ _ _ _ _ _ _ _ _ _ _ _ _ _ _ _ _ _ _)
          · unfold owns; iexists _; isplitr
            swap; · iexact HS1
            ipureintro; exact View.read_writes_of_cover _ _ _ _ _ (scover0_C_1 c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover0_C_4 c _ _ _ _ _ _ _ _ _ _ _ _ _ _ _ _ _ _ _ _ _ _ _)
    · have hc1 : ¬cond0_1 (grid0.coords t) := fun h => h1 ((hcond0_1 t).mp h)
      rw [Dat.leavesExact_idle (dats m 0 c) 4 t (idleAt0_4 t hc1) (noFlush0_4 t hc1)]
      rw [outsAt0_B m c t h0 h1]
      unfold sout0_B_0 sout0_B_1; (try dsimp only)
      rw [PhiS_castSucc m c t, PhiS_pos m c _ _ hz]
      iintro ⟨⟨⟨HS0, HS1⟩, Hg⟩, Ho, ⟨%d0, H0⟩, ⟨%d1, H1⟩, ⟨%d2, H2⟩, ⟨%d3, H3⟩, ⟨%d4, H4⟩⟩
      iapply ((kernelRun0_B c (grid0.coords t) _ _ _ _ _ _ _ _ _ _ _ _ _ _ hc0 hc1 (iblk m c 0 t) (iblk m c 1 t) (iblk m c 2 t) (iblk m c 3 t) _ _).2.2.2 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _)
          · unfold owns; iexists _; isplitr
            swap; · iexact HS1
            ipureintro; exact View.read_writes_of_cover _ _ _ _ _ (scover0_B_1 c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 32 := N_0; omega), PhiA0_eq]
  iintro ⟨⟨HS0, HS1⟩, Hg⟩
  isplitl [HS0 HS1]
  · isplitl [HS0]
    · iexists _; iexact HS0
    · iexists _; iexact HS1
  iexact Hg

/-! ## The run and the frame -/

set_option backward.isDefEq.respectTransparency.types false in
/-- Every weakly fair execution of @main terminates, every array of the pipeline ends at what its write-backs left, and
    every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame claim, at any float family. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.KernelIdeal.Fr

end
-- ==== Proof.KernelFinal.lean ====
/-
  The result array after the run. The output window's block of row block `a` is written back once, at the grid point of
  its last key block (`4 a + 3`), with what the body left in the window's buffer there; the eight blocks tile the
  [8192, 64] array, so the array ends as one function of those: entry `(i, c)` is entry `(i mod 1024, c)` of what point
  `4 (i / 1024) + 3` left.
-/
import proofs.«429930_j75204877353135_3_alg».proof.Proof.KernelIdealFrame
import Idealize.ShloMosaic.Lib.ValueIdx
import Idealize.ShloMosaic.Lib.Pipeline.Value

noncomputable section

namespace Cert.KernelIdeal.Fin

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Fr

variable {F : FTy → Type} [FloatOps F]
variable (m : (ℓ : Loc nD τ sig) → Buf (Elt F) ℓ) (ρ : Dev nD → PrngReg)

/-- The last key point of a row's block is a grid point. -/
theorem last_lt (i : Fin 8192) : 4 * (i.val / 1024) + 3 < cfg0.N := by
  have hN : cfg0.N = 32 := N_0
  have hi := i.isLt
  omega

/-- The result array as one function of what the points left in the output window's buffer. -/
def G (c : Dev nD) : Buf (Elt F) ((c : Thread nD τ).loc main_v14) :=
  fun i : S8192x64.Idx => ((outsAt0 m c (4 * ((i 0).val / 1024) + 3) (last_lt (i 0))).1 : Vec F S1024x64 .f32)
    (ix2 (⟨(i 0).val % 1024, Nat.mod_lt _ (by decide)⟩ : Fin 1024) (i 1))

/-- What a point left depends on the position only, not on how the position is written. -/
private theorem outsAt0_congr (c : Dev nD) : ∀ (n n' : ℕ) (_ : n = n') (hn : n < cfg0.N) (hn' : n' < cfg0.N),
    outsAt0 m c n hn = outsAt0 m c n' hn' := by
  intro n n' h hn hn'
  subst h
  rfl

/-- At a point `t` of a last key block, `G` at row `1024 (t / 4) + y₀`, column `y₁`, is entry `(y₀, y₁)` of what
`t` left: `(1024 (t / 4) + y₀) / 1024 = t / 4`, `4 (t / 4) + 3 = t`, and the remainder mod 1024 is `y₀`. -/
private theorem G_at (c : Dev nD) (t : Fin cfg0.N) (h3 : t.val % 4 = 3) (i : S8192x64.Idx) (y : S1024x64.Idx)
    (h0 : (i 0).val = 1024 * (t.val / 4) + (y 0).val) (h1 : (i 1).val = (y 1).val) :
    G m c i = ((outsAt0 m c t.val t.isLt).1 : Vec F S1024x64 .f32) y := by
  have hy0 : (y 0).val < 1024 := idx2_lt0 y
  have e : 4 * ((i 0).val / 1024) + 3 = t.val := by omega
  unfold G
  rw [outsAt0_congr m c _ _ e (last_lt (i 0)) t.isLt]
  refine congrArg ((outsAt0 m c t.val t.isLt).1 : Vec F S1024x64 .f32) ?_
  funext a
  apply Fin.ext
  match a with
  | ⟨0, _⟩ =>
    show (i 0).val % 1024 = (y 0).val
    omega
  | ⟨1, _⟩ => exact h1

/-- What a writing point writes back is its block of `G`. -/
private theorem flushed_eq (c : Dev nD) (t : Fin cfg0.N) (hf : (cfg0.win 4).flush t = true) :
    (dats m 0 c).flushed 4 t = ((cfg0.win 4).blk t).view.read (Elt F) (G m c) := by
  have h3 : t.val % 4 = 3 := (flush0_4 t).mp hf
  have hi : ∀ t : Fin cfg0.N, win0_4.index t 0 = t.val / 4 ∧ win0_4.index t 1 = 0 :=
    (by decide +kernel : ∀ t : Fin grid0.N, win0_4.index t 0 = t.val / 4 ∧ win0_4.index t 1 = 0)
  show (cfg0.win 4).cut (grid0.coords t) ((dats m 0 c).after 4 t) = _
  rw [after0_4]
  funext y
  rw [View.read_apply]
  show ((outsAt0 m c t.val t.isLt).1 : Vec F S1024x64 .f32) y = G m c (((cfg0.win 4).blk t).view.emb y)
  refine (G_at m c t h3 _ y ?_ ?_).symm
  · show win0_4.index t 0 * 1024 + 1 * (y 0).val = 1024 * (t.val / 4) + (y 0).val
    rw [(hi t).1]
    omega
  · show win0_4.index t 1 * 64 + 1 * (y 1).val = (y 1).val
    rw [(hi t).2]
    omega

/-- The result array ends at `G`. -/
theorem final_o (c : Dev nD) : (dats m 0 c).arrAt 4 cfg0.N = G m c := by
  have hi : ∀ t : Fin cfg0.N, win0_4.index t 0 = t.val / 4 ∧ win0_4.index t 1 = 0 :=
    (by decide +kernel : ∀ t : Fin grid0.N, win0_4.index t 0 = t.val / 4 ∧ win0_4.index t 1 = 0)
  refine (dats m 0 c).arrAt_eq_of_cover 4 (G m c) (flushed_eq m c) fun i => ?_
  have h0 : (i 0 : Nat) < 8192 := (i 0).isLt
  have h1 : (i 1 : Nat) < 64 := (i 1).isLt
  have hlt : 4 * ((i 0 : Nat) / 1024) + 3 < cfg0.N := by
    have hN : cfg0.N = 32 := N_0
    omega
  have ht : ((⟨4 * ((i 0 : Nat) / 1024) + 3, hlt⟩ : Fin cfg0.N) : Nat) = 4 * ((i 0 : Nat) / 1024) + 3 := rfl
  refine ⟨⟨4 * ((i 0 : Nat) / 1024) + 3, hlt⟩, (flush0_4 _).mpr (by rw [ht]; omega), ?_⟩
  show i ∈ ((View.whole main_v14).slice (win0_4.rect ⟨4 * ((i 0 : Nat) / 1024) + 3, hlt⟩)).set
  rw [View.set_slice_whole, Rect.mem_set_unit]
  intro a
  match a with
  | ⟨0, _⟩ =>
    show win0_4.index ⟨4 * ((i 0 : Nat) / 1024) + 3, hlt⟩ 0 * 1024 ≤ (i 0 : Nat)
      ∧ (i 0 : Nat) < win0_4.index ⟨4 * ((i 0 : Nat) / 1024) + 3, hlt⟩ 0 * 1024 + 1024
    rw [(hi _).1, ht]
    omega
  | ⟨1, _⟩ =>
    show win0_4.index ⟨4 * ((i 0 : Nat) / 1024) + 3, hlt⟩ 1 * 64 ≤ (i 1 : Nat)
      ∧ (i 1 : Nat) < win0_4.index ⟨4 * ((i 0 : Nat) / 1024) + 3, hlt⟩ 1 * 64 + 64
    rw [(hi _).2]
    omega

/-- The run, read: the result array at `G`, the five arguments unchanged. -/
theorem run : θ_run defs (onTc (τ := τ) (main (F := F))) ⟨m, fun _ => 0, ρ⟩ fun r => ∀ c : Dev nD,
      r.2.mem ((c.tc : Thread nD τ).loc main_v14) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  exact (θ_run defs _ _).mono (fun r h c => ⟨
    ((h c).1 4).trans (final_o m c),
    ((h c).2 main_arg0 (Pipeline.mem_restRefs_of main_arg0 (by decide) (by decide))).trans (V_main_arg0 m c),
    ((h c).1 3).trans (((dats m 0 c).arrAt_in 3 rfl _).trans ((A_eq m c 3).trans (V_main_arg1 m c))),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c)⟩)
    (run_main m ρ)

end Cert.KernelIdeal.Fin

end
-- ==== Proof.Pieces.lean ====
/-
  What each case of the body leaves, as the body's own arithmetic of what it was handed. Away from the first key block
  the running maximum's scratch ends at the larger of its old contents and the block's row maxima, and the
  accumulator's at the old one rescaled plus the block's contribution; at the first key block the same with the old
  maximum -∞ and the old accumulator 0 (the reset's stores, read back); at the last key block the output's buffer
  ends at the quotient of the new accumulator's columns 0..63 by its column 64.
-/
import proofs.«429930_j75204877353135_3_alg».proof.Proof.KernelIdealFrame
import Idealize.ShloMosaic.Lib.Pipeline.Value
import Idealize.ShloMosaic.Lib.ValueIdx
import Idealize.ShloMosaic.Lib.Tactic

set_option maxRecDepth 16384

noncomputable section

namespace Cert.KernelIdeal.Pc

open Idealize.ShloMosaic Idealize.ShloMosaic.TcCoe Idealize.ShloMosaic.Tactic Idealize.SL.Sem
open Idealize.ShloMosaic.Pipeline (Dat)
open Cert.KernelIdeal Cert.KernelIdeal.Gen Cert.KernelIdeal.Fr

variable {F : FTy → Type} [FloatOps F]

theorem hz : (![0, 0] : Fin 2 → Nat) = fun _ => 0 := funext fun a => by fin_cases a <;> rfl

theorem s0_B (c : Dev nD) (i : grid0.Coords) (arg2 : Memref sig .tc .vmem S1024x64 .bf16) (harg2 : arg2.IsWhole) (arg3 : Memref sig .tc .vmem S2048x64 .bf16) (harg3 : arg3.IsWhole) (arg4 : Memref sig .tc .vmem S2048x128 .bf16) (harg4 : arg4.IsWhole) (arg5 : Memref sig .tc .vmem S1024x2048 .i32) (harg5 : arg5.IsWhole) (arg6 : Memref sig .tc .vmem S1024x64 .f32) (harg6 : arg6.IsWhole) (arg7 : Memref sig .tc .vmem S1024x1 .f32) (harg7 : arg7.IsWhole) (arg8 : Memref sig .tc .vmem S1024x128 .f32) (harg8 : arg8.IsWhole) (hc0 : ¬cond0_0 i) (hc1 : ¬cond0_1 i)
    (x0 : Vec F S1024x64 .bf16) (x1 : Vec F S2048x64 .bf16) (x2 : Vec F S2048x128 .bf16) (x3 : Vec F S1024x2048 .i32) (xs0 : Vec F S1024x1 .f32) (xs1 : Vec F S1024x128 .f32) :
    sout0_B_0 c i arg2 harg2 arg3 harg3 arg4 harg4 arg5 harg5 arg6 harg6 arg7 harg7 arg8 harg8 hc0 hc1 x0 x1 x2 x3 xs0 xs1 = k0_pay1 (k0_pay6 x0 x1 xs0) := by
  unfold sout0_B_0
  rw [View.read_writes_eq_canon _ _ _ (scover0_B_0 c i arg2 harg2 arg3 harg3 arg4 harg4 arg5 harg5 arg6 harg6 arg7 harg7 arg8 harg8 hc0 hc1 x0 x1 x2 x3 xs0 xs1)]
  unfold kernelRun0_B
  dsimp only
  sl_unfold_words
  rw [View.canon_unit_zero hz]
  simp only [View.readAt_eq_ld, harg2.read_unread, harg3.read_unread, harg4.read_unread, harg5.read_unread, harg6.read_unread, harg7.read_unread, harg8.read_unread,
    View.ld_unit_zero (S := S1024x64) hz, View.ld_unit_zero (S := S2048x64) hz, View.ld_unit_zero (S := S2048x128) hz,
    View.ld_unit_zero (S := S1024x2048) hz, View.ld_unit_zero (S := S1024x1) hz, View.ld_unit_zero (S := S1024x128) hz]

theorem s1_B (c : Dev nD) (i : grid0.Coords) (arg2 : Memref sig .tc .vmem S1024x64 .bf16) (harg2 : arg2.IsWhole) (arg3 : Memref sig .tc .vmem S2048x64 .bf16) (harg3 : arg3.IsWhole) (arg4 : Memref sig .tc .vmem S2048x128 .bf16) (harg4 : arg4.IsWhole) (arg5 : Memref sig .tc .vmem S1024x2048 .i32) (harg5 : arg5.IsWhole) (arg6 : Memref sig .tc .vmem S1024x64 .f32) (harg6 : arg6.IsWhole) (arg7 : Memref sig .tc .vmem S1024x1 .f32) (harg7 : arg7.IsWhole) (arg8 : Memref sig .tc .vmem S1024x128 .f32) (harg8 : arg8.IsWhole) (hc0 : ¬cond0_0 i) (hc1 : ¬cond0_1 i)
    (x0 : Vec F S1024x64 .bf16) (x1 : Vec F S2048x64 .bf16) (x2 : Vec F S2048x128 .bf16) (x3 : Vec F S1024x2048 .i32) (xs0 : Vec F S1024x1 .f32) (xs1 : Vec F S1024x128 .f32) :
    sout0_B_1 c i arg2 harg2 arg3 harg3 arg4 harg4 arg5 harg5 arg6 harg6 arg7 harg7 arg8 harg8 hc0 hc1 x0 x1 x2 x3 xs0 xs1 = k0_pay7 x0 x1 x2 xs0 xs0 x3 xs1 := by
  unfold sout0_B_1
  rw [View.read_writes_eq_canon _ _ _ (scover0_B_1 c i arg2 harg2 arg3 harg3 arg4 harg4 arg5 harg5 arg6 harg6 arg7 harg7 arg8 harg8 hc0 hc1 x0 x1 x2 x3 xs0 xs1)]
  unfold kernelRun0_B
  dsimp only
  sl_unfold_words
  rw [View.canon_unit_zero hz]
  simp only [View.readAt_eq_ld, harg2.read_unread, harg3.read_unread, harg4.read_unread, harg5.read_unread, harg6.read_unread, harg7.read_unread, harg8.read_unread,
    View.ld_unit_zero (S := S1024x64) hz, View.ld_unit_zero (S := S2048x64) hz, View.ld_unit_zero (S := S2048x128) hz,
    View.ld_unit_zero (S := S1024x2048) hz, View.ld_unit_zero (S := S1024x1) hz, View.ld_unit_zero (S := S1024x128) hz]

theorem s0_C (c : Dev nD) (i : grid0.Coords) (arg2 : Memref sig .tc .vmem S1024x64 .bf16) (harg2 : arg2.IsWhole) (arg3 : Memref sig .tc .vmem S2048x64 .bf16) (harg3 : arg3.IsWhole) (arg4 : Memref sig .tc .vmem S2048x128 .bf16) (harg4 : arg4.IsWhole) (arg5 : Memref sig .tc .vmem S1024x2048 .i32) (harg5 : arg5.IsWhole) (arg6 : Memref sig .tc .vmem S1024x64 .f32) (harg6 : arg6.IsWhole) (arg7 : Memref sig .tc .vmem S1024x1 .f32) (harg7 : arg7.IsWhole) (arg8 : Memref sig .tc .vmem S1024x128 .f32) (harg8 : arg8.IsWhole) (hc0 : ¬cond0_0 i) (hc1 : cond0_1 i)
    (x0 : Vec F S1024x64 .bf16) (x1 : Vec F S2048x64 .bf16) (x2 : Vec F S2048x128 .bf16) (x3 : Vec F S1024x2048 .i32) (xs0 : Vec F S1024x1 .f32) (xs1 : Vec F S1024x128 .f32) :
    sout0_C_0 c i arg2 harg2 arg3 harg3 arg4 harg4 arg5 harg5 arg6 harg6 arg7 harg7 arg8 harg8 hc0 hc1 x0 x1 x2 x3 xs0 xs1 = k0_pay1 (k0_pay6 x0 x1 xs0) := by
  unfold sout0_C_0
  rw [View.read_writes_eq_canon _ _ _ (scover0_C_0 c i arg2 harg2 arg3 harg3 arg4 harg4 arg5 harg5 arg6 harg6 arg7 harg7 arg8 harg8 hc0 hc1 x0 x1 x2 x3 xs0 xs1)]
  unfold kernelRun0_C
  dsimp only
  sl_unfold_words
  rw [View.canon_unit_zero hz]
  simp only [View.readAt_eq_ld, harg2.read_unread, harg3.read_unread, harg4.read_unread, harg5.read_unread, harg6.read_unread, harg7.read_unread, harg8.read_unread,
    View.ld_unit_zero (S := S1024x64) hz, View.ld_unit_zero (S := S2048x64) hz, View.ld_unit_zero (S := S2048x128) hz,
    View.ld_unit_zero (S := S1024x2048) hz, View.ld_unit_zero (S := S1024x1) hz, View.ld_unit_zero (S := S1024x128) hz]

theorem s1_C (c : Dev nD) (i : grid0.Coords) (arg2 : Memref sig .tc .vmem S1024x64 .bf16) (harg2 : arg2.IsWhole) (arg3 : Memref sig .tc .vmem S2048x64 .bf16) (harg3 : arg3.IsWhole) (arg4 : Memref sig .tc .vmem S2048x128 .bf16) (harg4 : arg4.IsWhole) (arg5 : Memref sig .tc .vmem S1024x2048 .i32) (harg5 : arg5.IsWhole) (arg6 : Memref sig .tc .vmem S1024x64 .f32) (harg6 : arg6.IsWhole) (arg7 : Memref sig .tc .vmem S1024x1 .f32) (harg7 : arg7.IsWhole) (arg8 : Memref sig .tc .vmem S1024x128 .f32) (harg8 : arg8.IsWhole) (hc0 : ¬cond0_0 i) (hc1 : cond0_1 i)
    (x0 : Vec F S1024x64 .bf16) (x1 : Vec F S2048x64 .bf16) (x2 : Vec F S2048x128 .bf16) (x3 : Vec F S1024x2048 .i32) (xs0 : Vec F S1024x1 .f32) (xs1 : Vec F S1024x128 .f32) :
    sout0_C_1 c i arg2 harg2 arg3 harg3 arg4 harg4 arg5 harg5 arg6 harg6 arg7 harg7 arg8 harg8 hc0 hc1 x0 x1 x2 x3 xs0 xs1 = k0_pay7 x0 x1 x2 xs0 xs0 x3 xs1 := by
  unfold sout0_C_1
  rw [View.read_writes_eq_canon _ _ _ (scover0_C_1 c i arg2 harg2 arg3 harg3 arg4 harg4 arg5 harg5 arg6 harg6 arg7 harg7 arg8 harg8 hc0 hc1 x0 x1 x2 x3 xs0 xs1)]
  unfold kernelRun0_C
  dsimp only
  sl_unfold_words
  rw [View.canon_unit_zero hz]
  simp only [View.readAt_eq_ld, harg2.read_unread, harg3.read_unread, harg4.read_unread, harg5.read_unread, harg6.read_unread, harg7.read_unread, harg8.read_unread,
    View.ld_unit_zero (S := S1024x64) hz, View.ld_unit_zero (S := S2048x64) hz, View.ld_unit_zero (S := S2048x128) hz,
    View.ld_unit_zero (S := S1024x2048) hz, View.ld_unit_zero (S := S1024x1) hz, View.ld_unit_zero (S := S1024x128) hz]

theorem s0_A (c : Dev nD) (i : grid0.Coords) (arg2 : Memref sig .tc .vmem S1024x64 .bf16) (harg2 : arg2.IsWhole) (arg3 : Memref sig .tc .vmem S2048x64 .bf16) (harg3 : arg3.IsWhole) (arg4 : Memref sig .tc .vmem S2048x128 .bf16) (harg4 : arg4.IsWhole) (arg5 : Memref sig .tc .vmem S1024x2048 .i32) (harg5 : arg5.IsWhole) (arg6 : Memref sig .tc .vmem S1024x64 .f32) (harg6 : arg6.IsWhole) (arg7 : Memref sig .tc .vmem S1024x1 .f32) (harg7 : arg7.IsWhole) (arg8 : Memref sig .tc .vmem S1024x128 .f32) (harg8 : arg8.IsWhole) (hc0 : cond0_0 i) (hc1 : ¬cond0_1 i)
    (x0 : Vec F S1024x64 .bf16) (x1 : Vec F S2048x64 .bf16) (x2 : Vec F S2048x128 .bf16) (x3 : Vec F S1024x2048 .i32) :
    sout0_A_0 c i arg2 harg2 arg3 harg3 arg4 harg4 arg5 harg5 arg6 harg6 arg7 harg7 arg8 harg8 hc0 hc1 x0 x1 x2 x3 = k0_pay1 (k0_pay6 x0 x1 (k0_pay3 (F := F))) := by
  unfold sout0_A_0
  rw [View.read_writes_eq_canon _ _ _ (scover0_A_0 c i arg2 harg2 arg3 harg3 arg4 harg4 arg5 harg5 arg6 harg6 arg7 harg7 arg8 harg8 hc0 hc1 x0 x1 x2 x3)]
  unfold kernelRun0_A
  dsimp only
  sl_unfold_words
  rw [View.canon_cons_unit_zero (S := S1024x1) hz, View.readCov_unit_zero (S := S1024x1) _ hz]
  simp only [View.readAt_eq_ld, harg2.read_unread, harg3.read_unread, harg4.read_unread, harg5.read_unread, harg6.read_unread, harg7.read_unread, harg8.read_unread,
    View.ld_unit_zero (S := S1024x64) hz, View.ld_unit_zero (S := S2048x64) hz, View.ld_unit_zero (S := S2048x128) hz,
    View.ld_unit_zero (S := S1024x2048) hz, View.ld_unit_zero (S := S1024x1) hz, View.ld_unit_zero (S := S1024x128) hz]

theorem s1_A (c : Dev nD) (i : grid0.Coords) (arg2 : Memref sig .tc .vmem S1024x64 .bf16) (harg2 : arg2.IsWhole) (arg3 : Memref sig .tc .vmem S2048x64 .bf16) (harg3 : arg3.IsWhole) (arg4 : Memref sig .tc .vmem S2048x128 .bf16) (harg4 : arg4.IsWhole) (arg5 : Memref sig .tc .vmem S1024x2048 .i32) (harg5 : arg5.IsWhole) (arg6 : Memref sig .tc .vmem S1024x64 .f32) (harg6 : arg6.IsWhole) (arg7 : Memref sig .tc .vmem S1024x1 .f32) (harg7 : arg7.IsWhole) (arg8 : Memref sig .tc .vmem S1024x128 .f32) (harg8 : arg8.IsWhole) (hc0 : cond0_0 i) (hc1 : ¬cond0_1 i)
    (x0 : Vec F S1024x64 .bf16) (x1 : Vec F S2048x64 .bf16) (x2 : Vec F S2048x128 .bf16) (x3 : Vec F S1024x2048 .i32) :
    sout0_A_1 c i arg2 harg2 arg3 harg3 arg4 harg4 arg5 harg5 arg6 harg6 arg7 harg7 arg8 harg8 hc0 hc1 x0 x1 x2 x3 = k0_pay7 x0 x1 x2 (k0_pay3 (F := F)) (k0_pay3 (F := F)) x3 (k0_pay4 (F := F)) := by
  unfold sout0_A_1
  rw [View.read_writes_eq_canon _ _ _ (scover0_A_1 c i arg2 harg2 arg3 harg3 arg4 harg4 arg5 harg5 arg6 harg6 arg7 harg7 arg8 harg8 hc0 hc1 x0 x1 x2 x3)]
  unfold kernelRun0_A
  dsimp only
  sl_unfold_words
  rw [View.canon_cons_unit_zero (S := S1024x128) hz, View.readCov_unit_zero (S := S1024x1) _ hz, View.readCov_unit_zero (S := S1024x128) _ hz]
  simp only [View.readAt_eq_ld, harg2.read_unread, harg3.read_unread, harg4.read_unread, harg5.read_unread, harg6.read_unread, harg7.read_unread, harg8.read_unread,
    View.ld_unit_zero (S := S1024x64) hz, View.ld_unit_zero (S := S2048x64) hz, View.ld_unit_zero (S := S2048x128) hz,
    View.ld_unit_zero (S := S1024x2048) hz, View.ld_unit_zero (S := S1024x1) hz, View.ld_unit_zero (S := S1024x128) hz]

/-- A load through any rectangle of what ONE whole-shape store left reads the stored value through that rectangle. -/
theorem readCov_one_whole {sig : RefSig} {κ : Kind} {sp : Space} {S : Shape} {e : EltTy} (v : View sig κ sp S e)
    {off : Fin S.rank → Nat} (h : off = fun _ => 0) (inb : ∀ a, off a + S.size a ≤ S.size a) (w : S.Idx → Elt F e) (r : Rect S) :
    v.readCov [(⟨Rect.unit off S.size inb, w⟩ : View.Piece (Elt F) S e)] r.toLoadRect = View.ld w r := by
  rw [View.readCov_eq_canon_ld _ _ _ (fun y => ⟨_, List.mem_singleton_self _, View.mem_set_unit_zero h inb y⟩), View.canon_unit_zero h]

/-- The two reads of the new accumulator the output's quotient is taken of: its columns 0..63 and its column 64. -/
abbrev numOf (P : Vec F S1024x128 .f32) : Vec F S1024x64 .f32 :=
  View.ld P (Rect.unit (s := S1024x128) ![0, 0] S1024x64.size inb_S1024x128_S1024x64_0_0)
abbrev denOf (P : Vec F S1024x128 .f32) : Vec F S1024x1 .f32 :=
  View.ld P (Rect.unit (s := S1024x128) ![0, 64] S1024x1.size inb_S1024x128_S1024x1_0_64)

set_option maxHeartbeats 400000 in
theorem o4_C (c : Dev nD) (i : grid0.Coords) (arg2 : Memref sig .tc .vmem S1024x64 .bf16) (harg2 : arg2.IsWhole) (arg3 : Memref sig .tc .vmem S2048x64 .bf16) (harg3 : arg3.IsWhole) (arg4 : Memref sig .tc .vmem S2048x128 .bf16) (harg4 : arg4.IsWhole) (arg5 : Memref sig .tc .vmem S1024x2048 .i32) (harg5 : arg5.IsWhole) (arg6 : Memref sig .tc .vmem S1024x64 .f32) (harg6 : arg6.IsWhole) (arg7 : Memref sig .tc .vmem S1024x1 .f32) (harg7 : arg7.IsWhole) (arg8 : Memref sig .tc .vmem S1024x128 .f32) (harg8 : arg8.IsWhole) (hc0 : ¬cond0_0 i) (hc1 : cond0_1 i)
    (x0 : Vec F S1024x64 .bf16) (x1 : Vec F S2048x64 .bf16) (x2 : Vec F S2048x128 .bf16) (x3 : Vec F S1024x2048 .i32) (xs0 : Vec F S1024x1 .f32) (xs1 : Vec F S1024x128 .f32) :
    out0_C_4 c i arg2 harg2 arg3 harg3 arg4 harg4 arg5 harg5 arg6 harg6 arg7 harg7 arg8 harg8 hc0 hc1 x0 x1 x2 x3 xs0 xs1
      = k0_pay2 (F := F) (numOf (k0_pay7 x0 x1 x2 xs0 xs0 x3 xs1)) (denOf (k0_pay7 x0 x1 x2 xs0 xs0 x3 xs1)) := by
  unfold out0_C_4
  rw [View.read_writes_eq_canon _ _ _ (cover0_C_4 c i arg2 harg2 arg3 harg3 arg4 harg4 arg5 harg5 arg6 harg6 arg7 harg7 arg8 harg8 hc0 hc1 x0 x1 x2 x3 xs0 xs1)]
  unfold kernelRun0_C
  dsimp only
  sl_unfold_words
  rw [View.canon_unit_zero hz]
  rw [readCov_one_whole _ hz, readCov_one_whole _ hz]
  simp only [View.readAt_eq_ld, harg2.read_unread, harg3.read_unread, harg4.read_unread, harg5.read_unread, harg6.read_unread, harg7.read_unread, harg8.read_unread,
    View.ld_unit_zero (S := S1024x64) hz, View.ld_unit_zero (S := S2048x64) hz, View.ld_unit_zero (S := S2048x128) hz,
    View.ld_unit_zero (S := S1024x2048) hz, View.ld_unit_zero (S := S1024x1) hz, View.ld_unit_zero (S := S1024x128) hz]

/-- Those two reads at an index. -/
theorem numOf_apply (P : Vec F S1024x128 .f32) (r : Fin 1024) (c' : Fin 64) :
    numOf P (ValueIdx.ix2 r c') = P (ValueIdx.ix2 r (⟨c'.val, by omega⟩ : Fin 128)) := by
  show P ((Rect.unit (s := S1024x128) ![0, 0] S1024x64.size inb_S1024x128_S1024x64_0_0).emb (ValueIdx.ix2 r c')) = _
  refine congrArg P (funext fun a => Fin.ext ?_)
  match a with
  | ⟨0, _⟩ => show 0 + 1 * r.val = r.val; omega
  | ⟨1, _⟩ => show 0 + 1 * c'.val = c'.val; omega

theorem denOf_apply (P : Vec F S1024x128 .f32) (r : Fin 1024) :
    denOf P (ValueIdx.ix2 r (0 : Fin 1)) = P (ValueIdx.ix2 r (⟨64, by decide⟩ : Fin 128)) := by
  show P ((Rect.unit (s := S1024x128) ![0, 64] S1024x1.size inb_S1024x128_S1024x1_0_64).emb (ValueIdx.ix2 r (0 : Fin 1))) = _
  refine congrArg P (funext fun a => Fin.ext ?_)
  match a with
  | ⟨0, _⟩ => show 0 + 1 * r.val = r.val; omega
  | ⟨1, _⟩ => show 64 + 1 * 0 = 64; omega

end Cert.KernelIdeal.Pc

end
-- ==== Proof.PayloadIdx.lean ====
/-
  The kernel body's arithmetic read at an index, at the ideal instance: the block of scores is the product of the query
  block with the key block over the 64 features; the new row maximum is the larger of the old one and the block's row
  maximum; the new accumulator is the old one rescaled by `exp (m_old - m_new)` plus the masked exponentials of the
  shifted scores times the (extended) value block; the output is the accumulator over its normaliser column.
-/
import proofs.«429930_j75204877353135_3_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.PayIdx

open Idealize.ShloMosaic Idealize.ShloMosaic.ValueIdx Cert.KernelIdeal Cert.KernelIdeal.Gen

/-! ## Column layouts: a vector as a one-column matrix, and a one-column matrix spread over columns -/

/-- An `[a]` vector cast to `[a, 1]` reads, at `(i, u)`, the operand at `i`, whatever the unit coordinate `u`. -/
private theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
private theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The exponential of a vector is taken entry by entry. -/
private theorem exp_apply {s : Shape} {φ : FTy} (a : FVec Ideal s φ) (i : s.Idx) :
    Idealize.ShloMosaic.exp a i = Ideal.exp (a i) := rfl

/-! ## The two products' operand indices, axis by axis -/

private theorem lhs_qk_0 (i : S1024x2048.Idx) (q : dot_S1024x64_S2048x64_S1024x2048_1_1_0_0_n_n.contr.Idx) :
    (dot_S1024x64_S2048x64_S1024x2048_1_1_0_0_n_n.lhsIdx i q 0).val = (i 0).val := by
  unfold DotDims.lhsIdx
  rw [dif_neg (show ¬(0 : Fin S1024x64.rank) ∈ dot_S1024x64_S2048x64_S1024x2048_1_1_0_0_n_n.lhsBatch by decide), dif_pos (show (0 : Fin S1024x64.rank) ∈ dot_S1024x64_S2048x64_S1024x2048_1_1_0_0_n_n.lhsNonContracting by decide)]
  rfl
private theorem lhs_qk_1 (i : S1024x2048.Idx) (q : dot_S1024x64_S2048x64_S1024x2048_1_1_0_0_n_n.contr.Idx) :
    (dot_S1024x64_S2048x64_S1024x2048_1_1_0_0_n_n.lhsIdx i q 1).val = (q ⟨0, by decide⟩).val :=
  dot_S1024x64_S2048x64_S1024x2048_1_1_0_0_n_n.lhsIdx_val_of_single rfl i q
private theorem rhs_qk_0 (i : S1024x2048.Idx) (q : dot_S1024x64_S2048x64_S1024x2048_1_1_0_0_n_n.contr.Idx) :
    (dot_S1024x64_S2048x64_S1024x2048_1_1_0_0_n_n.rhsIdx i q 0).val = (i 1).val := by
  unfold DotDims.rhsIdx
  rw [dif_neg (show ¬(0 : Fin S2048x64.rank) ∈ dot_S1024x64_S2048x64_S1024x2048_1_1_0_0_n_n.rhsBatch by decide), dif_pos (show (0 : Fin S2048x64.rank) ∈ dot_S1024x64_S2048x64_S1024x2048_1_1_0_0_n_n.rhsNonContracting by decide)]
  rfl
private theorem rhs_qk_1 (i : S1024x2048.Idx) (q : dot_S1024x64_S2048x64_S1024x2048_1_1_0_0_n_n.contr.Idx) :
    (dot_S1024x64_S2048x64_S1024x2048_1_1_0_0_n_n.rhsIdx i q 1).val = (q ⟨0, by decide⟩).val :=
  dot_S1024x64_S2048x64_S1024x2048_1_1_0_0_n_n.rhsIdx_val_of_single rfl i q

private theorem lhs_pv_0 (i : S1024x128.Idx) (q : dot_S1024x2048_S2048x128_S1024x128_1_0_0_1_n_n.contr.Idx) :
    (dot_S1024x2048_S2048x128_S1024x128_1_0_0_1_n_n.lhsIdx i q 0).val = (i 0).val := by
  unfold DotDims.lhsIdx
  rw [dif_neg (show ¬(0 : Fin S1024x2048.rank) ∈ dot_S1024x2048_S2048x128_S1024x128_1_0_0_1_n_n.lhsBatch by decide), dif_pos (show (0 : Fin S1024x2048.rank) ∈ dot_S1024x2048_S2048x128_S1024x128_1_0_0_1_n_n.lhsNonContracting by decide)]
  rfl
private theorem lhs_pv_1 (i : S1024x128.Idx) (q : dot_S1024x2048_S2048x128_S1024x128_1_0_0_1_n_n.contr.Idx) :
    (dot_S1024x2048_S2048x128_S1024x128_1_0_0_1_n_n.lhsIdx i q 1).val = (q ⟨0, by decide⟩).val :=
  dot_S1024x2048_S2048x128_S1024x128_1_0_0_1_n_n.lhsIdx_val_of_single rfl i q
private theorem rhs_pv_0 (i : S1024x128.Idx) (q : dot_S1024x2048_S2048x128_S1024x128_1_0_0_1_n_n.contr.Idx) :
    (dot_S1024x2048_S2048x128_S1024x128_1_0_0_1_n_n.rhsIdx i q 0).val = (q ⟨0, by decide⟩).val :=
  dot_S1024x2048_S2048x128_S1024x128_1_0_0_1_n_n.rhsIdx_val_of_single rfl i q
private theorem rhs_pv_1 (i : S1024x128.Idx) (q : dot_S1024x2048_S2048x128_S1024x128_1_0_0_1_n_n.contr.Idx) :
    (dot_S1024x2048_S2048x128_S1024x128_1_0_0_1_n_n.rhsIdx i q 1).val = (i 1).val := by
  unfold DotDims.rhsIdx
  rw [dif_neg (show ¬(1 : Fin S2048x128.rank) ∈ dot_S1024x2048_S2048x128_S1024x128_1_0_0_1_n_n.rhsBatch by decide), dif_pos (show (1 : Fin S2048x128.rank) ∈ dot_S1024x2048_S2048x128_S1024x128_1_0_0_1_n_n.rhsNonContracting by decide)]
  rfl

/-- A product of a `[1024, 64]` block with the transpose of a `[2048, 64]` block, accumulated from zero: at `(r, jj)` the sum
    over the 64 shared columns. -/
private theorem matmul_qk_apply (x : FVec Ideal S1024x64 .bf16) (y : FVec Ideal S2048x64 .bf16) (r : Fin 1024) (jj : Fin 2048) :
    FloatOps.matmul dot_S1024x64_S2048x64_S1024x2048_1_1_0_0_n_n none x y (constant S1024x2048 .f32 0x00000000#32) (ix2 r jj)
      = ∑ d : Fin 64, x (ix2 r d) * y (ix2 jj d) := by
  rw [Ideal.matmul_constant_zero_apply, ← Equiv.sum_comp (contrEquiv1 dot_S1024x64_S2048x64_S1024x2048_1_1_0_0_n_n 64 rfl rfl).symm]
  refine Finset.sum_congr rfl fun d _ => ?_
  have hk := contrEquiv1_symm_val dot_S1024x64_S2048x64_S1024x2048_1_1_0_0_n_n 64 rfl rfl d
  have el : dot_S1024x64_S2048x64_S1024x2048_1_1_0_0_n_n.lhsIdx (ix2 r jj) ((contrEquiv1 dot_S1024x64_S2048x64_S1024x2048_1_1_0_0_n_n 64 rfl rfl).symm d) = ix2 r d := funext fun a => Fin.ext (by
    match a with
    | ⟨0, _⟩ => exact lhs_qk_0 _ _
    | ⟨1, _⟩ => exact (lhs_qk_1 _ _).trans hk)
  have er : dot_S1024x64_S2048x64_S1024x2048_1_1_0_0_n_n.rhsIdx (ix2 r jj) ((contrEquiv1 dot_S1024x64_S2048x64_S1024x2048_1_1_0_0_n_n 64 rfl rfl).symm d) = ix2 jj d := funext fun a => Fin.ext (by
    match a with
    | ⟨0, _⟩ => exact rhs_qk_0 _ _
    | ⟨1, _⟩ => exact (rhs_qk_1 _ _).trans hk)
  rw [el, er]

/-- A plain product of a `[1024, 2048]` block with a `[2048, 128]` block, accumulated from zero: at `(r, c)` the sum over
    the 2048 shared positions. -/
private theorem matmul_pv_apply (x : FVec Ideal S1024x2048 .bf16) (y : FVec Ideal S2048x128 .bf16) (r : Fin 1024) (c : Fin 128) :
    FloatOps.matmul dot_S1024x2048_S2048x128_S1024x128_1_0_0_1_n_n none x y (constant S1024x128 .f32 0x00000000#32) (ix2 r c)
      = ∑ jj : Fin 2048, x (ix2 r jj) * y (ix2 jj c) := by
  rw [Ideal.matmul_constant_zero_apply, ← Equiv.sum_comp (contrEquiv1 dot_S1024x2048_S2048x128_S1024x128_1_0_0_1_n_n 2048 rfl rfl).symm]
  refine Finset.sum_congr rfl fun jj _ => ?_
  have hk := contrEquiv1_symm_val dot_S1024x2048_S2048x128_S1024x128_1_0_0_1_n_n 2048 rfl rfl jj
  have el : dot_S1024x2048_S2048x128_S1024x128_1_0_0_1_n_n.lhsIdx (ix2 r c) ((contrEquiv1 dot_S1024x2048_S2048x128_S1024x128_1_0_0_1_n_n 2048 rfl rfl).symm jj) = ix2 r jj := funext fun a => Fin.ext (by
    match a with
    | ⟨0, _⟩ => exact lhs_pv_0 _ _
    | ⟨1, _⟩ => exact (lhs_pv_1 _ _).trans hk)
  have er : dot_S1024x2048_S2048x128_S1024x128_1_0_0_1_n_n.rhsIdx (ix2 r c) ((contrEquiv1 dot_S1024x2048_S2048x128_S1024x128_1_0_0_1_n_n 2048 rfl rfl).symm jj) = ix2 jj c := funext fun a => Fin.ext (by
    match a with
    | ⟨0, _⟩ => exact (rhs_pv_0 _ _).trans hk
    | ⟨1, _⟩ => exact rhs_pv_1 _ _)
  rw [el, er]

/-! ## The row maximum as a column -/

/-- The index of a `[1024, 2048]` block over row `r` with column `jj` inserted is `(r, jj)`. -/
private theorem lift_row_eq (r : Fin 1024) (jj : Fin 2048) :
    Facts₀.reduces_S1024x2048_S1024.lift (ix1 r) jj = ix2 r jj :=
  funext fun a => Fin.ext (by
    match a with
    | ⟨0, _⟩ => rfl
    | ⟨1, _⟩ => rfl)

/-- The word `0xFF800000` read as an f32 is `-∞`. -/
private theorem ofBits_neg_inf_f32 : (FloatOps.ofBits .f32 0xFF800000#32 : Ideal .f32) = (⊥ : EReal) := by
  show Ideal.ofBits .f32 0xFF800000#32 = ⊥
  simp [Ideal.ofBits, Ideal.ieee]

/-- The maximum along the rows of a `[1024, 2048]` block, from `-∞`: at row `r` the fold of `max` over that row's entries. -/
private theorem rowmax_apply (src : FVec Ideal S1024x2048 .f32) (r : Fin 1024) :
    multiReduction .maximumf [1] S1024 src 0xFF800000#32 Facts₀.reduces_S1024x2048_S1024 (.inl rfl) rfl (ix1 r)
      = (Finset.univ : Finset (Fin 2048)).fold max (⊥ : EReal) (fun jj => src (ix2 r jj)) := by
  refine (Ideal.multiReduction_maximumf_single src 0xFF800000#32 Facts₀.reduces_S1024x2048_S1024 (.inl rfl) rfl (ix1 r)).trans ?_
  have hrow : (src ∘ Facts₀.reduces_S1024x2048_S1024.lift (ix1 r)) = fun jj : Fin 2048 => src (ix2 r jj) :=
    funext fun jj => congrArg src (lift_row_eq r jj)
  rw [ofBits_neg_inf_f32, hrow]
  rfl

/-- … and the same maximum kept as a `[1024, 1]` column. -/
private theorem col_rowmax_apply (src : FVec Ideal S1024x2048 .f32) (r : Fin 1024) :
    shapeCast S1024x1 (multiReduction .maximumf [1] S1024 src 0xFF800000#32 Facts₀.reduces_S1024x2048_S1024 (.inl rfl) rfl)
        Facts₀.shapeCasts_S1024_S1024x1 (ix2 r (0 : Fin 1))
      = (Finset.univ : Finset (Fin 2048)).fold max (⊥ : EReal) (fun jj => src (ix2 r jj)) :=
  (shapeCast_a_a1_apply _ _ r 0).trans (rowmax_apply src r)

/-- The score of row `r` against column `jj` of the key block. -/
def dotQK (q : Vec Ideal S1024x64 .bf16) (k : Vec Ideal S2048x64 .bf16) (r : Fin 1024) (jj : Fin 2048) : EReal :=
  ∑ d : Fin 64, q (ix2 r d) * k (ix2 jj d)

theorem pay5_apply (q : Vec Ideal S1024x64 .bf16) (k : Vec Ideal S2048x64 .bf16) (r : Fin 1024) (jj : Fin 2048) :
    k0_pay5 (F := Ideal) q k (ix2 r jj) = dotQK q k r jj := by
  unfold k0_pay5 dotQK
  simp only [shapeCast_self, matmul]
  exact matmul_qk_apply q k r jj

/-- The new row maximum, as the operations that compute it. -/
private theorem pay6_eq (q : Vec Ideal S1024x64 .bf16) (k : Vec Ideal S2048x64 .bf16) (mo : Vec Ideal S1024x1 .f32) :
    k0_pay6 (F := Ideal) q k mo
      = maximumf mo (shapeCast S1024x1 (multiReduction .maximumf [1] S1024 (k0_pay5 (F := Ideal) q k) 0xFF800000#32
          Facts₀.reduces_S1024x2048_S1024 (.inl rfl) rfl) Facts₀.shapeCasts_S1024_S1024x1) := rfl

theorem pay6_apply (q : Vec Ideal S1024x64 .bf16) (k : Vec Ideal S2048x64 .bf16) (mo : Vec Ideal S1024x1 .f32) (r : Fin 1024) :
    k0_pay6 (F := Ideal) q k mo (ix2 r (0 : Fin 1))
      = max (mo (ix2 r (0 : Fin 1))) ((Finset.univ : Finset (Fin 2048)).fold max (⊥ : EReal) (fun jj => dotQK q k r jj)) := by
  refine (congrFun (pay6_eq q k mo) (ix2 r (0 : Fin 1))).trans ?_
  refine (maximumf_apply mo _ (ix2 r (0 : Fin 1))).trans ?_
  refine congrArg (max (mo (ix2 r (0 : Fin 1)))) ?_
  refine (col_rowmax_apply (k0_pay5 (F := Ideal) q k) r).trans ?_
  exact congrArg (fun f : Fin 2048 → EReal => (Finset.univ : Finset (Fin 2048)).fold max (⊥ : EReal) f)
    (funext fun jj => pay5_apply q k r jj)

/-- The new accumulator, as the operations that compute it. -/
private theorem pay7_eq (q : Vec Ideal S1024x64 .bf16) (k : Vec Ideal S2048x64 .bf16) (v : Vec Ideal S2048x128 .bf16)
    (mo mo' : Vec Ideal S1024x1 .f32) (mk : Vec Ideal S1024x2048 .i32) (ao : Vec Ideal S1024x128 .f32) :
    k0_pay7 (F := Ideal) q k v mo mo' mk ao
      = shapeCast S1024x128
          (addf
            (mulf (broadcastTo S1024x128 (Idealize.ShloMosaic.exp (subf mo' (k0_pay6 (F := Ideal) q k mo)))
              Facts₀.broadcasts_S1024x1_S1024x128) ao)
            (matmul dot_S1024x2048_S2048x128_S1024x128_1_0_0_1_n_n none
              (mulf
                (truncf .bf16 (Idealize.ShloMosaic.exp (subf (k0_pay5 (F := Ideal) q k)
                  (broadcastTo S1024x2048 (k0_pay6 (F := Ideal) q k mo) Facts₀.broadcasts_S1024x1_S1024x2048)))
                  Facts₀.bitsLt_bf16_f32)
                (sitofp .bf16 mk))
              (shapeCast S2048x128 v Facts₀.shapeCasts_S2048x128_S2048x128 : FVec Ideal S2048x128 .bf16)
              (constant (F := Ideal) S1024x128 .f32 0x00000000#32)))
          Facts₀.shapeCasts_S1024x128_S1024x128 := rfl

theorem pay7_apply (q : Vec Ideal S1024x64 .bf16) (k : Vec Ideal S2048x64 .bf16) (v : Vec Ideal S2048x128 .bf16)
    (mo mo' : Vec Ideal S1024x1 .f32) (mk : Vec Ideal S1024x2048 .i32) (ao : Vec Ideal S1024x128 .f32) (r : Fin 1024) (c : Fin 128) :
    k0_pay7 (F := Ideal) q k v mo mo' mk ao (ix2 r c)
      = Ideal.exp (mo' (ix2 r (0 : Fin 1)) - k0_pay6 (F := Ideal) q k mo (ix2 r (0 : Fin 1))) * ao (ix2 r c)
        + ∑ jj : Fin 2048, (Ideal.exp (dotQK q k r jj - k0_pay6 (F := Ideal) q k mo (ix2 r (0 : Fin 1)))
            * (((mk (ix2 r jj)).toInt : ℝ) : EReal)) * v (ix2 jj c) := by
  refine (congrFun (pay7_eq q k v mo mo' mk ao) (ix2 r c)).trans ?_
  rw [shapeCast_self, addf_apply, mulf_apply, broadcastTo_a1_ab_apply, exp_apply, subf_apply]
  refine congrArg (Ideal.exp (mo' (ix2 r (0 : Fin 1)) - k0_pay6 (F := Ideal) q k mo (ix2 r (0 : Fin 1))) * ao (ix2 r c) + ·) ?_
  refine (matmul_pv_apply _ _ r c).trans (Finset.sum_congr rfl fun jj _ => ?_)
  rw [mulf_apply, truncf_apply, exp_apply, subf_apply, broadcastTo_a1_ab_apply, pay5_apply, sitofp_apply, shapeCast_self]
  rfl

theorem pay2_apply (a : Vec Ideal S1024x64 .f32) (l : Vec Ideal S1024x1 .f32) (r : Fin 1024) (c : Fin 64) :
    k0_pay2 (F := Ideal) a l (ix2 r c) = Ideal.div (a (ix2 r c)) (l (ix2 r (0 : Fin 1))) := by
  unfold k0_pay2
  simp only [divf_apply]
  rw [broadcastTo_a1_ab_apply]

theorem pay1_apply (v13 : FVec Ideal S1024x1 .f32) (r : Fin 1024) :
    k0_pay1 (F := Ideal) v13 (ix2 r (0 : Fin 1)) = v13 (ix2 r (0 : Fin 1)) := by
  unfold k0_pay1
  simp only [shapeCast_self]

theorem pay3_apply (r : Fin 1024) : k0_pay3 (F := Ideal) (ix2 r (0 : Fin 1)) = (⊥ : EReal) := by
  unfold k0_pay3
  simp only [shapeCast_self, broadcast_apply]
  show Ideal.ofBits .f32 0xFF800000#32 = ⊥
  simp [Ideal.ofBits, Ideal.ieee]

theorem pay4_apply (r : Fin 1024) (c : Fin 128) : k0_pay4 (F := Ideal) (ix2 r c) = (0 : EReal) := by
  unfold k0_pay4
  simp only [shapeCast_self, broadcast_apply]
  show Ideal.ofBits .f32 0x00000000#32 = 0
  exact Ideal.ofBits_zero_f32

end Cert.KernelIdeal.PayIdx

end
-- ==== Proof.Spec.lean ====
/-
  Single-head attention with a 0/1 adjacency mask, over the reals.

  For row `i` the scores are `s i j = ∑ d, q i d * k j d` with `q`, `k`, `v` the three linear images of `x` (the query's
  weights carrying the factor 1/8). The keys are visited in four blocks of 2048 columns; `pm` is the running maximum of
  the scores of the blocks seen so far and `pacc` the running sum `∑ j, exp (s i j - pm) * w i j * vext j c` rescaled at
  each block by `exp (pm_old - pm_new)`; `vext` is `v` with a column of ones appended (column 64), so that column 64 of
  the running sum is the normaliser. `attn` is the quotient after the fourth block.
  `softmaxForm σ` is the same quantity written as the weighted mean `∑ j, (w i j * exp (e i j - σ) / ∑ k, w i k * exp (e i k - σ)) * v j c`
  with any shift `σ`; `e i j = (∑ d, q₀ i d * k j d) * (1/8)` has the factor outside the sum.
-/
import Mathlib.Analysis.SpecialFunctions.Exp
import Mathlib.Algebra.BigOperators.Group.Finset.Basic
import Mathlib.Data.EReal.Inv

noncomputable section

namespace Cert.Attn

open Finset

/-- The inputs as real arrays, the mask as its 32-bit words. -/
structure Data where
  x : Fin 8192 → Fin 512 → ℝ
  wk : Fin 64 → Fin 512 → ℝ
  wq : Fin 64 → Fin 512 → ℝ
  wv : Fin 64 → Fin 512 → ℝ
  mw : Fin 8192 → Fin 8192 → BitVec 32

/-- The mask holds zeros and ones only, and every row holds a one. -/
structure Data.Ok (D : Data) : Prop where
  bin : ∀ i j, D.mw i j = 0#32 ∨ D.mw i j = 1#32
  row : ∀ i, ∃ j, D.mw i j = 1#32

variable (D : Data)

/-- The mask word as a weight: its signed value (0 or 1 under `Ok`). -/
def wgt (i j : Fin 8192) : ℝ := ((D.mw i j).toInt : ℝ)

/-- Keys, queries (unscaled), values. -/
def kp (j : Fin 8192) (d : Fin 64) : ℝ := ∑ k : Fin 512, D.x j k * D.wk d k
def qp (i : Fin 8192) (d : Fin 64) : ℝ := ∑ k : Fin 512, D.x i k * D.wq d k
def vp (j : Fin 8192) (d : Fin 64) : ℝ := ∑ k : Fin 512, D.x j k * D.wv d k
/-- Queries with the factor 1/8 on the weights. -/
def qs (i : Fin 8192) (d : Fin 64) : ℝ := ∑ k : Fin 512, D.x i k * (D.wq d k * (1 / 8))
/-- The score of row `i` against key `j`, from the scaled queries. -/
def sc (i j : Fin 8192) : ℝ := ∑ d : Fin 64, qs D i d * kp D j d
/-- The same with the factor outside. -/
def es (i j : Fin 8192) : ℝ := (∑ d : Fin 64, qp D i d * kp D j d) * (1 / 8)
/-- The values extended to 128 columns: a column of ones at 64, zeros after. -/
def vext (j : Fin 8192) (c : Fin 128) : ℝ :=
  if h : c.val < 64 then vp D j ⟨c.val, h⟩ else if c.val = 64 then 1 else 0

/-- Column `jj` of key block `b` (wrapped into range so that it is total in `b`). -/
def col (b : ℕ) (jj : Fin 2048) : Fin 8192 := ⟨(2048 * b + jj.val) % 8192, Nat.mod_lt _ (by decide)⟩
/-- Row `r` of query block `a`. -/
def row (a : ℕ) (r : Fin 1024) : Fin 8192 := ⟨(1024 * a + r.val) % 8192, Nat.mod_lt _ (by decide)⟩

/-- The largest score of row `i` in key block `b`. -/
def bmax (i : Fin 8192) (b : ℕ) : ℝ := univ.sup' univ_nonempty fun jj : Fin 2048 => sc D i (col b jj)

/-- The running maximum after blocks 0..n. -/
def pm (i : Fin 8192) : ℕ → ℝ
  | 0 => bmax D i 0
  | n + 1 => max (pm i n) (bmax D i (n + 1))

/-- Block `b`'s contribution to column `c` at shift `μ`. -/
def bsum (i : Fin 8192) (c : Fin 128) (b : ℕ) (μ : ℝ) : ℝ :=
  ∑ jj : Fin 2048, (Real.exp (sc D i (col b jj) - μ) * wgt D i (col b jj)) * vext D (col b jj) c

/-- The running (rescaled) sum after blocks 0..n. -/
def pacc (i : Fin 8192) (c : Fin 128) : ℕ → ℝ
  | 0 => bsum D i c 0 (pm D i 0)
  | n + 1 => Real.exp (pm D i n - pm D i (n + 1)) * pacc i c n + bsum D i c (n + 1) (pm D i (n + 1))

/-- The result: after the fourth block, columns 0..63 over column 64. -/
def attn (i : Fin 8192) (c : Fin 64) : ℝ :=
  pacc D i ⟨c.val, by omega⟩ 3 / pacc D i ⟨64, by decide⟩ 3

/-- The weighted mean at shift `σ`. -/
def softmaxForm (σ : ℝ) (i : Fin 8192) (c : Fin 64) : ℝ :=
  ∑ j : Fin 8192, (wgt D i j * Real.exp (es D i j - σ) / ∑ k : Fin 8192, wgt D i k * Real.exp (es D i k - σ)) * vp D j c

end Cert.Attn

end
-- ==== Proof.SpecLaws.lean ====
/-
  The two facts about the running quotient of `Spec.lean` that the value proof uses: its normaliser is positive, and it is
  the softmax-weighted mean of the values whatever constant is subtracted from the scores before exponentiating.
-/
import proofs.«429930_j75204877353135_3_alg».proof.Proof.Spec
import Mathlib.Algebra.BigOperators.Fin
import Mathlib.Algebra.BigOperators.Field
import Mathlib.Algebra.Order.BigOperators.Group.Finset
import Mathlib.Data.Fintype.BigOperators
import Mathlib.Logic.Equiv.Fin.Basic
import Mathlib.Tactic.FieldSimp
import Mathlib.Tactic.Ring

noncomputable section

namespace Cert.Attn

open Finset

variable (D : Data)

/-- Changing the shift of a block sum multiplies it by the exponential of the difference:
`exp (μ - ν) * exp (s - μ) = exp (s - ν)`, and the factor distributes over the sum. -/
private theorem exp_mul_bsum (i : Fin 8192) (c : Fin 128) (b : ℕ) (μ ν : ℝ) :
    Real.exp (μ - ν) * bsum D i c b μ = bsum D i c b ν := by
  unfold bsum
  rw [Finset.mul_sum]
  refine Finset.sum_congr rfl fun jj _ => ?_
  rw [← mul_assoc, ← mul_assoc, ← Real.exp_add]
  congr 3
  ring

/-- The running sum after blocks 0..n is the sum of the block sums, all at the shift `pm n`. -/
private theorem pacc_eq_sum (i : Fin 8192) (c : Fin 128) (n : ℕ) :
    pacc D i c n = ∑ b ∈ range (n + 1), bsum D i c b (pm D i n) := by
  induction n with
  | zero => simp [pacc]
  | succ n ih =>
    rw [pacc, ih, Finset.mul_sum, Finset.sum_range_succ _ (n + 1)]
    congr 1
    refine Finset.sum_congr rfl fun b _ => ?_
    exact exp_mul_bsum D i c b _ _

/-- The four blocks of 2048 columns enumerate the 8192 columns: `j ↦ (j / 2048, j % 2048)`. -/
private theorem sum_blocks (g : Fin 8192 → ℝ) :
    ∑ b ∈ range 4, ∑ jj : Fin 2048, g (col b jj) = ∑ j : Fin 8192, g j := by
  rw [← Fin.sum_univ_eq_sum_range (fun b => ∑ jj : Fin 2048, g (col b jj)) 4]
  rw [← Fintype.sum_prod_type']
  refine Fintype.sum_equiv (finProdFinEquiv : Fin 4 × Fin 2048 ≃ Fin 8192) _ _ ?_
  rintro ⟨b, jj⟩
  congr 1
  apply Fin.ext
  have hb := b.isLt
  have hj := jj.isLt
  simp only [col, finProdFinEquiv, Equiv.coe_fn_mk]
  omega

/-- After the fourth block the running sum is the sum over all columns at the shift `pm 3`. -/
private theorem pacc_three (i : Fin 8192) (c : Fin 128) :
    pacc D i c 3 = ∑ j : Fin 8192, Real.exp (sc D i j - pm D i 3) * wgt D i j * vext D j c := by
  rw [pacc_eq_sum]
  exact sum_blocks (fun j => Real.exp (sc D i j - pm D i 3) * wgt D i j * vext D j c)

/-- Under `Ok` a weight is zero or one (the signed values of the words `0` and `1`). -/
private theorem wgt_zero_or_one (h : D.Ok) (i j : Fin 8192) : wgt D i j = 0 ∨ wgt D i j = 1 := by
  unfold wgt
  rcases h.bin i j with e | e
  · left
    rw [e]
    simp
  · right
    rw [e]
    simp

/-- Column 64 of the extended values is the column of ones. -/
private theorem vext_ones (j : Fin 8192) : vext D j ⟨64, by decide⟩ = 1 := by
  simp [vext]

/-- Below column 64 the extended values are the values. -/
private theorem vext_val (j : Fin 8192) (c : Fin 64) : vext D j ⟨c.val, by omega⟩ = vp D j c := by
  simp [vext, c.isLt]

/-- The scaled queries are the queries times 1/8. -/
private theorem qs_eq (i : Fin 8192) (d : Fin 64) : qs D i d = qp D i d * (1 / 8) := by
  unfold qs qp
  rw [Finset.sum_mul]
  refine Finset.sum_congr rfl fun k _ => ?_
  ring

/-- The factor 1/8 moves through both sums: the two forms of the score agree. -/
private theorem es_eq_sc (i j : Fin 8192) : es D i j = sc D i j := by
  unfold es sc
  rw [Finset.sum_mul]
  refine Finset.sum_congr rfl fun d _ => ?_
  rw [qs_eq]
  ring

/-- The normaliser after the fourth block is positive: some weight of the row is one. -/
theorem pacc_den_pos (h : D.Ok) (i : Fin 8192) : 0 < pacc D i ⟨64, by decide⟩ 3 := by
  rw [pacc_three]
  obtain ⟨j0, hj0⟩ := h.row i
  apply Finset.sum_pos'
  · intro j _
    rw [vext_ones, mul_one]
    rcases wgt_zero_or_one D h i j with e | e
    · rw [e, mul_zero]
    · rw [e, mul_one]
      exact (Real.exp_pos _).le
  · refine ⟨j0, Finset.mem_univ _, ?_⟩
    have hw : wgt D i j0 = 1 := by
      unfold wgt
      rw [hj0]
      simp
    rw [vext_ones, hw, mul_one, mul_one]
    exact Real.exp_pos _

/-- The running quotient is the weighted mean, at any shift. -/
theorem softmaxForm_eq_attn (h : D.Ok) (σ : ℝ) (i : Fin 8192) (c : Fin 64) : softmaxForm D σ i c = attn D i c := by
  have hden := pacc_den_pos D h i
  unfold softmaxForm attn
  rw [pacc_three] at hden
  rw [pacc_three, pacc_three]
  simp only [es_eq_sc, vext_ones, vext_val, mul_one] at hden ⊢
  -- with `P` the final running maximum, `exp (s - σ) = exp (P - σ) * exp (s - P)`
  have hA : ∑ k : Fin 8192, wgt D i k * Real.exp (sc D i k - σ)
      = Real.exp (pm D i 3 - σ) * ∑ j : Fin 8192, Real.exp (sc D i j - pm D i 3) * wgt D i j := by
    rw [Finset.mul_sum]
    refine Finset.sum_congr rfl fun k _ => ?_
    rw [show sc D i k - σ = (pm D i 3 - σ) + (sc D i k - pm D i 3) by ring, Real.exp_add]
    ring
  rw [hA, Finset.sum_div]
  refine Finset.sum_congr rfl fun j _ => ?_
  rw [show sc D i j - σ = (pm D i 3 - σ) + (sc D i j - pm D i 3) by ring, Real.exp_add]
  have hE := Real.exp_pos (pm D i 3 - σ)
  field_simp

end Cert.Attn

end
-- ==== Proof.SpecCoe.lean ====
/-
  One step of the running maximum and of the running sum, as the kernel computes them on the extended reals, lands on
  the real recurrence of `Spec.lean`: a score is the coercion of the real score; a block's row maximum, folded from -∞,
  is the coercion of the block's largest score; at the first block the old maximum is -∞ and the old sum 0, so the
  rescaling factor `exp (-∞ - m)` is 0; afterwards every quantity is a real and the coercion passes through `+`, `*`,
  `max`, `exp` and the finite sum; the final quotient has a nonzero real denominator.
-/
import proofs.«429930_j75204877353135_3_alg».proof.Proof.Spec
import proofs.«429930_j75204877353135_3_alg».proof.Proof.SpecLaws
import Idealize.ShloMosaic.PureOps.Ideal

noncomputable section

namespace Cert.Attn

open Finset Idealize.ShloMosaic

variable (D : Data)

/-- The coercion passes through a finite sum. -/
theorem coe_sum {ι : Type} (s : Finset ι) (f : ι → ℝ) : (∑ k ∈ s, ((f k : ℝ) : EReal)) = ((∑ k ∈ s, f k : ℝ) : EReal) := by
  induction s using Finset.cons_induction with
  | empty => simp
  | cons a s ha ih => rw [Finset.sum_cons, Finset.sum_cons, ih, EReal.coe_add]

/-- A score from the coerced queries and keys. -/
theorem sc_coe (i j : Fin 8192) :
    (∑ d : Fin 64, ((qs D i d : ℝ) : EReal) * ((kp D j d : ℝ) : EReal)) = ((sc D i j : ℝ) : EReal) := by
  simp only [← EReal.coe_mul]
  rw [coe_sum, sc]

/-- The coercion is monotone, so it preserves `max`. -/
private theorem coe_max_real (x y : ℝ) : ((max x y : ℝ) : EReal) = max (x : EReal) (y : EReal) :=
  EReal.coe_strictMono.monotone.map_max

/-- The fold of `max` from -∞ over a nonempty finite family of coerced reals is the coercion of the
largest of them: the fold is the supremum, and the coercion preserves `max`. -/
private theorem fold_max_coe {ι : Type} (s : Finset ι) (hs : s.Nonempty) (f : ι → ℝ) :
    s.fold max (⊥ : EReal) (fun k => ((f k : ℝ) : EReal)) = ((s.sup' hs f : ℝ) : EReal) := by
  have h1 : s.fold max (⊥ : EReal) (fun k => ((f k : ℝ) : EReal)) = s.sup (fun k => ((f k : ℝ) : EReal)) := rfl
  rw [h1, ← Finset.sup'_eq_sup hs]
  exact (Finset.comp_sup'_eq_sup'_comp hs (fun x : ℝ => (x : EReal)) (fun x y => coe_max_real x y)).symm

/-- A block's row maximum folded from -∞. -/
theorem bmax_coe (i : Fin 8192) (b : ℕ) :
    (Finset.univ : Finset (Fin 2048)).fold max (⊥ : EReal) (fun jj => ((sc D i (col b jj) : ℝ) : EReal)) = ((bmax D i b : ℝ) : EReal) := by
  rw [bmax]
  exact fold_max_coe univ univ_nonempty _

theorem max0 (i : Fin 8192) : max (⊥ : EReal) ((bmax D i 0 : ℝ) : EReal) = ((pm D i 0 : ℝ) : EReal) := by
  rw [max_eq_right bot_le, pm]

theorem maxS (i : Fin 8192) (n : ℕ) :
    max ((pm D i n : ℝ) : EReal) ((bmax D i (n + 1) : ℝ) : EReal) = ((pm D i (n + 1) : ℝ) : EReal) := by
  rw [← coe_max_real]
  conv_rhs => rw [pm]

theorem acc0 (i : Fin 8192) (c : Fin 128) :
    Ideal.exp ((⊥ : EReal) - ((pm D i 0 : ℝ) : EReal)) * (0 : EReal)
      + ∑ jj : Fin 2048, (Ideal.exp (((sc D i (col 0 jj) : ℝ) : EReal) - ((pm D i 0 : ℝ) : EReal))
          * (((D.mw i (col 0 jj)).toInt : ℝ) : EReal)) * ((vext D (col 0 jj) c : ℝ) : EReal)
      = ((pacc D i c 0 : ℝ) : EReal) := by
  rw [mul_zero, zero_add]
  simp only [← EReal.coe_sub, Ideal.exp_coe, ← EReal.coe_mul]
  rw [coe_sum]
  simp only [pacc, bsum, wgt]

theorem accS (i : Fin 8192) (c : Fin 128) (n : ℕ) :
    Ideal.exp (((pm D i n : ℝ) : EReal) - ((pm D i (n + 1) : ℝ) : EReal)) * ((pacc D i c n : ℝ) : EReal)
      + ∑ jj : Fin 2048, (Ideal.exp (((sc D i (col (n + 1) jj) : ℝ) : EReal) - ((pm D i (n + 1) : ℝ) : EReal))
          * (((D.mw i (col (n + 1) jj)).toInt : ℝ) : EReal)) * ((vext D (col (n + 1) jj) c : ℝ) : EReal)
      = ((pacc D i c (n + 1) : ℝ) : EReal) := by
  simp only [← EReal.coe_sub, Ideal.exp_coe, ← EReal.coe_mul]
  rw [coe_sum, ← EReal.coe_add]
  simp only [pacc, bsum, wgt]

theorem quot (h : D.Ok) (i : Fin 8192) (c : Fin 64) :
    Ideal.div ((pacc D i ⟨c.val, by omega⟩ 3 : ℝ) : EReal) ((pacc D i ⟨64, by decide⟩ 3 : ℝ) : EReal) = ((attn D i c : ℝ) : EReal) := by
  rw [Ideal.div_coe (ne_of_gt (pacc_den_pos D h i)), ← EReal.coe_mul, attn, mul_one_div]

end Cert.Attn

end
-- ==== Proof.Step.lean ====
/-
  One grid point of the kernel, on the extended reals, is one step of the real recurrence. With the query block holding
  the scaled queries of row block `a`, the key, value and mask blocks those of key block `b`: at the first key block
  (old maximum -∞, old sum 0) the new maximum is `pm 0` and the new sum `pacc 0`; at block `n + 1`, from `pm n` and
  `pacc n`, they are `pm (n + 1)` and `pacc (n + 1)`; and the quotient of the final sum's columns by its column 64 is
  `attn`.
-/
import proofs.«429930_j75204877353135_3_alg».proof.Proof.PayloadIdx
import proofs.«429930_j75204877353135_3_alg».proof.Proof.SpecCoe

noncomputable section

namespace Cert.KernelIdeal.Step

open Idealize.ShloMosaic Idealize.ShloMosaic.ValueIdx Cert.KernelIdeal Cert.KernelIdeal.Gen Cert.KernelIdeal.PayIdx Cert.Attn

variable (D : Data) (a b : ℕ)
variable (x0 : Vec Ideal S1024x64 .bf16) (x1 : Vec Ideal S2048x64 .bf16) (x2 : Vec Ideal S2048x128 .bf16) (x3 : Vec Ideal S1024x2048 .i32)

/-- A score of the block is the real score. -/
theorem dot_eq
    (hq : ∀ (r : Fin 1024) (d : Fin 64), x0 (ix2 r d) = ((qs D (row a r) d : ℝ) : EReal))
    (hk : ∀ (jj : Fin 2048) (d : Fin 64), x1 (ix2 jj d) = ((kp D (col b jj) d : ℝ) : EReal))
    (r : Fin 1024) (jj : Fin 2048) : dotQK x0 x1 r jj = ((sc D (row a r) (col b jj) : ℝ) : EReal) := by
  unfold dotQK
  simp only [hq, hk]
  exact sc_coe D _ _

/-- The block's row maximum, folded from -∞, is the block's largest real score. -/
theorem rowmax_eq
    (hq : ∀ (r : Fin 1024) (d : Fin 64), x0 (ix2 r d) = ((qs D (row a r) d : ℝ) : EReal))
    (hk : ∀ (jj : Fin 2048) (d : Fin 64), x1 (ix2 jj d) = ((kp D (col b jj) d : ℝ) : EReal))
    (r : Fin 1024) :
    (Finset.univ : Finset (Fin 2048)).fold max (⊥ : EReal) (fun jj => dotQK x0 x1 r jj) = ((bmax D (row a r) b : ℝ) : EReal) := by
  rw [show (fun jj => dotQK x0 x1 r jj) = fun jj => ((sc D (row a r) (col b jj) : ℝ) : EReal) from
    funext fun jj => dot_eq D a b x0 x1 hq hk r jj]
  exact bmax_coe D _ _

/-- First key block: the new maximum. -/
theorem max_first
    (hq : ∀ (r : Fin 1024) (d : Fin 64), x0 (ix2 r d) = ((qs D (row a r) d : ℝ) : EReal))
    (hk : ∀ (jj : Fin 2048) (d : Fin 64), x1 (ix2 jj d) = ((kp D (col 0 jj) d : ℝ) : EReal))
    (r : Fin 1024) :
    k0_pay6 (F := Ideal) x0 x1 (k0_pay3 (F := Ideal)) (ix2 r (0 : Fin 1)) = ((pm D (row a r) 0 : ℝ) : EReal) := by
  rw [pay6_apply, pay3_apply, rowmax_eq D a 0 x0 x1 hq hk r]
  exact max0 D _

/-- First key block: the new sum. -/
theorem acc_first
    (hq : ∀ (r : Fin 1024) (d : Fin 64), x0 (ix2 r d) = ((qs D (row a r) d : ℝ) : EReal))
    (hk : ∀ (jj : Fin 2048) (d : Fin 64), x1 (ix2 jj d) = ((kp D (col 0 jj) d : ℝ) : EReal))
    (hv : ∀ (jj : Fin 2048) (c' : Fin 128), x2 (ix2 jj c') = ((vext D (col 0 jj) c' : ℝ) : EReal))
    (hm : ∀ (r : Fin 1024) (jj : Fin 2048), x3 (ix2 r jj) = D.mw (row a r) (col 0 jj))
    (r : Fin 1024) (c' : Fin 128) :
    k0_pay7 (F := Ideal) x0 x1 x2 (k0_pay3 (F := Ideal)) (k0_pay3 (F := Ideal)) x3 (k0_pay4 (F := Ideal)) (ix2 r c')
      = ((pacc D (row a r) c' 0 : ℝ) : EReal) := by
  rw [pay7_apply, max_first D a x0 x1 hq hk r, pay3_apply, pay4_apply]
  simp only [dot_eq D a 0 x0 x1 hq hk, hm, hv]
  exact acc0 D _ _

/-- A later key block: the new maximum from the old. -/
theorem max_next (n : ℕ) (xs0 : Vec Ideal S1024x1 .f32)
    (hq : ∀ (r : Fin 1024) (d : Fin 64), x0 (ix2 r d) = ((qs D (row a r) d : ℝ) : EReal))
    (hk : ∀ (jj : Fin 2048) (d : Fin 64), x1 (ix2 jj d) = ((kp D (col (n + 1) jj) d : ℝ) : EReal))
    (h0 : ∀ r : Fin 1024, xs0 (ix2 r (0 : Fin 1)) = ((pm D (row a r) n : ℝ) : EReal))
    (r : Fin 1024) :
    k0_pay6 (F := Ideal) x0 x1 xs0 (ix2 r (0 : Fin 1)) = ((pm D (row a r) (n + 1) : ℝ) : EReal) := by
  rw [pay6_apply, h0, rowmax_eq D a (n + 1) x0 x1 hq hk r]
  exact maxS D _ _

/-- A later key block: the new sum from the old. -/
theorem acc_next (n : ℕ) (xs0 : Vec Ideal S1024x1 .f32) (xs1 : Vec Ideal S1024x128 .f32)
    (hq : ∀ (r : Fin 1024) (d : Fin 64), x0 (ix2 r d) = ((qs D (row a r) d : ℝ) : EReal))
    (hk : ∀ (jj : Fin 2048) (d : Fin 64), x1 (ix2 jj d) = ((kp D (col (n + 1) jj) d : ℝ) : EReal))
    (hv : ∀ (jj : Fin 2048) (c' : Fin 128), x2 (ix2 jj c') = ((vext D (col (n + 1) jj) c' : ℝ) : EReal))
    (hm : ∀ (r : Fin 1024) (jj : Fin 2048), x3 (ix2 r jj) = D.mw (row a r) (col (n + 1) jj))
    (h0 : ∀ r : Fin 1024, xs0 (ix2 r (0 : Fin 1)) = ((pm D (row a r) n : ℝ) : EReal))
    (h1 : ∀ (r : Fin 1024) (c' : Fin 128), xs1 (ix2 r c') = ((pacc D (row a r) c' n : ℝ) : EReal))
    (r : Fin 1024) (c' : Fin 128) :
    k0_pay7 (F := Ideal) x0 x1 x2 xs0 xs0 x3 xs1 (ix2 r c') = ((pacc D (row a r) c' (n + 1) : ℝ) : EReal) := by
  rw [pay7_apply, max_next D a x0 x1 n xs0 hq hk h0 r, h0, h1]
  simp only [dot_eq D a (n + 1) x0 x1 hq hk, hm, hv]
  exact accS D _ _ _

/-- The output block: the final sum's columns over its column 64. -/
theorem out_last (hD : D.Ok) (i : Fin 8192) (v38 : Vec Ideal S1024x64 .f32) (v39 : Vec Ideal S1024x1 .f32) (r : Fin 1024) (c : Fin 64)
    (h38 : v38 (ix2 r c) = ((pacc D i ⟨c.val, by omega⟩ 3 : ℝ) : EReal))
    (h39 : v39 (ix2 r (0 : Fin 1)) = ((pacc D i ⟨64, by decide⟩ 3 : ℝ) : EReal)) :
    k0_pay2 (F := Ideal) v38 v39 (ix2 r c) = ((attn D i c : ℝ) : EReal) := by
  rw [pay2_apply, h38, h39]
  exact quot D hD i c

end Cert.KernelIdeal.Step

end
-- ==== Proof.BlockRead.lean ====
/-
  A window's block at a grid point, read at an index, is the window's array at the global index: grid point `t` is row
  block `t / 4` and key block `t % 4`; the queries' block is rows `1024 (t / 4) + r`, the keys' and the values' blocks are
  rows `2048 (t % 4) + jj`, and the mask's block is those rows against those columns.
-/
import proofs.«429930_j75204877353135_3_alg».proof.Proof.KernelIdealKit
import proofs.«429930_j75204877353135_3_alg».proof.Proof.Spec
import Idealize.ShloMosaic.Lib.ValueIdx
import Idealize.ShloMosaic.Lib.Pipeline.Value

noncomputable section

namespace Cert.KernelIdeal.Blk

open Idealize.ShloMosaic Idealize.ShloMosaic.TcCoe Idealize.ShloMosaic.ValueIdx Idealize.SL.Sem
open Cert.KernelIdeal Cert.KernelIdeal.Gen Cert.KernelIdeal.Fr

variable {F : FTy → Type} [FloatOps F]
variable (m : (ℓ : Loc nD τ sig) → Buf (Elt F) ℓ) (c : Dev nD)

theorem q_blk (t : Fin cfg0.N) (r : Fin 1024) (d : Fin 64) :
    (iblk m c 0 t : Vec F S1024x64 .bf16) (ix2 r d)
      = (V m c main_v8 : Vec F S8192x64 .bf16) (ix2 (Cert.Attn.row (t.val / 4) r) d) := by
  have hN : t.val < 32 := lt_of_lt_of_eq t.isLt N_0
  have hi : ∀ t : Fin cfg0.N, win0_0.index t 0 = t.val / 4 ∧ win0_0.index t 1 = 0 :=
    (by decide +kernel : ∀ t : Fin grid0.N, win0_0.index t 0 = t.val / 4 ∧ win0_0.index t 1 = 0)
  unfold iblk
  rw [View.read_apply]
  show V m c main_v8 _ = V m c main_v8 _
  congr 1
  funext a
  apply Fin.ext
  match a with
  | ⟨0, _⟩ =>
    show win0_0.index t 0 * 1024 + 1 * r.val = (1024 * (t.val / 4) + r.val) % 8192
    rw [(hi t).1]
    omega
  | ⟨1, _⟩ =>
    show win0_0.index t 1 * 64 + 1 * d.val = d.val
    rw [(hi t).2]
    omega

theorem k_blk (t : Fin cfg0.N) (jj : Fin 2048) (d : Fin 64) :
    (iblk m c 1 t : Vec F S2048x64 .bf16) (ix2 jj d)
      = (V m c main_v9 : Vec F S8192x64 .bf16) (ix2 (Cert.Attn.col (t.val % 4) jj) d) := by
  have hN : t.val < 32 := lt_of_lt_of_eq t.isLt N_0
  have hi : ∀ t : Fin cfg0.N, win0_1.index t 0 = t.val % 4 ∧ win0_1.index t 1 = 0 :=
    (by decide +kernel : ∀ t : Fin grid0.N, win0_1.index t 0 = t.val % 4 ∧ win0_1.index t 1 = 0)
  unfold iblk
  rw [View.read_apply]
  show V m c main_v9 _ = V m c main_v9 _
  congr 1
  funext a
  apply Fin.ext
  match a with
  | ⟨0, _⟩ =>
    show win0_1.index t 0 * 2048 + 1 * jj.val = (2048 * (t.val % 4) + jj.val) % 8192
    rw [(hi t).1]
    omega
  | ⟨1, _⟩ =>
    show win0_1.index t 1 * 64 + 1 * d.val = d.val
    rw [(hi t).2]
    omega

theorem v_blk (t : Fin cfg0.N) (jj : Fin 2048) (c' : Fin 128) :
    (iblk m c 2 t : Vec F S2048x128 .bf16) (ix2 jj c')
      = (V m c main_v13 : Vec F S8192x128 .bf16) (ix2 (Cert.Attn.col (t.val % 4) jj) c') := by
  have hN : t.val < 32 := lt_of_lt_of_eq t.isLt N_0
  have hi : ∀ t : Fin cfg0.N, win0_2.index t 0 = t.val % 4 ∧ win0_2.index t 1 = 0 :=
    (by decide +kernel : ∀ t : Fin grid0.N, win0_2.index t 0 = t.val % 4 ∧ win0_2.index t 1 = 0)
  unfold iblk
  rw [View.read_apply]
  show V m c main_v13 _ = V m c main_v13 _
  congr 1
  funext a
  apply Fin.ext
  match a with
  | ⟨0, _⟩ =>
    show win0_2.index t 0 * 2048 + 1 * jj.val = (2048 * (t.val % 4) + jj.val) % 8192
    rw [(hi t).1]
    omega
  | ⟨1, _⟩ =>
    show win0_2.index t 1 * 128 + 1 * c'.val = c'.val
    rw [(hi t).2]
    omega

theorem m_blk (t : Fin cfg0.N) (r : Fin 1024) (jj : Fin 2048) :
    (iblk m c 3 t : Vec F S1024x2048 .i32) (ix2 r jj)
      = (V m c main_arg1 : Vec F S8192x8192 .i32) (ix2 (Cert.Attn.row (t.val / 4) r) (Cert.Attn.col (t.val % 4) jj)) := by
  have hN : t.val < 32 := lt_of_lt_of_eq t.isLt N_0
  have hi : ∀ t : Fin cfg0.N, win0_3.index t 0 = t.val / 4 ∧ win0_3.index t 1 = t.val % 4 :=
    (by decide +kernel : ∀ t : Fin grid0.N, win0_3.index t 0 = t.val / 4 ∧ win0_3.index t 1 = t.val % 4)
  unfold iblk
  rw [View.read_apply]
  show V m c main_arg1 _ = V m c main_arg1 _
  congr 1
  funext a
  apply Fin.ext
  match a with
  | ⟨0, _⟩ =>
    show win0_3.index t 0 * 1024 + 1 * r.val = (1024 * (t.val / 4) + r.val) % 8192
    rw [(hi t).1]
    omega
  | ⟨1, _⟩ =>
    show win0_3.index t 1 * 2048 + 1 * jj.val = (2048 * (t.val % 4) + jj.val) % 8192
    rw [(hi t).2]
    omega

end Cert.KernelIdeal.Blk

end
-- ==== Proof.HostPrefix.lean ====
/-
  What the three arrays the kernel's windows read hold when the region is entered, element by element: the scaled
  queries `x · (w_q / 8)ᵀ`, the keys `x · w_kᵀ`, and the values `x · w_vᵀ` extended by a column of ones and 63 columns
  of zeros — columns 0..63, 64..127 and 128..191 of one product of `x` with the three weight matrices stacked.
-/
import proofs.«429930_j75204877353135_3_alg».proof.Proof.Gen.KernelIdeal.Launch
import proofs.«429930_j75204877353135_3_alg».proof.Proof.LibNaryResults
import proofs.«429930_j75204877353135_3_alg».proof.Proof.Spec
import Idealize.ShloMosaic.Lib.ValueIdx
import Idealize.ShloMosaic.Lib.ValueLayout
import Idealize.ShloMosaic.Lib.IdealHost
import Idealize.ShloMosaic.Lib.Pipeline.Value
import Idealize.ShloMosaic.Lib.StableHlo.Run
import Idealize.ShloMosaic.PureOps.Ideal.Laws

noncomputable section

namespace Cert.KernelIdeal.HostPre

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (c : Dev nD)

/-- Core `c`'s buffer contents when the region is entered: after the seventeen host operations. -/
abbrev E0 : Valuation τ sig (Elt Ideal) := StableHlo.after (List.flatten [hostOps0 (F := Ideal)]) (fun b => m (c, b))
abbrev E (b : Ref sig .tc) : Buf (Elt Ideal) ((c : Thread nD τ).loc b) := E0 m c (Proc.devRef .tc b)

/-! ## The arrays as the operations' composed terms -/

/-- The three weight matrices as the pieces of one array: the queries' (each entry times the constant 1/8), the
    keys', the values'. -/
private abbrev pieces (wq wk wv : FVec Ideal S64x512 .f32) : List ((s : Shape) × (s.Idx → Ideal .f32)) :=
  [⟨S64x512, mulf wq (broadcastInDim S64x512 ![] bcast_S_S64x512 (constant (F := Ideal) S_ .f32 0x3E000000#32))⟩,
   ⟨S64x512, wk⟩, ⟨S64x512, wv⟩]

/-- The pieces stacked, row block over row block. -/
private abbrev stack (wq wk wv : FVec Ideal S64x512 .f32) : FVec Ideal S192x512 .f32 :=
  concatenate S192x512 0 (pieces wq wk wv) concatenates_S64x512_S64x512_S64x512_S192x512_d0

private abbrev DD := dot_S8192x512_S512x192_S8192x192_1_0_0_1_n_n

/-- The one product: `x` against the stacked weights transposed. -/
private abbrev prodOf (x : FVec Ideal S8192x512 .f32) (wq wk wv : FVec Ideal S64x512 .f32) : FVec Ideal S8192x192 .f32 :=
  Host.dotGeneral DD none x (transpose S512x192 [1, 0] (stack wq wk wv) transposes_S192x512_S512x192_1_0)

/-- Columns 128..191 of a product, narrowed, then a column of the constant one and 63 columns of the constant zero. -/
private abbrev vpieces (p : FVec Ideal S8192x192 .f32) : List ((s : Shape) × (s.Idx → Ideal .bf16)) :=
  [⟨S8192x64, truncf .bf16 (extractStridedSlice S8192x64 ![0, 128] p slices_S8192x192_S8192x64_0_128) bitsLt_bf16_f32⟩,
   ⟨S8192x1, broadcastInDim S8192x1 ![] bcast_S_S8192x1 (constant (F := Ideal) S_ .bf16 0x3F80#16)⟩,
   ⟨S8192x63, broadcastInDim S8192x63 ![] bcast_S_S8192x63 (constant (F := Ideal) S_ .bf16 0x0000#16)⟩]

/-- The four inputs the prefix reads, as arrays of extended reals. -/
private abbrev X : FVec Ideal S8192x512 .f32 := m ((c.tc : Thread nD τ).loc main_arg0)
private abbrev Wk : FVec Ideal S64x512 .f32 := m ((c.tc : Thread nD τ).loc main_arg2)
private abbrev Wq : FVec Ideal S64x512 .f32 := m ((c.tc : Thread nD τ).loc main_arg3)
private abbrev Wv : FVec Ideal S64x512 .f32 := m ((c.tc : Thread nD τ).loc main_arg4)

/-- The product of this core's inputs. -/
private abbrev prod : FVec Ideal S8192x192 .f32 := prodOf (X m c) (Wq m c) (Wk m c) (Wv m c)

/-- The queries' array: columns 0..63 of the product, narrowed. -/
private theorem e8 : (E m c main_v8 : S8192x64.Idx → EReal)
    = truncf .bf16 (extractStridedSlice S8192x64 ![0, 0] (prod m c) slices_S8192x192_S8192x64_0_0) bitsLt_bf16_f32 := by
  dsimp only [E, E0]
  simp only [hostOps0, List.flatten_cons, List.flatten_nil, List.append_nil]
  after_results_lit
  rfl

/-- The keys' array: columns 64..127 of the product, narrowed. -/
private theorem e9 : (E m c main_v9 : S8192x64.Idx → EReal)
    = truncf .bf16 (extractStridedSlice S8192x64 ![0, 64] (prod m c) slices_S8192x192_S8192x64_0_64) bitsLt_bf16_f32 := by
  dsimp only [E, E0]
  simp only [hostOps0, List.flatten_cons, List.flatten_nil, List.append_nil]
  after_results_lit
  rfl

/-- The extended values' array: columns 128..191 of the product, narrowed, then the constant columns. -/
private theorem e13 : (E m c main_v13 : S8192x128.Idx → EReal)
    = concatenate S8192x128 1 (vpieces (prod m c)) concatenates_S8192x64_S8192x1_S8192x63_S8192x128_d1 := by
  dsimp only [E, E0]
  simp only [hostOps0, List.flatten_cons, List.flatten_nil, List.append_nil]
  after_results_lit
  rfl

/-! ## The composed terms read at an index -/

/-- The coercion of a finite sum of reals is the sum of the coercions. -/
private theorem coe_sum {ι : Type} (s : Finset ι) (f : ι → ℝ) :
    ((∑ k ∈ s, f k : ℝ) : EReal) = ∑ k ∈ s, ((f k : ℝ) : EReal) := by
  classical
  induction s using Finset.induction_on with
  | empty => simp
  | insert a s ha ih => rw [Finset.sum_insert ha, Finset.sum_insert ha, EReal.coe_add, ih]

/-- The f32 pattern `0x3E000000` is the real 1/8. -/
private theorem eighth : Ideal.ofBits .f32 0x3E000000#32 = ((1 / 8 : ℝ) : EReal) := by
  simp [Ideal.ofBits, Ideal.ieee, -EReal.coe_mul]; norm_num

/-- The operand indices of the product at output index `j` and contraction index `q`: `(j 0, q)` and `(q, j 1)`. -/
private theorem lhs0 (j : S8192x192.Idx) (q : DD.contr.Idx) : (DD.lhsIdx j q 0).val = (j 0).val := by
  unfold DotDims.lhsIdx
  rw [dif_neg (show ¬(0 : Fin S8192x512.rank) ∈ DD.lhsBatch by decide), dif_pos (show (0 : Fin S8192x512.rank) ∈ DD.lhsNonContracting by decide)]
  rfl
private theorem lhs1 (j : S8192x192.Idx) (q : DD.contr.Idx) : (DD.lhsIdx j q 1).val = (q ⟨0, by decide⟩).val :=
  DD.lhsIdx_val_of_single rfl j q
private theorem rhs0 (j : S8192x192.Idx) (q : DD.contr.Idx) : (DD.rhsIdx j q 0).val = (q ⟨0, by decide⟩).val :=
  DD.rhsIdx_val_of_single rfl j q
private theorem rhs1 (j : S8192x192.Idx) (q : DD.contr.Idx) : (DD.rhsIdx j q 1).val = (j 1).val := by
  unfold DotDims.rhsIdx
  rw [dif_neg (show ¬(1 : Fin S512x192.rank) ∈ DD.rhsBatch by decide), dif_pos (show (1 : Fin S512x192.rank) ∈ DD.rhsNonContracting by decide)]
  rfl

/-- The product at `(i, r)`: row `i` of the left factor against column `r` of the right. -/
private theorem dot_apply (x : FVec Ideal S8192x512 .f32) (y : FVec Ideal S512x192 .f32) (i : Fin 8192) (r : Fin 192) :
    (Host.dotGeneral DD none x y : FVec Ideal S8192x192 .f32) (ix2 i r) = ∑ k : Fin 512, x (ix2 i k) * y (ix2 k r) := by
  simp only [Host.dotGeneral]
  rw [Ideal.dotGeneral_apply, ← Equiv.sum_comp (contrEquiv1 DD 512 rfl rfl).symm]
  refine Finset.sum_congr rfl fun k _ => ?_
  have hk := contrEquiv1_symm_val DD 512 rfl rfl k
  have el : DD.lhsIdx (ix2 i r) ((contrEquiv1 DD 512 rfl rfl).symm k) = ix2 i k := funext fun a => Fin.ext (by
    match a with
    | ⟨0, _⟩ => exact lhs0 _ _
    | ⟨1, _⟩ => exact (lhs1 _ _).trans hk)
  have er : DD.rhsIdx (ix2 i r) ((contrEquiv1 DD 512 rfl rfl).symm k) = ix2 k r := funext fun a => Fin.ext (by
    match a with
    | ⟨0, _⟩ => exact (rhs0 _ _).trans hk
    | ⟨1, _⟩ => exact rhs1 _ _)
  rw [el, er]

section Stack

variable (wq wk wv : FVec Ideal S64x512 .f32)

/-- Row `d` of the stacked weights, `d < 64`: the query weights' row `d`, each entry times 1/8. -/
private theorem stack_q (d : Fin 64) (k : Fin 512) (r : Fin 192) (hr : r.val = d.val) :
    stack wq wk wv (ix2 r k) = wq (ix2 d k) * ((1 / 8 : ℝ) : EReal) := by
  refine (concatenate_apply_piece (0 : Fin S192x512.rank) (pieces wq wk wv) concatenates_S64x512_S64x512_S64x512_S192x512_d0 (ix2 r k)
    0 (show (0 : ℕ) < 3 by decide) S64x512 _ rfl rfl 0 rfl (ix2 d k) ?_ ?_).trans ?_
  · intro b hb
    match b with
    | ⟨0, _⟩ => exact absurd rfl hb
    | ⟨1, _⟩ => rfl
  · show 0 + d.val = r.val
    omega
  · rw [mulf_apply, broadcastInDim_scalar_apply, constant_apply, eighth]

/-- Row `64 + d` of the stacked weights: the key weights' row `d`. -/
private theorem stack_k (d : Fin 64) (k : Fin 512) (r : Fin 192) (hr : r.val = 64 + d.val) :
    stack wq wk wv (ix2 r k) = wk (ix2 d k) := by
  refine concatenate_apply_piece (0 : Fin S192x512.rank) (pieces wq wk wv) concatenates_S64x512_S64x512_S64x512_S192x512_d0 (ix2 r k)
    1 (show (1 : ℕ) < 3 by decide) S64x512 _ rfl rfl 64 rfl (ix2 d k) ?_ ?_
  · intro b hb
    match b with
    | ⟨0, _⟩ => exact absurd rfl hb
    | ⟨1, _⟩ => rfl
  · show 64 + d.val = r.val
    omega

/-- Row `128 + d` of the stacked weights: the value weights' row `d`. -/
private theorem stack_v (d : Fin 64) (k : Fin 512) (r : Fin 192) (hr : r.val = 128 + d.val) :
    stack wq wk wv (ix2 r k) = wv (ix2 d k) := by
  refine concatenate_apply_piece (0 : Fin S192x512.rank) (pieces wq wk wv) concatenates_S64x512_S64x512_S64x512_S192x512_d0 (ix2 r k)
    2 (show (2 : ℕ) < 3 by decide) S64x512 _ rfl rfl 128 rfl (ix2 d k) ?_ ?_
  · intro b hb
    match b with
    | ⟨0, _⟩ => exact absurd rfl hb
    | ⟨1, _⟩ => rfl
  · show 128 + d.val = r.val
    omega

variable (x : FVec Ideal S8192x512 .f32)

/-- Column `r` of the product, at row `i`: row `i` of `x` against row `r` of the stacked weights. -/
private theorem prodOf_apply (i : Fin 8192) (r : Fin 192) :
    prodOf x wq wk wv (ix2 i r) = ∑ k : Fin 512, x (ix2 i k) * stack wq wk wv (ix2 r k) := by
  refine (dot_apply _ _ i r).trans (Finset.sum_congr rfl fun k _ => ?_)
  rw [transpose_ix2_apply]

variable (xr : Fin 8192 → Fin 512 → ℝ) (wr : Fin 64 → Fin 512 → ℝ)
  (hx : ∀ (i : Fin 8192) (k : Fin 512), x (ix2 i k) = ((xr i k : ℝ) : EReal))

include hx in
/-- Columns 0..63 of the product, narrowed: the scaled queries. -/
private theorem qcol (hw : ∀ (d : Fin 64) (k : Fin 512), wq (ix2 d k) = ((wr d k : ℝ) : EReal)) (i : Fin 8192) (d : Fin 64) :
    (truncf .bf16 (extractStridedSlice S8192x64 ![0, 0] (prodOf x wq wk wv) slices_S8192x192_S8192x64_0_0) bitsLt_bf16_f32 : FVec Ideal S8192x64 .bf16) (ix2 i d)
      = ((∑ k : Fin 512, xr i k * (wr d k * (1 / 8)) : ℝ) : EReal) := by
  rw [truncf_apply, slice2_axis1_eq, prodOf_apply, coe_sum]
  refine Finset.sum_congr rfl fun k _ => ?_
  rw [stack_q wq wk wv d k _ (Nat.zero_add _), hx, hw, ← EReal.coe_mul, ← EReal.coe_mul]

include hx in
/-- Columns 64..127 of the product, narrowed: the keys. -/
private theorem kcol (hw : ∀ (d : Fin 64) (k : Fin 512), wk (ix2 d k) = ((wr d k : ℝ) : EReal)) (i : Fin 8192) (d : Fin 64) :
    (truncf .bf16 (extractStridedSlice S8192x64 ![0, 64] (prodOf x wq wk wv) slices_S8192x192_S8192x64_0_64) bitsLt_bf16_f32 : FVec Ideal S8192x64 .bf16) (ix2 i d)
      = ((∑ k : Fin 512, xr i k * wr d k : ℝ) : EReal) := by
  rw [truncf_apply, slice2_axis1_eq, prodOf_apply, coe_sum]
  refine Finset.sum_congr rfl fun k _ => ?_
  rw [stack_k wq wk wv d k _ rfl, hx, hw, ← EReal.coe_mul]

include hx in
/-- Columns 128..191 of the product, narrowed: the values. -/
private theorem vcol (hw : ∀ (d : Fin 64) (k : Fin 512), wv (ix2 d k) = ((wr d k : ℝ) : EReal)) (i : Fin 8192) (d : Fin 64) :
    (truncf .bf16 (extractStridedSlice S8192x64 ![0, 128] (prodOf x wq wk wv) slices_S8192x192_S8192x64_0_128) bitsLt_bf16_f32 : FVec Ideal S8192x64 .bf16) (ix2 i d)
      = ((∑ k : Fin 512, xr i k * wr d k : ℝ) : EReal) := by
  rw [truncf_apply, slice2_axis1_eq, prodOf_apply, coe_sum]
  refine Finset.sum_congr rfl fun k _ => ?_
  rw [stack_v wq wk wv d k _ rfl, hx, hw, ← EReal.coe_mul]

end Stack

/-- The extended array at `(j, c')`: the narrowed column `c'` below 64, one at 64, zero after. -/
private theorem ext_apply (p : FVec Ideal S8192x192 .f32) (vr : Fin 8192 → Fin 64 → ℝ)
    (hp : ∀ (j : Fin 8192) (d : Fin 64),
      (truncf .bf16 (extractStridedSlice S8192x64 ![0, 128] p slices_S8192x192_S8192x64_0_128) bitsLt_bf16_f32 : FVec Ideal S8192x64 .bf16) (ix2 j d)
        = ((vr j d : ℝ) : EReal))
    (j : Fin 8192) (c' : Fin 128) :
    (concatenate S8192x128 1 (vpieces p) concatenates_S8192x64_S8192x1_S8192x63_S8192x128_d1 : FVec Ideal S8192x128 .bf16) (ix2 j c')
      = (((if h : c'.val < 64 then vr j ⟨c'.val, h⟩ else if c'.val = 64 then 1 else 0) : ℝ) : EReal) := by
  by_cases h : c'.val < 64
  · rw [dif_pos h]
    refine (concatenate_apply_piece (1 : Fin S8192x128.rank) (vpieces p) concatenates_S8192x64_S8192x1_S8192x63_S8192x128_d1 (ix2 j c')
      0 (show (0 : ℕ) < 3 by decide) S8192x64 _ rfl rfl 0 rfl (ix2 j ⟨c'.val, h⟩) ?_ ?_).trans (hp j ⟨c'.val, h⟩)
    · intro b hb
      match b with
      | ⟨0, _⟩ => rfl
      | ⟨1, _⟩ => exact absurd rfl hb
    · show 0 + c'.val = c'.val
      omega
  · rw [dif_neg h]
    by_cases h64 : c'.val = 64
    · rw [if_pos h64]
      refine (concatenate_apply_piece (1 : Fin S8192x128.rank) (vpieces p) concatenates_S8192x64_S8192x1_S8192x63_S8192x128_d1 (ix2 j c')
        1 (show (1 : ℕ) < 3 by decide) S8192x1 _ rfl rfl 64 rfl (ix2 j (0 : Fin 1)) ?_ ?_).trans ?_
      · intro b hb
        match b with
        | ⟨0, _⟩ => rfl
        | ⟨1, _⟩ => exact absurd rfl hb
      · show 64 + 0 = c'.val
        omega
      · rw [broadcastInDim_scalar_apply, constant_apply, Ideal.ofBits_one_bf16, EReal.coe_one]
    · rw [if_neg h64]
      refine (concatenate_apply_piece (1 : Fin S8192x128.rank) (vpieces p) concatenates_S8192x64_S8192x1_S8192x63_S8192x128_d1 (ix2 j c')
        2 (show (2 : ℕ) < 3 by decide) S8192x63 _ rfl rfl 65 rfl (ix2 j (⟨c'.val - 65, by omega⟩ : Fin 63)) ?_ ?_).trans ?_
      · intro b hb
        match b with
        | ⟨0, _⟩ => rfl
        | ⟨1, _⟩ => exact absurd rfl hb
      · show 65 + (c'.val - 65) = c'.val
        omega
      · rw [broadcastInDim_scalar_apply, constant_apply, Ideal.ofBits_zero_bf16, EReal.coe_zero]

/-! ## The three arrays against the real definitions -/

variable (D : Cert.Attn.Data)
  (h0 : ∀ (i : Fin 8192) (k : Fin 512), (m ((c.tc : Thread nD τ).loc main_arg0) : FVec Ideal S8192x512 .f32) (ix2 i k) = ((D.x i k : ℝ) : EReal))
  (h2 : ∀ (d : Fin 64) (k : Fin 512), (m ((c.tc : Thread nD τ).loc main_arg2) : FVec Ideal S64x512 .f32) (ix2 d k) = ((D.wk d k : ℝ) : EReal))
  (h3 : ∀ (d : Fin 64) (k : Fin 512), (m ((c.tc : Thread nD τ).loc main_arg3) : FVec Ideal S64x512 .f32) (ix2 d k) = ((D.wq d k : ℝ) : EReal))
  (h4 : ∀ (d : Fin 64) (k : Fin 512), (m ((c.tc : Thread nD τ).loc main_arg4) : FVec Ideal S64x512 .f32) (ix2 d k) = ((D.wv d k : ℝ) : EReal))

include h0 h3 in
theorem q_apply (i : Fin 8192) (d : Fin 64) :
    (E m c main_v8 : FVec Ideal S8192x64 .bf16) (ix2 i d) = ((Cert.Attn.qs D i d : ℝ) : EReal) := by
  exact (congrFun (e8 m c) (ix2 i d)).trans (qcol (Wq m c) (Wk m c) (Wv m c) (X m c) D.x D.wq h0 h3 i d)

include h0 h2 in
theorem k_apply (j : Fin 8192) (d : Fin 64) :
    (E m c main_v9 : FVec Ideal S8192x64 .bf16) (ix2 j d) = ((Cert.Attn.kp D j d : ℝ) : EReal) := by
  exact (congrFun (e9 m c) (ix2 j d)).trans (kcol (Wq m c) (Wk m c) (Wv m c) (X m c) D.x D.wk h0 h2 j d)

include h0 h4 in
theorem vext_apply (j : Fin 8192) (c' : Fin 128) :
    (E m c main_v13 : FVec Ideal S8192x128 .bf16) (ix2 j c') = ((Cert.Attn.vext D j c' : ℝ) : EReal) := by
  exact (congrFun (e13 m c) (ix2 j c')).trans
    (ext_apply (prod m c) (Cert.Attn.vp D) (vcol (Wq m c) (Wk m c) (Wv m c) (X m c) D.x D.wv h0 h4) j c')

end Cert.KernelIdeal.HostPre

end
-- ==== Proof.Invariant.lean ====
/-
  What the kernel's two scratch buffers hold after each grid point, and its result array, under the decoded inputs.
  Grid point `t` is row block `t / 4` and key block `t % 4`. After it, row `r` of the running maximum's scratch is
  `pm` of global row `1024 (t / 4) + r` after `t % 4 + 1` key blocks, and row `r`, column `c` of the accumulator's is
  `pacc` there — by induction on the point: the first key block resets, every later one steps from what the point
  before left. At a row block's last key point the output's buffer holds `attn`, so the result array is `attn`.
-/
import proofs.«429930_j75204877353135_3_alg».proof.Proof.Pieces
import proofs.«429930_j75204877353135_3_alg».proof.Proof.Step
import proofs.«429930_j75204877353135_3_alg».proof.Proof.BlockRead
import proofs.«429930_j75204877353135_3_alg».proof.Proof.HostPrefix
import proofs.«429930_j75204877353135_3_alg».proof.Proof.KernelFinal

set_option maxRecDepth 16384

noncomputable section

namespace Cert.KernelIdeal.Inv

open Idealize.ShloMosaic Idealize.ShloMosaic.TcCoe Idealize.ShloMosaic.ValueIdx Idealize.SL.Sem
open Cert.KernelIdeal Cert.KernelIdeal.Gen Cert.KernelIdeal.Fr Cert.KernelIdeal.Pc Cert.KernelIdeal.PayIdx Cert.Attn

variable (m : (ℓ : Loc nD τ sig) → Buf (Elt Ideal) ℓ) (c : Dev nD) (D : Data)
  (h0 : ∀ (i : Fin 8192) (k : Fin 512), (m ((c.tc : Thread nD τ).loc main_arg0) : FVec Ideal S8192x512 .f32) (ix2 i k) = ((D.x i k : ℝ) : EReal))
  (h1 : ∀ (i j : Fin 8192), (m ((c.tc : Thread nD τ).loc main_arg1) : IVec S8192x8192 32) (ix2 i j) = D.mw i j)
  (h2 : ∀ (d : Fin 64) (k : Fin 512), (m ((c.tc : Thread nD τ).loc main_arg2) : FVec Ideal S64x512 .f32) (ix2 d k) = ((D.wk d k : ℝ) : EReal))
  (h3 : ∀ (d : Fin 64) (k : Fin 512), (m ((c.tc : Thread nD τ).loc main_arg3) : FVec Ideal S64x512 .f32) (ix2 d k) = ((D.wq d k : ℝ) : EReal))
  (h4 : ∀ (d : Fin 64) (k : Fin 512), (m ((c.tc : Thread nD τ).loc main_arg4) : FVec Ideal S64x512 .f32) (ix2 d k) = ((D.wv d k : ℝ) : EReal))

/-- The four input blocks at a point, at their literal types. -/
abbrev qb (t : Fin cfg0.N) : Vec Ideal S1024x64 .bf16 := iblk m c 0 t
abbrev kb (t : Fin cfg0.N) : Vec Ideal S2048x64 .bf16 := iblk m c 1 t
abbrev vb (t : Fin cfg0.N) : Vec Ideal S2048x128 .bf16 := iblk m c 2 t
abbrev mb (t : Fin cfg0.N) : Vec Ideal S1024x2048 .i32 := iblk m c 3 t

include h0 h3 in
theorem hq (t : Fin cfg0.N) (r : Fin 1024) (d : Fin 64) :
    qb m c t (ix2 r d) = ((qs D (row (t.val / 4) r) d : ℝ) : EReal) :=
  (Blk.q_blk m c t r d).trans (HostPre.q_apply m c D h0 h3 _ d)

include h0 h2 in
theorem hk (t : Fin cfg0.N) (jj : Fin 2048) (d : Fin 64) :
    kb m c t (ix2 jj d) = ((kp D (col (t.val % 4) jj) d : ℝ) : EReal) :=
  (Blk.k_blk m c t jj d).trans (HostPre.k_apply m c D h0 h2 _ d)

include h0 h4 in
theorem hv (t : Fin cfg0.N) (jj : Fin 2048) (c' : Fin 128) :
    vb m c t (ix2 jj c') = ((vext D (col (t.val % 4) jj) c' : ℝ) : EReal) :=
  (Blk.v_blk m c t jj c').trans (HostPre.vext_apply m c D h0 h4 _ c')

include h1 in
theorem hm (t : Fin cfg0.N) (r : Fin 1024) (jj : Fin 2048) :
    mb m c t (ix2 r jj) = D.mw (row (t.val / 4) r) (col (t.val % 4) jj) :=
  (Blk.m_blk m c t r jj).trans ((congrFun (V_main_arg1 m c) _).trans (h1 _ _))

/-- What a point leaves in the two scratch buffers, as the statement the induction carries. -/
def Holds (n : ℕ) (hn : n < cfg0.N) : Prop :=
  (∀ r : Fin 1024, ((outsAt0 m c n hn).2.1 : Vec Ideal S1024x1 .f32) (ix2 r (0 : Fin 1)) = ((pm D (row (n / 4) r) (n % 4) : ℝ) : EReal))
  ∧ ∀ (r : Fin 1024) (c' : Fin 128), ((outsAt0 m c n hn).2.2 : Vec Ideal S1024x128 .f32) (ix2 r c') = ((pacc D (row (n / 4) r) c' (n % 4) : ℝ) : EReal)

include h0 h1 h2 h3 h4 in
/-- A first key block. -/
theorem holds_first (t : Fin cfg0.N) (hb : t.val % 4 = 0) : Holds m c D t.val t.isLt := by
  have hb3 : ¬t.val % 4 = 3 := by omega
  have hc0 : cond0_0 (grid0.coords t) := (hcond0_0 t).mpr hb
  have hc1 : ¬cond0_1 (grid0.coords t) := fun h => hb3 ((hcond0_1 t).mp h)
  have hk0 : ∀ (jj : Fin 2048) (d : Fin 64), kb m c t (ix2 jj d) = ((kp D (col 0 jj) d : ℝ) : EReal) := by
    intro jj d; have := hk m c D h0 h2 t jj d; rwa [hb] at this
  have hv0 : ∀ (jj : Fin 2048) (c' : Fin 128), vb m c t (ix2 jj c') = ((vext D (col 0 jj) c' : ℝ) : EReal) := by
    intro jj c'; have := hv m c D h0 h4 t jj c'; rwa [hb] at this
  have hm0 : ∀ (r : Fin 1024) (jj : Fin 2048), mb m c t (ix2 r jj) = D.mw (row (t.val / 4) r) (col 0 jj) := by
    intro r jj; have := hm m c D h1 t r jj; rwa [hb] at this
  unfold Holds
  rw [outsAt0_A m c t hb hb3]
  dsimp only
  constructor
  · intro r
    refine (congrFun (s0_A (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) hc0 hc1 (qb m c t) (kb m c t) (vb m c t) (mb m c t)) (ix2 r (0 : Fin 1))).trans ?_
    refine (pay1_apply _ r).trans ?_
    refine (Step.max_first D (t.val / 4) (qb m c t) (kb m c t) (hq m c D h0 h3 t) hk0 r).trans ?_
    rw [hb]
  · intro r c'
    refine (congrFun (s1_A (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) hc0 hc1 (qb m c t) (kb m c t) (vb m c t) (mb m c t)) (ix2 r c')).trans ?_
    refine (Step.acc_first D (t.val / 4) (qb m c t) (kb m c t) (vb m c t) (mb m c t) (hq m c D h0 h3 t) hk0 hv0 hm0 r c').trans ?_
    rw [hb]

include h0 h1 h2 h3 h4 in
/-- A later key block, from what the point before left. -/
theorem holds_next (t : Fin cfg0.N) (hb : ¬t.val % 4 = 0)
    (ih : Holds m c D (t.val - 1) (Nat.lt_of_le_of_lt (Nat.sub_le _ _) t.isLt)) : Holds m c D t.val t.isLt := by
  obtain ⟨k, hk1, hk2, hk3⟩ : ∃ k, t.val % 4 = k + 1 ∧ (t.val - 1) % 4 = k ∧ (t.val - 1) / 4 = t.val / 4 :=
    ⟨t.val % 4 - 1, by omega, by omega, by omega⟩
  have hc0 : ¬cond0_0 (grid0.coords t) := fun h => hb ((hcond0_0 t).mp h)
  have hkk : ∀ (jj : Fin 2048) (d : Fin 64), kb m c t (ix2 jj d) = ((kp D (col (k + 1) jj) d : ℝ) : EReal) := by
    intro jj d; have := hk m c D h0 h2 t jj d; rwa [hk1] at this
  have hvk : ∀ (jj : Fin 2048) (c' : Fin 128), vb m c t (ix2 jj c') = ((vext D (col (k + 1) jj) c' : ℝ) : EReal) := by
    intro jj c'; have := hv m c D h0 h4 t jj c'; rwa [hk1] at this
  have hmk : ∀ (r : Fin 1024) (jj : Fin 2048), mb m c t (ix2 r jj) = D.mw (row (t.val / 4) r) (col (k + 1) jj) := by
    intro r jj; have := hm m c D h1 t r jj; rwa [hk1] at this
  unfold Holds at ih
  rw [hk2, hk3] at ih
  obtain ⟨ih0, ih1⟩ := ih
  unfold Holds
  by_cases h3' : t.val % 4 = 3
  · have hc1 : cond0_1 (grid0.coords t) := (hcond0_1 t).mpr h3'
    rw [outsAt0_C m c t hb h3']
    dsimp only
    constructor
    · intro r
      refine (congrFun (s0_C (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) hc0 hc1 (qb m c t) (kb m c t) (vb m c t) (mb m c t) _ _) (ix2 r (0 : Fin 1))).trans ?_
      refine (pay1_apply _ r).trans ?_
      refine (Step.max_next D (t.val / 4) (qb m c t) (kb m c t) k _ (hq m c D h0 h3 t) hkk ih0 r).trans ?_
      rw [hk1]
    · intro r c'
      refine (congrFun (s1_C (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) hc0 hc1 (qb m c t) (kb m c t) (vb m c t) (mb m c t) _ _) (ix2 r c')).trans ?_
      refine (Step.acc_next D (t.val / 4) (qb m c t) (kb m c t) (vb m c t) (mb m c t) k _ _ (hq m c D h0 h3 t) hkk hvk hmk ih0 ih1 r c').trans ?_
      rw [hk1]
  · have hc1 : ¬cond0_1 (grid0.coords t) := fun h => h3' ((hcond0_1 t).mp h)
    rw [outsAt0_B m c t hb h3']
    dsimp only
    constructor
    · intro r
      refine (congrFun (s0_B (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) hc0 hc1 (qb m c t) (kb m c t) (vb m c t) (mb m c t) _ _) (ix2 r (0 : Fin 1))).trans ?_
      refine (pay1_apply _ r).trans ?_
      refine (Step.max_next D (t.val / 4) (qb m c t) (kb m c t) k _ (hq m c D h0 h3 t) hkk ih0 r).trans ?_
      rw [hk1]
    · intro r c'
      refine (congrFun (s1_B (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) hc0 hc1 (qb m c t) (kb m c t) (vb m c t) (mb m c t) _ _) (ix2 r c')).trans ?_
      refine (Step.acc_next D (t.val / 4) (qb m c t) (kb m c t) (vb m c t) (mb m c t) k _ _ (hq m c D h0 h3 t) hkk hvk hmk ih0 ih1 r c').trans ?_
      rw [hk1]

include h0 h1 h2 h3 h4 in
/-- Every point: by induction. -/
theorem holds : ∀ (n : ℕ) (hn : n < cfg0.N), Holds m c D n hn := by
  intro n
  induction n with
  | zero => intro hn; exact holds_first m c D h0 h1 h2 h3 h4 ⟨0, hn⟩ rfl
  | succ n ih =>
    intro hn
    by_cases hb : (n + 1) % 4 = 0
    · exact holds_first m c D h0 h1 h2 h3 h4 ⟨n + 1, hn⟩ hb
    · exact holds_next m c D h0 h1 h2 h3 h4 ⟨n + 1, hn⟩ hb (ih (Nat.lt_of_succ_lt hn))

include h0 h1 h2 h3 h4 in
/-- At a row block's last key point the output's buffer holds the quotient. -/
theorem out_eq (hD : D.Ok) (t : Fin cfg0.N) (h3' : t.val % 4 = 3) (r : Fin 1024) (c' : Fin 64) :
    ((outsAt0 m c t.val t.isLt).1 : Vec Ideal S1024x64 .f32) (ix2 r c') = ((attn D (row (t.val / 4) r) c' : ℝ) : EReal) := by
  have hb : ¬t.val % 4 = 0 := by omega
  have hc0 : ¬cond0_0 (grid0.coords t) := fun h => hb ((hcond0_0 t).mp h)
  have hc1 : cond0_1 (grid0.coords t) := (hcond0_1 t).mpr h3'
  have hH := holds m c D h0 h1 h2 h3 h4 t.val t.isLt
  unfold Holds at hH
  rw [h3', outsAt0_C m c t hb h3'] at hH
  dsimp only at hH
  obtain ⟨-, hacc⟩ := hH
  rw [outsAt0_C m c t hb h3']
  dsimp only
  refine (congrFun (o4_C (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) hc0 hc1 (qb m c t) (kb m c t) (vb m c t) (mb m c t) _ _) (ix2 r c')).trans ?_
  refine Step.out_last D hD (row (t.val / 4) r) _ _ r c' ?_ ?_
  · rw [numOf_apply]
    refine ((congrFun (s1_C (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) hc0 hc1 (qb m c t) (kb m c t) (vb m c t) (mb m c t) _ _) _).symm).trans ?_
    exact hacc r _
  · rw [denOf_apply]
    refine ((congrFun (s1_C (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) hc0 hc1 (qb m c t) (kb m c t) (vb m c t) (mb m c t) _ _) _).symm).trans ?_
    exact hacc r _

include h0 h1 h2 h3 h4 in
/-- The result array is the quotient, entry by entry. -/
theorem G_eq (hD : D.Ok) (i : Fin 8192) (c' : Fin 64) :
    (Fin.G m c : Vec Ideal S8192x64 .f32) (ix2 i c') = ((attn D i c' : ℝ) : EReal) := by
  have hN : cfg0.N = 32 := N_0
  have hi := i.isLt
  have hlt : 4 * (i.val / 1024) + 3 < cfg0.N := Fin.last_lt i
  have e := out_eq m c D h0 h1 h2 h3 h4 hD ⟨4 * (i.val / 1024) + 3, hlt⟩ (by show (4 * (i.val / 1024) + 3) % 4 = 3; omega)
    ⟨i.val % 1024, Nat.mod_lt _ (by decide)⟩ c'
  have hrow : row ((4 * (i.val / 1024) + 3) / 4) (⟨i.val % 1024, Nat.mod_lt _ (by decide)⟩ : Fin 1024) = i := by
    apply _root_.Fin.ext
    show (1024 * ((4 * (i.val / 1024) + 3) / 4) + i.val % 1024) % 8192 = i.val
    omega
  rw [hrow] at e
  exact e

end Cert.KernelIdeal.Inv

end
-- ==== Proof.RefValue.lean ====
/-
  The reference's result, element by element, under the decoded inputs: the softmax over the unmasked keys of the scores
  `(q · k) / 8` (a masked key's score is -∞, whose exponential is 0), times the values — the weighted mean of
  `Spec.lean` at the shift the reference subtracts (the row's largest unmasked score), hence the running quotient.
-/
import proofs.«429930_j75204877353135_3_alg».proof.Proof.Gen.ReferenceIdeal.Read
import proofs.«429930_j75204877353135_3_alg».proof.Proof.Spec
import proofs.«429930_j75204877353135_3_alg».proof.Proof.SpecLaws
import Idealize.ShloMosaic.Lib.ValueIdx
import Idealize.ShloMosaic.Lib.IdealHost
import Idealize.ShloMosaic.PureOps.Ideal.Laws
import Mathlib.Data.Finset.Fold

noncomputable section

namespace Cert.ReferenceIdeal.RefVal

open Idealize.ShloMosaic Idealize.ShloMosaic.ValueIdx Cert.ReferenceIdeal Cert.ReferenceIdeal.Read

/-- The f32 pattern of sixty-four. -/
private theorem ofBits_64 : Ideal.ofBits .f32 0x42800000#32 = ((64 : ℝ) : EReal) := by
  simp [Ideal.ofBits, Ideal.ieee, -EReal.coe_mul]; norm_num

/-- The f32 pattern of minus infinity. -/
private theorem ofBits_ninf : Ideal.ofBits .f32 0xFF800000#32 = (⊥ : EReal) := by
  simp [Ideal.ofBits, Ideal.ieee]

/-- The coercion of the reals into the extended reals commutes with finite sums. -/
private theorem coe_sum {ι : Type} (s : Finset ι) (f : ι → ℝ) :
    ((∑ k ∈ s, f k : ℝ) : EReal) = ∑ k ∈ s, ((f k : ℝ) : EReal) := by
  classical
  induction s using Finset.induction_on with
  | empty => simp
  | insert a s ha ih => rw [Finset.sum_insert ha, Finset.sum_insert ha, EReal.coe_add, ih]

/-- The square root of sixty-four is eight. -/
private theorem sqrt64 : Real.sqrt 64 = 8 := by
  rw [show (64:ℝ) = 8^2 by norm_num]; exact Real.sqrt_sq (by norm_num)

section
variable (D : Cert.Attn.Data)
  (x0 : (⟨S8192x512, .f32⟩ : BufTy).Contents (Elt Ideal)) (x1 : (⟨S8192x8192, .i32⟩ : BufTy).Contents (Elt Ideal))
  (x2 x3 x4 : (⟨S64x512, .f32⟩ : BufTy).Contents (Elt Ideal))

/-- A product of an input row with a weight row, summed over the 512 features, is the real sum's coercion. -/
private theorem proj_coe (w : Fin 64 → Fin 512 → ℝ) (xw : (⟨S64x512, .f32⟩ : BufTy).Contents (Elt Ideal))
    (h0 : ∀ (i : Fin 8192) (k : Fin 512), x0 (ix2 i k) = ((D.x i k : ℝ) : EReal))
    (hw : ∀ (d : Fin 64) (k : Fin 512), xw (ix2 d k) = ((w d k : ℝ) : EReal)) (j : Fin 8192) (d : Fin 64) :
    (∑ k : Fin 512, x0 (ix2 j k) * xw (ix2 d k) : EReal) = ((∑ k : Fin 512, D.x j k * w d k : ℝ) : EReal) := by
  rw [coe_sum]
  refine Finset.sum_congr rfl fun k _ => ?_
  rw [h0, hw, EReal.coe_mul]

/-- The keys. -/
private theorem v1_val (h0 : ∀ (i : Fin 8192) (k : Fin 512), x0 (ix2 i k) = ((D.x i k : ℝ) : EReal))
    (h2 : ∀ (d : Fin 64) (k : Fin 512), x2 (ix2 d k) = ((D.wk d k : ℝ) : EReal)) (j : Fin 8192) (d : Fin 64) :
    val_main_v1 (F := Ideal) x0 x2 (ix2 j d) = ((Cert.Attn.kp D j d : ℝ) : EReal) := by
  rw [val_main_v1_apply]
  simp only [val_main_v0_apply]
  have e1 : ∀ k : Fin 512, lidx_main_v1 (ix2 j d) k = ix2 j k := fun k =>
    funext fun a => Fin.ext (by match a with | ⟨0, _⟩ => rfl | ⟨1, _⟩ => rfl)
  have e2 : ∀ k : Fin 512, idx_main_v0 (ridx_main_v1 (ix2 j d) k) = ix2 d k := fun k =>
    funext fun a => Fin.ext (by match a with | ⟨0, _⟩ => rfl | ⟨1, _⟩ => rfl)
  simp only [e1, e2]
  exact proj_coe D x0 D.wk x2 h0 h2 j d

/-- The queries. -/
private theorem v3_val (h0 : ∀ (i : Fin 8192) (k : Fin 512), x0 (ix2 i k) = ((D.x i k : ℝ) : EReal))
    (h3 : ∀ (d : Fin 64) (k : Fin 512), x3 (ix2 d k) = ((D.wq d k : ℝ) : EReal)) (j : Fin 8192) (d : Fin 64) :
    val_main_v3 (F := Ideal) x0 x3 (ix2 j d) = ((Cert.Attn.qp D j d : ℝ) : EReal) := by
  rw [val_main_v3_apply]
  simp only [val_main_v2_apply]
  have e1 : ∀ k : Fin 512, lidx_main_v3 (ix2 j d) k = ix2 j k := fun k =>
    funext fun a => Fin.ext (by match a with | ⟨0, _⟩ => rfl | ⟨1, _⟩ => rfl)
  have e2 : ∀ k : Fin 512, idx_main_v2 (ridx_main_v3 (ix2 j d) k) = ix2 d k := fun k =>
    funext fun a => Fin.ext (by match a with | ⟨0, _⟩ => rfl | ⟨1, _⟩ => rfl)
  simp only [e1, e2]
  exact proj_coe D x0 D.wq x3 h0 h3 j d

/-- The values. -/
private theorem v5_val (h0 : ∀ (i : Fin 8192) (k : Fin 512), x0 (ix2 i k) = ((D.x i k : ℝ) : EReal))
    (h4 : ∀ (d : Fin 64) (k : Fin 512), x4 (ix2 d k) = ((D.wv d k : ℝ) : EReal)) (j : Fin 8192) (d : Fin 64) :
    val_main_v5 (F := Ideal) x0 x4 (ix2 j d) = ((Cert.Attn.vp D j d : ℝ) : EReal) := by
  rw [val_main_v5_apply]
  simp only [val_main_v4_apply]
  have e1 : ∀ k : Fin 512, lidx_main_v5 (ix2 j d) k = ix2 j k := fun k =>
    funext fun a => Fin.ext (by match a with | ⟨0, _⟩ => rfl | ⟨1, _⟩ => rfl)
  have e2 : ∀ k : Fin 512, idx_main_v4 (ridx_main_v5 (ix2 j d) k) = ix2 d k := fun k =>
    funext fun a => Fin.ext (by match a with | ⟨0, _⟩ => rfl | ⟨1, _⟩ => rfl)
  simp only [e1, e2]
  exact proj_coe D x0 D.wv x4 h0 h4 j d

/-- The scale: one over the square root of sixty-four is one eighth. -/
private theorem v10_val (p : S8192x8192.Idx) : val_main_v10 (F := Ideal) p = (((1 : ℝ) / 8 : ℝ) : EReal) := by
  rw [val_main_v10_apply, val_main_v7_apply, val_main_cst_0_apply, val_main_v6_apply, val_main_cst_apply]
  rw [Ideal.hostDivf_def, Ideal.hostUnary_sqrt_def, Ideal.ofBits_def, Ideal.ofBits_def, Ideal.ofBits_one_f32, ofBits_64,
    Ideal.sqrt_coe, if_neg (by norm_num), sqrt64, Ideal.div_coe (by norm_num), one_mul]

/-- The raw scores: the query row against the key row. -/
private theorem v9_val (h0 : ∀ (i : Fin 8192) (k : Fin 512), x0 (ix2 i k) = ((D.x i k : ℝ) : EReal))
    (h2 : ∀ (d : Fin 64) (k : Fin 512), x2 (ix2 d k) = ((D.wk d k : ℝ) : EReal))
    (h3 : ∀ (d : Fin 64) (k : Fin 512), x3 (ix2 d k) = ((D.wq d k : ℝ) : EReal)) (i j : Fin 8192) :
    val_main_v9 (F := Ideal) x0 x2 x3 (ix2 i j)
      = ((∑ d : Fin 64, Cert.Attn.qp D i d * Cert.Attn.kp D j d : ℝ) : EReal) := by
  rw [val_main_v9_apply]
  simp only [val_main_v8_apply]
  have e1 : ∀ k : Fin 64, lidx_main_v9 (ix2 i j) k = ix2 i k := fun k =>
    funext fun a => Fin.ext (by match a with | ⟨0, _⟩ => rfl | ⟨1, _⟩ => rfl)
  have e2 : ∀ k : Fin 64, idx_main_v8 (ridx_main_v9 (ix2 i j) k) = ix2 j k := fun k =>
    funext fun a => Fin.ext (by match a with | ⟨0, _⟩ => rfl | ⟨1, _⟩ => rfl)
  simp only [e1, e2]
  rw [coe_sum]
  refine Finset.sum_congr rfl fun k _ => ?_
  rw [v3_val D x0 x3 h0 h3, v1_val D x0 x2 h0 h2, EReal.coe_mul]

/-- The scaled scores. -/
private theorem v11_val (h0 : ∀ (i : Fin 8192) (k : Fin 512), x0 (ix2 i k) = ((D.x i k : ℝ) : EReal))
    (h2 : ∀ (d : Fin 64) (k : Fin 512), x2 (ix2 d k) = ((D.wk d k : ℝ) : EReal))
    (h3 : ∀ (d : Fin 64) (k : Fin 512), x3 (ix2 d k) = ((D.wq d k : ℝ) : EReal)) (i j : Fin 8192) :
    val_main_v11 (F := Ideal) x0 x2 x3 (ix2 i j) = ((Cert.Attn.es D i j : ℝ) : EReal) := by
  rw [val_main_v11_apply, Ideal.mulf_def, v9_val D x0 x2 x3 h0 h2 h3, v10_val, ← EReal.coe_mul]
  rfl

/-- The masked scores: minus infinity where the mask word is zero, the scaled score where it is one. -/
private theorem v14_val (hD : D.Ok) (h0 : ∀ (i : Fin 8192) (k : Fin 512), x0 (ix2 i k) = ((D.x i k : ℝ) : EReal))
    (h1 : ∀ (i j : Fin 8192), x1 (ix2 i j) = D.mw i j)
    (h2 : ∀ (d : Fin 64) (k : Fin 512), x2 (ix2 d k) = ((D.wk d k : ℝ) : EReal))
    (h3 : ∀ (d : Fin 64) (k : Fin 512), x3 (ix2 d k) = ((D.wq d k : ℝ) : EReal)) (i j : Fin 8192) :
    val_main_v14 (F := Ideal) x0 x1 x2 x3 (ix2 i j)
      = if D.mw i j = 0#32 then (⊥ : EReal) else ((Cert.Attn.es D i j : ℝ) : EReal) := by
  rw [val_main_v14_apply, val_main_v13_apply, val_main_v12_apply, val_main_c_apply, val_main_call0_v0_apply,
    val_main_cst_1_apply, v11_val D x0 x2 x3 h0 h2 h3, h1, Ideal.ofBits_def, ofBits_ninf]
  by_cases hm : D.mw i j = 0#32
  · rw [if_pos hm, hm]; rfl
  · rw [if_neg hm]
    rcases hD.bin i j with h | h
    · exact absurd h hm
    · rw [h]; rfl

/-- A maximum from minus infinity over entries all below plus infinity, one of them real, is a real. -/
private theorem fold_max_real {ι : Type} (s : Finset ι) (f : ι → EReal) (hlt : ∀ k ∈ s, f k < ⊤)
    (j : ι) (hj : j ∈ s) (r : ℝ) (hr : f j = (r : EReal)) : ∃ σ : ℝ, s.fold max (⊥ : EReal) f = (σ : EReal) := by
  have htop : s.fold max (⊥ : EReal) f ≠ ⊤ :=
    ne_of_lt ((Finset.fold_max_lt _).mpr ⟨bot_lt_top, hlt⟩)
  have hge : (r : EReal) ≤ s.fold max (⊥ : EReal) f :=
    (Finset.le_fold_max _).mpr (Or.inr ⟨j, hj, le_of_eq hr.symm⟩)
  have hbot : s.fold max (⊥ : EReal) f ≠ ⊥ := fun e => by
    rw [e] at hge; exact absurd hge (not_le.mpr (EReal.bot_lt_coe r))
  exact ⟨(s.fold max (⊥ : EReal) f).toReal, (EReal.coe_toReal htop hbot).symm⟩

/-- The row maximum of the masked scores is a real. -/
private theorem v17_val (hD : D.Ok) (h0 : ∀ (i : Fin 8192) (k : Fin 512), x0 (ix2 i k) = ((D.x i k : ℝ) : EReal))
    (h1 : ∀ (i j : Fin 8192), x1 (ix2 i j) = D.mw i j)
    (h2 : ∀ (d : Fin 64) (k : Fin 512), x2 (ix2 d k) = ((D.wk d k : ℝ) : EReal))
    (h3 : ∀ (d : Fin 64) (k : Fin 512), x3 (ix2 d k) = ((D.wq d k : ℝ) : EReal)) (i : Fin 8192) :
    ∃ σ : ℝ, val_main_v17 (F := Ideal) x0 x1 x2 x3 (ix1 i) = ((σ : ℝ) : EReal) := by
  have hR : Shape.Reduces S8192x8192 [1] S8192 := by decide
  rw [val_main_v17_apply, val_main_v16_apply, val_main_cst_3_apply, Ideal.ofBits_def, ofBits_ninf, Ideal.maximumf_def,
    max_eq_right bot_le]
  unfold val_main_v15
  rw [Host.reduce_eq_fold_single FloatOps.maximumf _ _ Facts₀.reducesTo_S8192x8192_S8192_d1 hR Facts₀.h_S_,
    val_main_cst_2_apply, Ideal.ofBits_def, ofBits_ninf]
  have key : ∀ k : Fin (S8192x8192.size 1),
      (val_main_v14 (F := Ideal) x0 x1 x2 x3 ∘ hR.lift (ix1 i)) k
        = if D.mw i ⟨k.val, k.isLt⟩ = 0#32 then (⊥ : EReal) else ((Cert.Attn.es D i ⟨k.val, k.isLt⟩ : ℝ) : EReal) := by
    intro k
    have e : hR.lift (ix1 i) k = ix2 i (⟨k.val, k.isLt⟩ : Fin 8192) :=
      funext fun a => Fin.ext (by match a with | ⟨0, _⟩ => rfl | ⟨1, _⟩ => rfl)
    rw [Function.comp_apply, e, v14_val D x0 x1 x2 x3 hD h0 h1 h2 h3]
  obtain ⟨j0, hj0⟩ := hD.row i
  refine fold_max_real Finset.univ _ (fun k _ => ?_) (⟨j0.val, j0.isLt⟩ : Fin (S8192x8192.size 1)) (Finset.mem_univ _)
    (Cert.Attn.es D i j0) ?_
  · rw [key]; split
    · exact bot_lt_top
    · exact EReal.coe_lt_top _
  · rw [key]
    have : (⟨(⟨j0.val, j0.isLt⟩ : Fin (S8192x8192.size 1)).val, (⟨j0.val, j0.isLt⟩ : Fin (S8192x8192.size 1)).isLt⟩ : Fin 8192) = j0 := rfl
    rw [this, hj0, if_neg (by decide)]

/-- The weight of a mask word is zero or one. -/
private theorem wgt_cases (hD : D.Ok) (i j : Fin 8192) :
    (D.mw i j = 0#32 ∧ Cert.Attn.wgt D i j = 0) ∨ (D.mw i j = 1#32 ∧ Cert.Attn.wgt D i j = 1) := by
  rcases hD.bin i j with h | h
  · exact Or.inl ⟨h, by unfold Cert.Attn.wgt; rw [h]; norm_num⟩
  · exact Or.inr ⟨h, by unfold Cert.Attn.wgt; rw [h]; norm_num⟩

section shifted
variable (hD : D.Ok) (h0 : ∀ (i : Fin 8192) (k : Fin 512), x0 (ix2 i k) = ((D.x i k : ℝ) : EReal))
    (h1 : ∀ (i j : Fin 8192), x1 (ix2 i j) = D.mw i j)
    (h2 : ∀ (d : Fin 64) (k : Fin 512), x2 (ix2 d k) = ((D.wk d k : ℝ) : EReal))
    (h3 : ∀ (d : Fin 64) (k : Fin 512), x3 (ix2 d k) = ((D.wq d k : ℝ) : EReal))
    (i : Fin 8192) (σ : ℝ) (hσ : val_main_v17 (F := Ideal) x0 x1 x2 x3 (ix1 i) = ((σ : ℝ) : EReal))
include hD h0 h1 h2 h3 hσ

/-- The exponentials of the shifted masked scores: zero at a masked key, the real exponential at an unmasked one. -/
private theorem v21_val (j : Fin 8192) :
    val_main_v21 (F := Ideal) x0 x1 x2 x3 (ix2 i j)
      = ((Cert.Attn.wgt D i j * Real.exp (Cert.Attn.es D i j - σ) : ℝ) : EReal) := by
  have e : idx_main_v18 (idx_main_v19 (ix2 i j)) = ix1 i :=
    funext fun a => Fin.ext (by match a with | ⟨0, _⟩ => rfl)
  rw [val_main_v21_apply, val_main_v20_apply, val_main_v19_apply, val_main_v18_apply, e, hσ,
    v14_val D x0 x1 x2 x3 hD h0 h1 h2 h3, Ideal.hostUnary_exp_def, Ideal.subf_def]
  rcases wgt_cases D hD i j with ⟨hm, hw⟩ | ⟨hm, hw⟩
  · rw [if_pos hm, EReal.bot_sub, Ideal.exp_bot, hw, zero_mul, EReal.coe_zero]
  · rw [if_neg (by rw [hm]; decide), ← EReal.coe_sub, Ideal.exp_coe, hw, one_mul]

/-- The row sum of the exponentials. -/
private theorem v22_val :
    val_main_v22 (F := Ideal) x0 x1 x2 x3 (ix1 i)
      = ((∑ k : Fin 8192, Cert.Attn.wgt D i k * Real.exp (Cert.Attn.es D i k - σ) : ℝ) : EReal) := by
  rw [val_main_v22_apply, val_main_cst_4_apply, Ideal.ofBits_def, Ideal.ofBits_zero_f32, zero_add, coe_sum]
  refine Finset.sum_congr rfl fun k _ => ?_
  have e : idx_main_v22 (ix1 i) k = ix2 i k :=
    funext fun a => Fin.ext (by match a with | ⟨0, _⟩ => rfl | ⟨1, _⟩ => rfl)
  rw [e, v21_val D x0 x1 x2 x3 hD h0 h1 h2 h3 i σ hσ]

omit h0 h1 h2 h3 hσ in
/-- The row sum is positive: every term is at least zero and an unmasked key's is an exponential. -/
private theorem den_pos : 0 < ∑ k : Fin 8192, Cert.Attn.wgt D i k * Real.exp (Cert.Attn.es D i k - σ) := by
  obtain ⟨j0, hj0⟩ := hD.row i
  refine Finset.sum_pos' (fun k _ => ?_) ⟨j0, Finset.mem_univ _, ?_⟩
  · rcases wgt_cases D hD i k with ⟨_, hw⟩ | ⟨_, hw⟩ <;> rw [hw]
    · rw [zero_mul]
    · rw [one_mul]; exact (Real.exp_pos _).le
  · rcases wgt_cases D hD i j0 with ⟨hm, _⟩ | ⟨_, hw⟩
    · rw [hj0] at hm; exact absurd hm (by decide)
    · rw [hw, one_mul]; exact Real.exp_pos _

/-- The softmax weights. -/
private theorem v25_val (j : Fin 8192) :
    val_main_v25 (F := Ideal) x0 x1 x2 x3 (ix2 i j)
      = ((Cert.Attn.wgt D i j * Real.exp (Cert.Attn.es D i j - σ)
          / ∑ k : Fin 8192, Cert.Attn.wgt D i k * Real.exp (Cert.Attn.es D i k - σ) : ℝ) : EReal) := by
  have e : idx_main_v23 (idx_main_v24 (ix2 i j)) = ix1 i :=
    funext fun a => Fin.ext (by match a with | ⟨0, _⟩ => rfl)
  rw [val_main_v25_apply, val_main_v24_apply, val_main_v23_apply, e, v22_val D x0 x1 x2 x3 hD h0 h1 h2 h3 i σ hσ,
    v21_val D x0 x1 x2 x3 hD h0 h1 h2 h3 i σ hσ, Ideal.hostDivf_def, Ideal.div_coe (den_pos D hD i σ).ne',
    ← EReal.coe_mul, mul_one_div]

end shifted

end

theorem ref_apply (D : Cert.Attn.Data) (hD : D.Ok)
    (x0 : (⟨S8192x512, .f32⟩ : BufTy).Contents (Elt Ideal)) (x1 : (⟨S8192x8192, .i32⟩ : BufTy).Contents (Elt Ideal))
    (x2 x3 x4 : (⟨S64x512, .f32⟩ : BufTy).Contents (Elt Ideal))
    (h0 : ∀ (i : Fin 8192) (k : Fin 512), x0 (ix2 i k) = ((D.x i k : ℝ) : EReal))
    (h1 : ∀ (i j : Fin 8192), x1 (ix2 i j) = D.mw i j)
    (h2 : ∀ (d : Fin 64) (k : Fin 512), x2 (ix2 d k) = ((D.wk d k : ℝ) : EReal))
    (h3 : ∀ (d : Fin 64) (k : Fin 512), x3 (ix2 d k) = ((D.wq d k : ℝ) : EReal))
    (h4 : ∀ (d : Fin 64) (k : Fin 512), x4 (ix2 d k) = ((D.wv d k : ℝ) : EReal))
    (i : Fin 8192) (c : Fin 64) :
    val_main_v26 (F := Ideal) x0 x1 x2 x3 x4 (ix2 i c) = ((Cert.Attn.attn D i c : ℝ) : EReal) := by
  obtain ⟨σ, hσ⟩ := v17_val D x0 x1 x2 x3 hD h0 h1 h2 h3 i
  rw [← Cert.Attn.softmaxForm_eq_attn D hD σ i c, val_main_v26_apply]
  have e1 : ∀ k : Fin 8192, lidx_main_v26 (ix2 i c) k = ix2 i k := fun k =>
    funext fun a => Fin.ext (by match a with | ⟨0, _⟩ => rfl | ⟨1, _⟩ => rfl)
  have e2 : ∀ k : Fin 8192, ridx_main_v26 (ix2 i c) k = ix2 k c := fun k =>
    funext fun a => Fin.ext (by match a with | ⟨0, _⟩ => rfl | ⟨1, _⟩ => rfl)
  simp only [e1, e2]
  unfold Cert.Attn.softmaxForm
  rw [coe_sum]
  refine Finset.sum_congr rfl fun k _ => ?_
  rw [v25_val D x0 x1 x2 x3 hD h0 h1 h2 h3 i σ hσ, v5_val D x0 x4 h0 h4, EReal.coe_mul]

end Cert.ReferenceIdeal.RefVal

end
-- ==== Proof.PreDecode.lean ====
/-
  What the precondition says of the inputs: every float entry is a real number, every mask word is 0 or 1, and every
  row of the mask holds a 1 (the count of its nonzero words is at least one).
-/
import proofs.«429930_j75204877353135_3_alg».proof.Proof.Gen.Pre_finite_inputs
import proofs.«429930_j75204877353135_3_alg».proof.Proof.Spec
import Idealize.ShloMosaic.Lib.ValueIdx
import Idealize.ShloMosaic.Lib.ReduceAll
import Idealize.ShloMosaic.Lib.StableHlo.Predicate

noncomputable section

namespace Cert.PreDecode

open Idealize.ShloMosaic Idealize.ShloMosaic.ValueIdx Cert.Pre_finite_inputs

/-- The scalar shape has one index. -/
private instance : Subsingleton S_.Idx := ⟨fun a b => funext fun d => d.elim0⟩

/-- The word 0x7F800000 denotes +∞. -/
private theorem inf_bits : Ideal.ofBits .f32 0x7F800000#32 = (⊤ : EReal) := by
  simp [Ideal.ofBits, Ideal.ieee]

/-- An extended real whose absolute value max x (-x) is below +∞ is a real number. -/
private theorem real_of_abs_lt (x : EReal)
    (h : Ideal.cmp .olt (max x (-x)) (Ideal.ofBits .f32 0x7F800000#32) = 1#1) : ∃ r : ℝ, x = (r : EReal) := by
  rw [inf_bits] at h
  induction x using EReal.rec with
  | bot => simp [Ideal.cmp] at h
  | coe r => exact ⟨r, rfl⟩
  | top => simp [Ideal.cmp] at h

/-- The two ways of writing the index (p, q) of a rectangle agree. -/
private theorem ij_eq_ix2 {n m : Nat} (p : Fin n) (q : Fin m) : StableHlo.Predicate.ij p q = ix2 p q := by
  funext b; match b with | ⟨0, _⟩ => rfl | ⟨1, _⟩ => rfl

theorem data_of_pre [Cert.Pre_finite_inputs.Facts]
    (a0 : FVec Ideal S8192x512 .f32) (a1 : IVec S8192x8192 32) (a2 a3 a4 : FVec Ideal S64x512 .f32)
    (h : Cert.Pre_finite_inputs.fn (F := Ideal) a0 a1 a2 a3 a4 = fun _ => 1#1) :
    ∃ D : Cert.Attn.Data, D.Ok
      ∧ (∀ (i : Fin 8192) (k : Fin 512), a0 (ix2 i k) = ((D.x i k : ℝ) : EReal))
      ∧ (∀ (i j : Fin 8192), a1 (ix2 i j) = D.mw i j)
      ∧ (∀ (d : Fin 64) (k : Fin 512), a2 (ix2 d k) = ((D.wk d k : ℝ) : EReal))
      ∧ (∀ (d : Fin 64) (k : Fin 512), a3 (ix2 d k) = ((D.wq d k : ℝ) : EReal))
      ∧ (∀ (d : Fin 64) (k : Fin 512), a4 (ix2 d k) = ((D.wv d k : ℝ) : EReal)) := by
  -- the claim at the scalar's one index is a conjunction of six tests
  have h0 := congrFun h ValueIdx.ix0
  dsimp only [fn, fn_part1, fn_part2] at h0
  obtain ⟨h25, h32⟩ := IntOp.andi_eq_one.1 h0
  obtain ⟨h18, h24⟩ := IntOp.andi_eq_one.1 h25
  obtain ⟨h13, h17⟩ := IntOp.andi_eq_one.1 h18
  obtain ⟨h8, h12⟩ := IntOp.andi_eq_one.1 h13
  obtain ⟨h3, h7⟩ := IntOp.andi_eq_one.1 h8
  clear h0 h25 h18 h13 h8
  -- every float entry is a real
  have f0 : ∀ i, ∃ r : ℝ, a0 i = (r : EReal) := fun i => real_of_abs_lt (a0 i) (Host.reduce_andi_all _ _ _ _ _ h3 i)
  have f2 : ∀ i, ∃ r : ℝ, a2 i = (r : EReal) := fun i => real_of_abs_lt (a2 i) (Host.reduce_andi_all _ _ _ _ _ h7 i)
  have f3 : ∀ i, ∃ r : ℝ, a3 i = (r : EReal) := fun i => real_of_abs_lt (a3 i) (Host.reduce_andi_all _ _ _ _ _ h12 i)
  have f4 : ∀ i, ∃ r : ℝ, a4 i = (r : EReal) := fun i => real_of_abs_lt (a4 i) (Host.reduce_andi_all _ _ _ _ _ h17 i)
  -- every mask word is 0 or 1
  have hbin : ∀ i : S8192x8192.Idx, a1 i = 0#32 ∨ a1 i = 1#32 := by
    intro i
    have e := Host.reduce_andi_all _ _ _ _ _ h24 i
    rcases IntOp.ori_eq_one.1 e with e | e
    · exact Or.inl (IntOp.cmpi_eq.1 e)
    · exact Or.inr (IntOp.cmpi_eq.1 e)
  -- every row's count of nonzero words is at least 1, so the row holds a nonzero word, which is then 1
  have hrow : ∀ p : Fin 8192, ∃ q : Fin 8192, a1 (ix2 p q) = 1#32 := by
    intro p
    have e := Host.reduce_andi_all _ _ _ _ _ h32 (ix1 p)
    have hc := StableHlo.Predicate.toNat_reduce_count_cols (n := 8192) (m := 8192) (by norm_num)
      (cmpi .ne a1 (broadcastInDim S8192x8192 ![] Facts.bcast_S_S8192x8192 (constantI S_ 32 0#32)))
      Facts.natLt_1_32 Facts.reducesTo_S8192x8192_S8192_d1 Facts.h_S_ (ix1 p)
    have hle : (Finset.univ.filter (fun q : Fin 8192 =>
        cmpi .ne a1 (broadcastInDim S8192x8192 ![] Facts.bcast_S_S8192x8192 (constantI S_ 32 0#32))
          (StableHlo.Predicate.ij ((ix1 p : S8192.Idx) 0) q) = 1#1)).card ≤ 8192 :=
      (Finset.card_le_univ _).trans (by simp)
    have h1 := (StableHlo.Predicate.sge_iff_toNat (by rw [hc]; omega) (show (1#32 : BitVec 32).toNat < 2 ^ 31 by decide)).1 e
    rw [hc] at h1
    have hpos : 0 < (Finset.univ.filter (fun q : Fin 8192 =>
        cmpi .ne a1 (broadcastInDim S8192x8192 ![] Facts.bcast_S_S8192x8192 (constantI S_ 32 0#32))
          (StableHlo.Predicate.ij ((ix1 p : S8192.Idx) 0) q) = 1#1)).card := h1
    obtain ⟨q, hq⟩ := Finset.card_pos.1 hpos
    have hq' := (Finset.mem_filter.1 hq).2
    have hne : a1 (StableHlo.Predicate.ij p q) ≠ 0#32 := IntOp.cmpi_ne.1 hq'
    rw [ij_eq_ix2] at hne
    exact ⟨q, (hbin (ix2 p q)).resolve_left hne⟩
  choose x hx using f0
  choose wk hwk using f2
  choose wq hwq using f3
  choose wv hwv using f4
  refine ⟨⟨fun i k => x (ix2 i k), fun d k => wk (ix2 d k), fun d k => wq (ix2 d k), fun d k => wv (ix2 d k),
    fun i j => a1 (ix2 i j)⟩, ⟨fun i j => hbin (ix2 i j), hrow⟩, fun i k => hx _, fun _ _ => rfl,
    fun d k => hwk _, fun d k => hwq _, fun d k => hwv _⟩

end Cert.PreDecode

end
-- ==== Proof.Claims.lean ====
/-
  The five conjuncts. The two kernel frames are the frame run of the region (one text for both float families); the
  reference's frame is its run with the result dropped; the idealization rewrote nothing. For the algebraic claim:
  under the precondition the float inputs are real arrays, the mask holds zeros and ones and every row holds a one; the
  kernel's result array is then, entry by entry, the running quotient `attn` of those reals (the induction over the
  grid points), and the reference's result is the softmax-weighted mean of the values, which is the same quotient.
-/
import proofs.«429930_j75204877353135_3_alg».proof.Defs
import proofs.«429930_j75204877353135_3_alg».proof.Proof.Gen.Kernel
import proofs.«429930_j75204877353135_3_alg».proof.Proof.Gen.KernelIdeal
import proofs.«429930_j75204877353135_3_alg».proof.Proof.Gen.ReferenceIdeal
import proofs.«429930_j75204877353135_3_alg».proof.Proof.Gen.Pre_finite_inputs
import proofs.«429930_j75204877353135_3_alg».proof.Proof.Gen.ReferenceIdeal.Run
import proofs.«429930_j75204877353135_3_alg».proof.Proof.Gen.ReferenceIdeal.Read
import proofs.«429930_j75204877353135_3_alg».proof.Proof.KernelFrame
import proofs.«429930_j75204877353135_3_alg».proof.Proof.KernelIdealFrame
import proofs.«429930_j75204877353135_3_alg».proof.Proof.KernelFinal
import proofs.«429930_j75204877353135_3_alg».proof.Proof.Invariant
import proofs.«429930_j75204877353135_3_alg».proof.Proof.RefValue
import proofs.«429930_j75204877353135_3_alg».proof.Proof.PreDecode

noncomputable section

namespace Cert.Proof.Claims

open Idealize.ShloMosaic Idealize.ShloMosaic.TcCoe Idealize.ShloMosaic.ValueIdx Idealize.SL.Sem

theorem frame_k : Cert.frame_Kernel := fun m ρ _ => Cert.Kernel.Fr.frame m ρ

theorem frame_ki : Cert.frame_KernelIdeal := fun m ρ _ => Cert.KernelIdeal.Fr.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

theorem algebraic : Cert.algebraic_KernelIdeal_ReferenceIdeal := by
  intro m ρ m' ρ' hpre hagree
  refine ⟨fun c => Cert.KernelIdeal.Fin.G m c, Cert.KernelIdeal.Fin.run (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨D, hD, h0, h1, h2, h3, h4⟩ := Cert.PreDecode.data_of_pre _ _ _ _ _ (hpre c)
  obtain ⟨e0, e1, e2, e3, e4⟩ := hagree c
  rw [Cert.ReferenceIdeal.Read.val_main_v26_eq, e0, e1, e2, e3, e4]
  funext idx
  rw [eq_ix2 idx]
  refine (Cert.ReferenceIdeal.RefVal.ref_apply D hD _ _ _ _ _ h0 h1 h2 h3 h4 (idx 0) (idx 1)).trans ?_
  exact (Cert.KernelIdeal.Inv.G_eq m c D h0 h1 h2 h3 h4 hD (idx 0) (idx 1)).symm

end Cert.Proof.Claims

end
-- ==== Proof.lean ====
/-
  Single-head attention with a 0/1 mask, f32[8192, 512] inputs projected to 64 features: a Pallas kernel that visits the
  keys in four blocks of 2048 with a running row maximum and a rescaled running sum (the normaliser carried as an extra
  column of ones appended to the values), against jnp's softmax of the masked scaled scores times the values. Over the
  extended reals, for finite inputs, a mask of zeros and ones and no fully masked row, both are the same quotient
  `(∑ⱼ wᵢⱼ e^{sᵢⱼ - M} vⱼ) / (∑ⱼ wᵢⱼ e^{sᵢⱼ - M})`: the kernel's, by induction over its grid points; the reference's,
  because a softmax does not depend on the constant subtracted from the scores, and the scale 1/8 may stand on the
  query weights or on the scores. The conjuncts are proved in `Proof/Claims.lean`.
-/
import proofs.«429930_j75204877353135_3_alg».proof.Defs
import proofs.«429930_j75204877353135_3_alg».proof.Proof.Gen.Kernel
import proofs.«429930_j75204877353135_3_alg».proof.Proof.Gen.Kernel.Skeleton
import proofs.«429930_j75204877353135_3_alg».proof.Proof.Gen.Kernel.Launch
import proofs.«429930_j75204877353135_3_alg».proof.Proof.Gen.Kernel.Points
import proofs.«429930_j75204877353135_3_alg».proof.Proof.Gen.KernelIdeal
import proofs.«429930_j75204877353135_3_alg».proof.Proof.Gen.KernelIdeal.Skeleton
import proofs.«429930_j75204877353135_3_alg».proof.Proof.Gen.KernelIdeal.Launch
import proofs.«429930_j75204877353135_3_alg».proof.Proof.Gen.KernelIdeal.Points
import proofs.«429930_j75204877353135_3_alg».proof.Proof.Gen.ReferenceIdeal
import proofs.«429930_j75204877353135_3_alg».proof.Proof.Gen.Pre_finite_inputs
import proofs.«429930_j75204877353135_3_alg».proof.Proof.Gen.ReferenceIdeal.Run
import proofs.«429930_j75204877353135_3_alg».proof.Proof.Gen.ReferenceIdeal.Read
import proofs.«429930_j75204877353135_3_alg».proof.Proof.Claims
import Idealize.ShloMosaic.Adequacy
import Idealize.ShloMosaic.Init

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
